-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S4096 : Shape := ⟨1, ![4096]⟩
abbrev S2048 : Shape := ⟨1, ![2048]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg5 : IVec S2048 32) (main_arg6 : IVec S2048 32) (main_v31 : IVec S_ 1) (main_v32 : IVec S2048 32) : IVec S_ 1 :=
  let main_v33 : IVec S2048 1 := cmpi .sge main_arg5 main_v32
  let main_c_13 : IVec S_ 32 := constantI S_ 32 100000#32
  let main_v34 : IVec S2048 32 := broadcastInDim S2048 ![] bcast_S_S2048 main_c_13
  let main_v35 : IVec S2048 1 := cmpi .slt main_arg5 main_v34
  let main_v36 : IVec S2048 1 := andi main_v33 main_v35
  let main_c_14 : IVec S_ 1 := constantI S_ 1 1#1
  let main_v37 : IVec S_ 1 := (fun x v => Host.reduce IntOp.andi x v reducesTo_S2048_S_d0 h_S_) main_v36 main_c_14
  let main_v38 : IVec S_ 1 := andi main_v31 main_v37
  let main_c_15 : IVec S_ 32 := constantI S_ 32 0#32
  let main_v39 : IVec S2048 32 := broadcastInDim S2048 ![] bcast_S_S2048 main_c_15
  let main_v40 : IVec S2048 1 := cmpi .sge main_arg6 main_v39
  let main_c_16 : IVec S_ 32 := constantI S_ 32 512#32
  let main_v41 : IVec S2048 32 := broadcastInDim S2048 ![] bcast_S_S2048 main_c_16
  let main_v42 : IVec S2048 1 := cmpi .slt main_arg6 main_v41
  let main_v43 : IVec S2048 1 := andi main_v40 main_v42
  let main_c_17 : IVec S_ 1 := constantI S_ 1 1#1
  let main_v44 : IVec S_ 1 := (fun x v => Host.reduce IntOp.andi x v reducesTo_S2048_S_d0 h_S_) main_v43 main_c_17
  let main_v45 : IVec S_ 1 := andi main_v38 main_v44
  main_v45

def fn_part1 {F : FTy → Type} [FloatOps F] (main_arg3 : IVec S4096 32) (main_arg4 : IVec S4096 32) (main_arg5 : IVec S2048 32) (main_arg6 : IVec S2048 32) (main_v10 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v10 main_v16
  let main_c_6 : IVec S_ 32 := constantI S_ 32 0#32
  let main_v18 : IVec S4096 32 := broadcastInDim S4096 ![] bcast_S_S4096 main_c_6
  let main_v19 : IVec S4096 1 := cmpi .sge main_arg3 main_v18
  let main_c_7 : IVec S_ 32 := constantI S_ 32 100000#32
  let main_v20 : IVec S4096 32 := broadcastInDim S4096 ![] bcast_S_S4096 main_c_7
  let main_v21 : IVec S4096 1 := cmpi .slt main_arg3 main_v20
  let main_v22 : IVec S4096 1 := andi main_v19 main_v21
  let main_c_8 : IVec S_ 1 := constantI S_ 1 1#1
  let main_v23 : IVec S_ 1 := (fun x v => Host.reduce IntOp.andi x v reducesTo_S4096_S_d0 h_S_) main_v22 main_c_8
  let main_v24 : IVec S_ 1 := andi main_v17 main_v23
  let main_c_9 : IVec S_ 32 := constantI S_ 32 0#32
  let main_v25 : IVec S4096 32 := broadcastInDim S4096 ![] bcast_S_S4096 main_c_9
  let main_v26 : IVec S4096 1 := cmpi .sge main_arg4 main_v25
  let main_c_10 : IVec S_ 32 := constantI S_ 32 512#32
  let main_v27 : IVec S4096 32 := broadcastInDim S4096 ![] bcast_S_S4096 main_c_10
  let main_v28 : IVec S4096 1 := cmpi .slt main_arg4 main_v27
  let main_v29 : IVec S4096 1 := andi main_v26 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v24 main_v30
  let main_c_12 : IVec S_ 32 := constantI S_ 32 0#32
  let main_v32 : IVec S2048 32 := broadcastInDim S2048 ![] bcast_S_S2048 main_c_12
  fn_part2 (F := F) main_arg5 main_arg6 main_v31 main_v32

def fn {F : FTy → Type} [FloatOps F] (main_arg0 : FVec F S100000x512 .f32) (main_arg1 : IVec S4096 32) (main_arg2 : IVec S4096 32) (main_arg3 : IVec S4096 32) (main_arg4 : IVec S4096 32) (main_arg5 : IVec S2048 32) (main_arg6 : IVec S2048 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 100000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S4096 32 := broadcastInDim S4096 ![] bcast_S_S4096 main_c_3
  let main_v12 : IVec S4096 1 := cmpi .sge main_arg2 main_v11
  let main_c_4 : IVec S_ 32 := constantI S_ 32 512#32
  let main_v13 : IVec S4096 32 := broadcastInDim S4096 ![] bcast_S_S4096 main_c_4
  let main_v14 : IVec S4096 1 := cmpi .slt main_arg2 main_v13
  let main_v15 : IVec S4096 1 := andi main_v12 main_v14
  let main_c_5 : IVec S_ 1 := constantI S_ 1 1#1
  fn_part1 (F := F) main_arg3 main_arg4 main_arg5 main_arg6 main_v10 main_v15 main_c_5
-- ==== Kernel.lean ====
abbrev S100000x512 : Shape := ⟨2, ![100000, 512]⟩
abbrev S4096 : Shape := ⟨1, ![4096]⟩
abbrev S2048 : Shape := ⟨1, ![2048]⟩
abbrev S10240 : Shape := ⟨1, ![10240]⟩
abbrev S_ : Shape := ⟨0, ![]⟩
abbrev S16x128 : Shape := ⟨2, ![16, 128]⟩
abbrev S8x128 : Shape := ⟨2, ![8, 128]⟩
abbrev S1x512 : Shape := ⟨2, ![1, 512]⟩
abbrev S1 : Shape := ⟨1, ![1]⟩
abbrev S1x1 : Shape := ⟨2, ![1, 1]⟩

abbrev nBuf : Space → Nat
  | .hbm => 23
  | .vmem => 3
  | .smem => 3
  | _ => 0

abbrev bufTy : (tb : Table) → Fin (tcTables nBuf tb) → BufTy
  | .hbm, ⟨0, _⟩ => ⟨S100000x512, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S2048, .i32⟩
  | .hbm, ⟨6, _⟩ => ⟨S2048, .i32⟩
  | .hbm, ⟨7, _⟩ => ⟨S_, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S_, .i32⟩
  | .hbm, ⟨12, _⟩ => ⟨S2048, .i32⟩
  | .hbm, ⟨13, _⟩ => ⟨S16x128, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S1x512, .f32⟩
  | .local _ .smem, ⟨0, _⟩ => ⟨S10240, .i32⟩
  | .local _ .smem, ⟨1, _⟩ => ⟨S10240, .i32⟩
  | .local _ .smem, ⟨2, _⟩ => ⟨S10240, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v0 : Ref sig .tc := ⟨.smem, 0, rfl⟩
abbrev main_v1 : Ref sig .tc := ⟨.smem, 1, rfl⟩
abbrev main_v5 : Ref sig .tc := ⟨.smem, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 5120], ![false, false]⟩

abbrev pre0 : Pipeline.Prefetch sig := ⟨3, ![main_v0.idx, main_v1.idx, main_v5.idx], fun | 0 => main_v0.names | 1 => main_v1.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c5120_i32 : BitVec 32 := 5120#32
  let v3 : BitVec 32 := Scalar.muli arg0 c5120_i32
  let arg1 : BitVec 32 := BitVec.ofNat 32 (i 1).val
  let v4 : BitVec 32 := Scalar.addi v3 arg1
  let v5 : Index := Scalar.indexCast v4
  ![v5.toNat]
def k0_off2 (v10 : BitVec 32) : Fin 2 → Nat :=
  let c0_i32_1 : BitVec 32 := 0#32
  ![v10.toNat, 0]

def k0_chk1 (v10 : BitVec 32) : Prop :=
  (∀ a, (k0_off2 v10) a + S1x512.size a ≤ S100000x512.size a)
instance k0_chk1.dec : ∀ (v10 : BitVec 32), Decidable (k0_chk1 v10) := fun v10 => decidable_of_iff' _ (Iff.of_eq (k0_chk1.eq_1 v10))
theorem k0_off2_inb : ∀ (v10 : BitVec 32) (k0_hw1 : k0_chk1 v10), ∀ a, (k0_off2 v10) a + S1x512.size a ≤ S100000x512.size a := fun v10 k0_hw1 => k0_hw1

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

class Facts₀ : Prop where
  concatenates_S4096_S4096_S2048_S10240_d0 : Shape.Concatenates [S4096, S4096, S2048] S10240 0
  bcast_S_S4096 : S_.BroadcastsInDim S4096 (![] : Fin 0 → Fin S4096.rank)
  bcast_S_S2048 : S_.BroadcastsInDim S2048 (![] : Fin 0 → Fin S2048.rank)
  inb_S8x128_S8x128_0_0 : ∀ a, (![0, 0] : Fin 2 → Nat) a + S8x128.size a ≤ S8x128.size a
  h_S8x128 : 0 < S8x128.numel
  numel1_S1 : S1.numel = 1
  inb_S1x512_S1x512_0_0 : ∀ a, (![0, 0] : Fin 2 → Nat) a + S1x512.size a ≤ S1x512.size a
  h_S1x512 : 0 < S1x512.numel
  iota_S1x512_d1_w32 : S1x512.Iotas .tc 32 [1]
  reduces_S1x512_S1 : S1x512.Reduces [1] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hcc0_scratch1 : 2 + S_.numel ≤ 3
  hrank0 : 0 < grid0.rank
  k0_off1_inb : ∀ i : grid0.Coords, ∀ a, (k0_off1 i) a + S1.size a ≤ S10240.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x128.size a ≤ S16x128.size a
  hwx0_0 : ∀ i : grid0.Coords, EltTy.bits .f32 = 32 ∨ (Rect.block (s := S16x128) S8x128.size (cc0_transform_1 i) (hinb0_0 i)).WholeWords (EltTy.packing .f32)

variable [Facts₀]

abbrev cc0_scratch1 : DmaSems sig S_ := SemArray.consecutive 2 S_ hcc0_scratch1

abbrev spec0_0 : Pipeline.WinSpec sig grid0.rank :=
  Pipeline.WinSpec.ofSpec (Memref.whole main_v6) S8x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S100000x512 : Shape := ⟨2, ![100000, 512]⟩
abbrev S4096 : Shape := ⟨1, ![4096]⟩
abbrev S2048 : Shape := ⟨1, ![2048]⟩
abbrev S_ : Shape := ⟨0, ![]⟩
abbrev S4096x1 : Shape := ⟨2, ![4096, 1]⟩
abbrev S4096x512 : Shape := ⟨2, ![4096, 512]⟩
abbrev S4096x1x1 : Shape := ⟨3, ![4096, 1, 1]⟩
abbrev S1 : Shape := ⟨1, ![1]⟩
abbrev S1x1x1 : Shape := ⟨3, ![1, 1, 1]⟩
abbrev S2048x1 : Shape := ⟨2, ![2048, 1]⟩
abbrev S2048x2 : Shape := ⟨2, ![2048, 2]⟩

abbrev nBuf : Space → Nat
  | .hbm => 153
  | .vmem => 0
  | .smem => 0
  | _ => 0

abbrev hbmTy0_0 (i : Nat) : BufTy := match i % 128 with
  | 0 => ⟨S100000x512, .f32⟩
  | 1 => ⟨S4096, .i32⟩
  | 2 => ⟨S4096, .i32⟩
  | 3 => ⟨S4096, .i32⟩
  | 4 => ⟨S4096, .i32⟩
  | 5 => ⟨S2048, .i32⟩
  | 6 => ⟨S2048, .i32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S4096x512, .f32⟩
  | 16 => ⟨S4096x1, .i32⟩
  | 17 => ⟨S_, .i32⟩
  | 18 => ⟨S4096x1, .i32⟩
  | 19 => ⟨S4096x1, .i1⟩
  | 20 => ⟨S_, .i32⟩
  | 21 => ⟨S4096x1, .i32⟩
  | 22 => ⟨S4096x1, .i32⟩
  | 23 => ⟨S4096x1, .i32⟩
  | 24 => ⟨S4096x1x1, .i32⟩
  | 25 => ⟨S1, .i32⟩
  | 26 => ⟨S_, .i32⟩
  | 27 => ⟨S4096x1x1, .i32⟩
  | 28 => ⟨S4096x1x1, .i1⟩
  | 29 => ⟨S1x1x1, .i32⟩
  | 30 => ⟨S4096x1x1, .i32⟩
  | 31 => ⟨S4096x1x1, .i1⟩
  | 32 => ⟨S4096x1x1, .i1⟩
  | 33 => ⟨S_, .i1⟩
  | 34 => ⟨S4096x1, .i1⟩
  | 35 => ⟨S4096x1, .f32⟩
  | 36 => ⟨S_, .f32⟩
  | 37 => ⟨S4096x1, .f32⟩
  | 38 => ⟨S4096x1, .f32⟩
  | 39 => ⟨S4096, .f32⟩
  | 40 => ⟨S4096, .f32⟩
  | 41 => ⟨S_, .f32⟩
  | 42 => ⟨S4096, .f32⟩
  | 43 => ⟨S4096, .i1⟩
  | 44 => ⟨S_, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .f32⟩
  | 51 => ⟨S4096, .f32⟩
  | 52 => ⟨S4096x512, .f32⟩
  | 53 => ⟨S_, .f32⟩
  | 54 => ⟨S4096, .f32⟩
  | 55 => ⟨S4096, .f32⟩
  | 56 => ⟨S_, .f32⟩
  | 57 => ⟨S4096, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .f32⟩
  | 64 => ⟨S_, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x512, .f32⟩
  | 74 => ⟨S4096x1, .i32⟩
  | 75 => ⟨S_, .i32⟩
  | 76 => ⟨S4096x1, .i32⟩
  | 77 => ⟨S4096x1, .i1⟩
  | 78 => ⟨S_, .i32⟩
  | 79 => ⟨S4096x1, .i32⟩
  | 80 => ⟨S4096x1, .i32⟩
  | 81 => ⟨S4096x1, .i32⟩
  | 82 => ⟨S4096x1x1, .i32⟩
  | 83 => ⟨S1, .i32⟩
  | 84 => ⟨S_, .i32⟩
  | 85 => ⟨S4096x1x1, .i32⟩
  | 86 => ⟨S4096x1x1, .i1⟩
  | 87 => ⟨S1x1x1, .i32⟩
  | 88 => ⟨S4096x1x1, .i32⟩
  | 89 => ⟨S4096x1x1, .i1⟩
  | 90 => ⟨S4096x1x1, .i1⟩
  | 91 => ⟨S_, .i1⟩
  | 92 => ⟨S4096x1, .i1⟩
  | 93 => ⟨S4096x1, .f32⟩
  | 94 => ⟨S_, .f32⟩
  | 95 => ⟨S4096x1, .f32⟩
  | 96 => ⟨S4096x1, .f32⟩
  | 97 => ⟨S4096, .f32⟩
  | 98 => ⟨S4096, .f32⟩
  | 99 => ⟨S_, .f32⟩
  | 100 => ⟨S4096, .f32⟩
  | 101 => ⟨S4096, .i1⟩
  | 102 => ⟨S_, .f32⟩
  | 103 => ⟨S4096, .f32⟩
  | 104 => ⟨S4096, .f32⟩
  | 105 => ⟨S4096, .f32⟩
  | 106 => ⟨S_, .f32⟩
  | 107 => ⟨S4096, .f32⟩
  | 108 => ⟨S4096, .f32⟩
  | 109 => ⟨S4096, .f32⟩
  | 110 => ⟨S4096x512, .f32⟩
  | 111 => ⟨S_, .f32⟩
  | 112 => ⟨S4096, .f32⟩
  | 113 => ⟨S4096, .f32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .f32⟩
  | 122 => ⟨S_, .f32⟩
  | 123 => ⟨S_, .i32⟩
  | 124 => ⟨S2048, .i32⟩
  | 125 => ⟨S2048, .i1⟩
  | 126 => ⟨S_, .i32⟩
  | 127 => ⟨S2048, .i32⟩
  | _ => ⟨S100000x512, .f32⟩

abbrev hbmTy0_1 (i : Nat) : BufTy := match i % 128 with
  | 0 => ⟨S2048, .i32⟩
  | 1 => ⟨S2048, .i32⟩
  | 2 => ⟨S_, .i32⟩
  | 3 => ⟨S2048, .i32⟩
  | 4 => ⟨S2048, .i1⟩
  | 5 => ⟨S_, .i32⟩
  | 6 => ⟨S2048, .i32⟩
  | 7 => ⟨S2048, .i32⟩
  | 8 => ⟨S2048, .i32⟩
  | 9 => ⟨S2048x1, .i32⟩
  | 10 => ⟨S2048x1, .i32⟩
  | 11 => ⟨S2048x2, .i32⟩
  | 12 => ⟨S2048, .f32⟩
  | 13 => ⟨S2048, .f32⟩
  | 14 => ⟨S_, .f32⟩
  | 15 => ⟨S2048, .f32⟩
  | 16 => ⟨S2048, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩
abbrev main_v23 : Ref sig .tc := ⟨.hbm, 58, rfl⟩
abbrev main_cst_5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_6 : Ref sig .tc := ⟨.hbm, 63, rfl⟩
abbrev main_v27 : Ref sig .tc := ⟨.hbm, 64, rfl⟩
abbrev main_c_7 : Ref sig .tc := ⟨.hbm, 65, rfl⟩
abbrev main_v28 : Ref sig .tc := ⟨.hbm, 66, rfl⟩
abbrev main_v29 : Ref sig .tc := ⟨.hbm, 67, rfl⟩
abbrev main_c_8 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_cst : Ref sig .tc := ⟨.hbm, 94, rfl⟩
abbrev main_call2_v14 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_9 : Ref sig .tc := ⟨.hbm, 99, rfl⟩
abbrev main_v39 : Ref sig .tc := ⟨.hbm, 100, rfl⟩
abbrev main_v40 : Ref sig .tc := ⟨.hbm, 101, rfl⟩
abbrev main_cst_10 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_cst_11 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_cst_12 : Ref sig .tc := ⟨.hbm, 111, rfl⟩
abbrev main_v48 : Ref sig .tc := ⟨.hbm, 112, rfl⟩
abbrev main_v49 : Ref sig .tc := ⟨.hbm, 113, rfl⟩
abbrev main_cst_13 : Ref sig .tc := ⟨.hbm, 114, rfl⟩
abbrev main_v50 : Ref sig .tc := ⟨.hbm, 115, rfl⟩
abbrev main_v51 : Ref sig .tc := ⟨.hbm, 116, rfl⟩
abbrev main_cst_14 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_cst_15 : Ref sig .tc := ⟨.hbm, 121, rfl⟩
abbrev main_v55 : Ref sig .tc := ⟨.hbm, 122, rfl⟩
abbrev main_c_16 : Ref sig .tc := ⟨.hbm, 123, rfl⟩
abbrev main_v56 : Ref sig .tc := ⟨.hbm, 124, rfl⟩
abbrev main_v57 : Ref sig .tc := ⟨.hbm, 125, rfl⟩
abbrev main_c_17 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_c_18 : Ref sig .tc := ⟨.hbm, 130, rfl⟩
abbrev main_v61 : Ref sig .tc := ⟨.hbm, 131, rfl⟩
abbrev main_v62 : Ref sig .tc := ⟨.hbm, 132, rfl⟩
abbrev main_c_19 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_20 : Ref sig .tc := ⟨.hbm, 142, rfl⟩
abbrev main_v71 : Ref sig .tc := ⟨.hbm, 143, rfl⟩
abbrev main_v72 : Ref sig .tc := ⟨.hbm, 144, rfl⟩
abbrev main_cst_21 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_22 : Ref sig .tc := ⟨.hbm, 149, rfl⟩
abbrev main_v76 : Ref sig .tc := ⟨.hbm, 150, rfl⟩
abbrev main_cst_23 : Ref sig .tc := ⟨.hbm, 151, rfl⟩
abbrev main_v77 : Ref sig .tc := ⟨.hbm, 152, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  reducesTo_S4096x512_S4096_d1 : S4096x512.ReducesTo [1] S4096
  reducesTo_S4096_S_d0 : S4096.ReducesTo [0] S_
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S2048_S_d0 : S2048.ReducesTo [0] S_
  gather_S100000x512_S4096x1_S4096x512_1_0_n_n_0_1_1512_wf : GatherDims.WF S100000x512 S4096x1 S4096x512 [1] [0] [] [0] [] 1 ![1, 512]
  gather_S4096x512_S4096x1x1_S4096x1_n_1_0_0_1_2_11_wf : GatherDims.WF S4096x512 S4096x1x1 S4096x1 [] [1] [0] [1] [0] 2 ![1, 1]
  gather_S100000x512_S2048x2_S2048_n_01_n_n_01_1_11_wf : GatherDims.WF S100000x512 S2048x2 S2048 [] [0, 1] [] [0, 1] [] 1 ![1, 1]

variable [Facts₀]

def gather_S100000x512_S4096x1_S4096x512_1_0_n_n_0_1_1512 : GatherDims S100000x512 S4096x1 S4096x512 where
  offsetDims := [1]
  collapsedSliceDims := [0]
  operandBatchingDims := []
  startIndicesBatchingDims := []
  startIndexMap := [0]
  indexVectorDim := 1
  sliceSizes := ![1, 512]
  wf := gather_S100000x512_S4096x1_S4096x512_1_0_n_n_0_1_1512_wf
def gather_S4096x512_S4096x1x1_S4096x1_n_1_0_0_1_2_11 : GatherDims S4096x512 S4096x1x1 S4096x1 where
  offsetDims := []
  collapsedSliceDims := [1]
  operandBatchingDims := [0]
  startIndicesBatchingDims := [0]
  startIndexMap := [1]
  indexVectorDim := 2
  sliceSizes := ![1, 1]
  wf := gather_S4096x512_S4096x1x1_S4096x1_n_1_0_0_1_2_11_wf
def gather_S100000x512_S2048x2_S2048_n_01_n_n_01_1_11 : GatherDims S100000x512 S2048x2 S2048 where
  offsetDims := []
  collapsedSliceDims := [0, 1]
  operandBatchingDims := []
  startIndicesBatchingDims := []
  startIndexMap := [0, 1]
  indexVectorDim := 1
  sliceSizes := ![1, 1]
  wf := gather_S100000x512_S2048x2_S2048_n_01_n_n_01_1_11_wf

class Facts : Prop extends Facts₀ where

variable [Facts]
-- ==== Proof.KbBase.lean ====
/-
  The program around its one kernel region: the host lines before it build the three index tables the kernel
  prefetches (row ids, column ids, class tags, each the three classes' arrays joined), the region runs the kernel over
  the grid, and the host lines after it combine two entries of the kernel's result. Here: the buffers' contents when
  the region is entered, the tables as the region reads them, and what the kernel's invariant holds between points
  (its row scratch, its one transfer semaphore at zero, the table array it copies rows from, and the three tables).
-/
import proofs.«401648_j22247930593476_2_alg».proof.Proof.Gen.Kernel.Skeleton
import proofs.«401648_j22247930593476_2_alg».proof.Proof.Gen.Kernel.Launch
import Idealize.ShloMosaic.Lib.Tactic
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffers when the region is entered: the host lines before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, the host lines: it reduces to the region continued by the later lines, entered
    at the contents the earlier lines leave. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) (fun c => (main_chain c).trans rfl)

/-! ## The prefetched tables -/

/-- The tables' contents when the region is entered (one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- They are admissible whatever they hold: no window's index map reads a table. -/
abbrev adm : (pcfg0 (F := F)).Adm := ⟨tbl m, trivial⟩
abbrev cfgM : Pipeline.Cfg sig Λ₀ := cfg0 (adm m)

/-- Each table as the body is handed it. -/
abbrev tbM0_0 : Memref sig .tc .smem S10240 .i32 := Memref.whole main_v0
abbrev htbM0_0 : tbM0_0.IsWhole := Memref.isWhole_whole _
abbrev tbM0_1 : Memref sig .tc .smem S10240 .i32 := Memref.whole main_v1
abbrev htbM0_1 : tbM0_1.IsWhole := Memref.isWhole_whole _
abbrev tbM0_2 : Memref sig .tc .smem S10240 .i32 := Memref.whole main_v5
abbrev htbM0_2 : tbM0_2.IsWhole := Memref.isWhole_whole _

abbrev TbBuf0 (c : Dev nD) {S : Shape} {e : EltTy} (M : Memref sig .tc .smem S e) : Type := Buf (Elt F) (M.view.loc (c : Thread nD τ))
/-- A table held read-only: the pipeline keeps the other half. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄)
    = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The kernel's own operands -/

/-- The output window's current staging memref at point `t`, as the pipeline passes it. -/
abbrev ms0_0 (t : Fin (cfgM m).N) : Memref sig .tc .vmem S8x128 .f32 := spec0_0.stage ((cfgM m).slots t 0)
abbrev hs0_0 (t : Fin (cfgM m).N) : (ms0_0 m t).IsWhole := hstage0_0 (((cfgM m).slots t 0).cast nbuf0_0)
/-- The row scratch. -/
abbrev scM0_0 : Memref sig .tc .vmem S1x512 .f32 := Memref.whole cc0_scratch0
/-- The table array, left in HBM: the body copies one row of it per point. -/
abbrev hbM0_0 : Memref sig .tc .hbm S100000x512 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's one transfer semaphore. -/
abbrev osem0 : Fin 1 → SemLoc sig := fun _ => SemLoc.dma 2
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl
/-- The array the body moves itself. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant between points, conjunct by conjunct. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 2) 0) ∗ iprop(hbPt0 c hbM0_0 (V m c main_arg0))) := by
  rw [Pipeline.ΦD_eq, scopedRest0_eq, ownSems00_eq, hbmPts0_eq]; simp only [scM0_0, owns_whole]; try rfl

/-- The kernel body at point `t`, on what the pipeline calls it with. -/
abbrev bodyAt0 (t : Fin (cfgM m).N) : Prog (TpuEff nD τ sig (Elt F) Λ₀ .tc) PUnit :=
  cc0__gather_loss_kernel (grid0.coords t) tbM0_0 htbM0_0 tbM0_1 htbM0_1 tbM0_2 htbM0_2 hbM0_0 (Memref.isWhole_whole _) (ms0_0 m t) (hs0_0 m t) scM0_0 (Memref.isWhole_whole _) cc0_scratch1

/-- The reset condition of the body, as it spells it: the second grid coordinate is zero. -/
abbrev cond0 (i : grid0.Coords) : Prop :=
  Scalar.cmpi .ne (Scalar.extui (Scalar.cmpi .eq (BitVec.ofNat 32 (i 1).val) 0#32)) 0#32 = 1#1

end Cert.Kernel.Hand

end
-- ==== Proof.KbRunA.lean ====
/-
  The kernel body at a point where the accumulator is reset (the second grid coordinate is zero): the output block is
  overwritten with zeros, the constraint's row is copied from the table array into the row scratch and waited for, and
  the constraint's contribution is added into entry (0, 0) of the block. What the block ends with is the list of the
  two stores, the later first.
-/
import proofs.«401648_j22247930593476_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_A (c : Dev nD) (i : grid0.Coords) (arg6 : Memref sig .tc .vmem S8x128 .f32) (harg6 : arg6.IsWhole)
    (hc0 : cond0 i)
    (xt0 : TbBuf0 (F := F) c tbM0_0) (xt1 : TbBuf0 (F := F) c tbM0_1) (xt2 : TbBuf0 (F := F) c tbM0_2)
    (fh0 : HbBuf0 (F := F) c hbM0_0)
    (k0_hw1 : k0_chk1 (tbM0_0.view.readAt (Elt F) (Rect.unit (s := S10240) (k0_off1 i) S1.size (k0_off1_inb i)).toLoadRect xt0 (Shape.Idx.first (numel1_S1.symm ▸ Nat.one_pos)))) :
    { L0 : List (View.Piece (Elt F) S8x128 .f32) //
      ∀ (W : Waits sig Unit) (K : PUnit → sProp 𝕄),
        iprop((∃ d, owns (c : Thread nD τ) arg6 fullShare d) ∗ (∃ d, owns (c : Thread nD τ) scM0_0 fullShare d)
            ∗ semVal ((c : Thread nD τ), SemLoc.dma 2) 0 ∗ hbPt0 c hbM0_0 fh0
            ∗ tbPt0 c tbM0_0 xt0 ∗ tbPt0 c tbM0_1 xt1 ∗ tbPt0 c tbM0_2 xt2 ∗ owes (c : Thread nD τ) 0 W
            ∗ (iprop((∃ f, arg6.view.loc (c : Thread nD τ) ↦[arg6.view.set]{fullShare} arg6.view.writes (Elt F) f L0)
                ∗ (∃ d, owns (c : Thread nD τ) scM0_0 fullShare d) ∗ semVal ((c : Thread nD τ), SemLoc.dma 2) 0 ∗ hbPt0 c hbM0_0 fh0
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ
              (cc0__gather_loss_kernel i tbM0_0 htbM0_0 tbM0_1 htbM0_1 tbM0_2 htbM0_2 hbM0_0 (Memref.isWhole_whole _) arg6 harg6 scM0_0 (Memref.isWhole_whole _) cc0_scratch1) K } := by
  refine ⟨?_, fun W K => ?run⟩
  case run =>
    simp only [cc0__gather_loss_kernel_eq_skeleton]; unfold cc0__gather_loss_kernel_skel
    simp only [k0_part1_eq_skeleton]
    unfold owns
    iintro ⟨⟨%d0, %f0, -, H0⟩, ⟨%ds0, %fs0, -, HS0⟩, Hq0, Hh0, HT0, HT1, HT2, HW, Hk⟩
    sl_exec (disch := first | sl_exact hc0 | sl_exact k0_hw1)
    sl_step
    iapply Hk
    isplitl [H0]; · iexists _; iexact H0
    isplitl [HS0]
    · iexists _, _; isplitr; swap; · iexact HS0
      ipureintro; rfl
    isplitl [Hq0]; · iexact Hq0
    isplitl [Hh0]; · iexact Hh0
    isplitl [HT0]; · iexact HT0
    isplitl [HT1]; · iexact HT1
    isplitl [HT2]; · iexact HT2
    iexists _; iexact HW

end Cert.Kernel.Hand

end
-- ==== Proof.KbRunB.lean ====
/-
  The kernel body at a point where the accumulator is kept (the second grid coordinate is not zero): the output block
  holds what the point before left; the constraint's row is copied into the row scratch and waited for, and the
  constraint's contribution is added into entry (0, 0) of the block. What the block ends with is its contents before
  with that one store written.
-/
import proofs.«401648_j22247930593476_2_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_B (c : Dev nD) (i : grid0.Coords) (arg6 : Memref sig .tc .vmem S8x128 .f32) (harg6 : arg6.IsWhole)
    (hc0 : ¬cond0 i)
    (xt0 : TbBuf0 (F := F) c tbM0_0) (xt1 : TbBuf0 (F := F) c tbM0_1) (xt2 : TbBuf0 (F := F) c tbM0_2)
    (fh0 : HbBuf0 (F := F) c hbM0_0)
    (y0 : Vec F S8x128 .f32)
    (k0_hw1 : k0_chk1 (tbM0_0.view.readAt (Elt F) (Rect.unit (s := S10240) (k0_off1 i) S1.size (k0_off1_inb i)).toLoadRect xt0 (Shape.Idx.first (numel1_S1.symm ▸ Nat.one_pos)))) :
    { L0 : List (View.Piece (Elt F) S8x128 .f32) //
      ∀ (W : Waits sig Unit) (K : PUnit → sProp 𝕄),
        iprop(owns (c : Thread nD τ) arg6 fullShare y0 ∗ (∃ d, owns (c : Thread nD τ) scM0_0 fullShare d)
            ∗ semVal ((c : Thread nD τ), SemLoc.dma 2) 0 ∗ hbPt0 c hbM0_0 fh0
            ∗ tbPt0 c tbM0_0 xt0 ∗ tbPt0 c tbM0_1 xt1 ∗ tbPt0 c tbM0_2 xt2 ∗ owes (c : Thread nD τ) 0 W
            ∗ (iprop((arg6.view.loc (c : Thread nD τ) ↦[arg6.view.set]{fullShare} arg6.view.writes (Elt F) (harg6.unread y0) L0)
                ∗ (∃ d, owns (c : Thread nD τ) scM0_0 fullShare d) ∗ semVal ((c : Thread nD τ), SemLoc.dma 2) 0 ∗ hbPt0 c hbM0_0 fh0
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ
              (cc0__gather_loss_kernel i tbM0_0 htbM0_0 tbM0_1 htbM0_1 tbM0_2 htbM0_2 hbM0_0 (Memref.isWhole_whole _) arg6 harg6 scM0_0 (Memref.isWhole_whole _) cc0_scratch1) K } := by
  refine ⟨?_, fun W K => ?run⟩
  case run =>
    simp only [cc0__gather_loss_kernel_eq_skeleton]; unfold cc0__gather_loss_kernel_skel
    simp only [k0_part1_eq_skeleton]
    unfold owns
    iintro ⟨⟨%f0, %hf0, H0⟩, ⟨%ds0, %fs0, -, HS0⟩, Hq0, Hh0, HT0, HT1, HT2, HW, Hk⟩
    obtain rfl := harg6.eq_unread hf0
    sl_exec (disch := first | sl_exact hc0 | sl_exact k0_hw1)
    sl_step
    iapply Hk
    isplitl [H0]; · iexact H0
    isplitl [HS0]
    · iexists _, _; isplitr; swap; · iexact HS0
      ipureintro; rfl
    isplitl [Hq0]; · iexact Hq0
    isplitl [Hh0]; · iexact Hh0
    isplitl [HT0]; · iexact HT0
    isplitl [HT1]; · iexact HT1
    isplitl [HT2]; · iexact HT2
    iexists _; iexact HW

end Cert.Kernel.Hand

end
-- ==== Proof.KbSched.lean ====
/-
  The grid is 2 × 5120 points run row-major: point `t` has first coordinate `t / 5120` (which of the two halves of the
  constraints) and second coordinate `t % 5120`. The output block's index is (first coordinate, 0): it moves only
  between point 5119 and point 5120, so the block is written back after points 5119 and 10239 only; and the body's
  reset condition holds exactly where the second coordinate is zero.
-/
import proofs.«401648_j22247930593476_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem stride0 : grid0.stride 0 = 5120 := by decide
theorem stride1 : grid0.stride 1 = 1 := by decide

theorem coords0_val (t : Fin grid0.N) : ((grid0.coords t) 0).val = t.val / 5120 % 2 := by
  show t.val / grid0.stride 0 % grid0.bound 0 = _
  rw [stride0]; rfl

theorem coords1_val (t : Fin grid0.N) : ((grid0.coords t) 1).val = t.val % 5120 := by
  show t.val / grid0.stride 1 % grid0.bound 1 = _
  rw [stride1, Nat.div_one]; rfl

/-- The reset condition, as the body spells it on a word below 5120, says the word is zero. -/
theorem cond0_fin : ∀ n : Fin 5120,
    (Scalar.cmpi .ne (Scalar.extui (Scalar.cmpi .eq (BitVec.ofNat 32 n.val) 0#32)) 0#32 = 1#1) ↔ n.val = 0 := by
  decide +kernel

theorem cond0_iff (i : grid0.Coords) : cond0 i ↔ (i 1).val = 0 := cond0_fin (i 1)

/-- The reset condition holds at the first point of each half. -/
theorem hcond0 (t : Fin grid0.N) : cond0 (grid0.coords t) ↔ t.val % 5120 = 0 := by
  rw [cond0_iff, coords1_val]

/-- The output block is not written back after point `t` unless the next point starts the other half (or `t` is the last). -/
theorem flushOf_false (t : Fin grid0.N) (h : (t.val + 1) % 5120 ≠ 0) :
    Pipeline.Window.flushOf grid0 true cc0_transform_1 t = false := by
  have hN : grid0.N = 10240 := N_0
  have ht := t.isLt
  unfold Pipeline.Window.flushOf
  rw [Bool.true_and, Bool.or_eq_false_iff]
  refine ⟨decide_eq_false (by omega), decide_eq_false ?_⟩
  rintro ⟨h1, hne⟩
  apply hne
  have e : grid0.coords ⟨t.val + 1, h1⟩ 0 = grid0.coords t 0 :=
    Fin.ext (by rw [coords0_val, coords0_val]; show (t.val + 1) / 5120 % 2 = t.val / 5120 % 2; omega)
  unfold cc0_transform_1
  dsimp only
  rw [e]

end Cert.Kernel.Hand

end
-- ==== Proof.LibNary3.lean ====
/-
  A host operation over a literal family of three references (a `stablehlo.concatenate` of three operands), its result
  with each operand's contents at its own reference. Independent of any program.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- `nary` over a literal family of three references: at its own result buffer it leaves its function's value at the
    three operands' contents, each read AT ITS OWN REFERENCE — `Fin.cons (F ↑x) (Fin.cons (F ↑a) (Fin.cons (F ↑b) _))` in
    place of `fun k => F ↑(![x, a, b] k)` —, so that the operands' contents can be rewritten further (under the binder
    the reference `![x, a, b] k` is no literal). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KbTables.lean ====
/-
  The three prefetched tables read at a flat constraint index: each is three arrays joined — the 4096 positive
  constraints, then the 4096 negative ones, then the 2048 neutral ones — so entry `n` is an entry of one of the
  arguments (row ids, column ids) or the class tag 0, 1, 2. And the host lines before the region write none of the
  seven arguments.
-/
import proofs.«401648_j22247930593476_2_alg».proof.Proof.KbBase
import proofs.«401648_j22247930593476_2_alg».proof.Proof.LibNary3
import Idealize.ShloMosaic.Lib.ValueIdx
import Idealize.ShloMosaic.Lib.StableHlo.Run
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Entry `n` of three arrays joined end to end (4096, 4096, 2048 entries). -/
def join3 {α : Type} (a b : S4096.Idx → α) (d : S2048.Idx → α) (n : Fin 10240) : α :=
  if h : n.val < 4096 then a (ix1 ⟨n.val, h⟩)
  else if h2 : n.val < 8192 then b (ix1 ⟨n.val - 4096, by omega⟩)
  else d (ix1 ⟨n.val - 8192, by omega⟩)

/-! ## The host lines write none of the arguments -/

/-- Every host line before the region writes the one value it defines: a reference that is none of the nine is not
    written. -/
theorem not_written (b : Ref sig .tc)
    (hb : b ≠ main_v0 ∧ b ≠ main_v1 ∧ b ≠ main_c ∧ b ≠ main_v2 ∧ b ≠ main_c_0 ∧ b ≠ main_v3 ∧ b ≠ main_c_1 ∧ b ≠ main_v4 ∧ b ≠ main_v5) :
    ∀ op ∈ List.flatten [(hostOps0 : List (HloOp τ sig (Elt F)))], Proc.devRef .tc b ∉ op.writes := by
  obtain ⟨h0, h1, h2, h3, h4, h5, h6, h7, h8⟩ := hb
  intro op hop
  simp only [hostOps0, List.flatten_cons, List.flatten_nil, List.append_nil, List.mem_cons, List.mem_nil_iff, or_false] at hop
  rcases hop with rfl | rfl | rfl | rfl | rfl | rfl | rfl | rfl | rfl <;>
    simp only [StableHlo.unary_writes, StableHlo.nary_writes, StableHlo.nullary_writes, Finset.mem_singleton] <;>
    exact StableHlo.devRef_ne_of_ne ‹_›

/-- The host lines before the region leave every argument as launched. -/
theorem V_main_arg0 (c : Dev nD) : V m c main_arg0 = m ((c : Thread nD τ).loc main_arg0) :=
  StableHlo.after_of_forall_not_mem (b := Proc.devRef .tc main_arg0) _ (fun b => m (c, b)) (not_written main_arg0 (by decide))
theorem V_main_arg1 (c : Dev nD) : V m c main_arg1 = m ((c : Thread nD τ).loc main_arg1) :=
  StableHlo.after_of_forall_not_mem (b := Proc.devRef .tc main_arg1) _ (fun b => m (c, b)) (not_written main_arg1 (by decide))
theorem V_main_arg2 (c : Dev nD) : V m c main_arg2 = m ((c : Thread nD τ).loc main_arg2) :=
  StableHlo.after_of_forall_not_mem (b := Proc.devRef .tc main_arg2) _ (fun b => m (c, b)) (not_written main_arg2 (by decide))
theorem V_main_arg3 (c : Dev nD) : V m c main_arg3 = m ((c : Thread nD τ).loc main_arg3) :=
  StableHlo.after_of_forall_not_mem (b := Proc.devRef .tc main_arg3) _ (fun b => m (c, b)) (not_written main_arg3 (by decide))
theorem V_main_arg4 (c : Dev nD) : V m c main_arg4 = m ((c : Thread nD τ).loc main_arg4) :=
  StableHlo.after_of_forall_not_mem (b := Proc.devRef .tc main_arg4) _ (fun b => m (c, b)) (not_written main_arg4 (by decide))
theorem V_main_arg5 (c : Dev nD) : V m c main_arg5 = m ((c : Thread nD τ).loc main_arg5) :=
  StableHlo.after_of_forall_not_mem (b := Proc.devRef .tc main_arg5) _ (fun b => m (c, b)) (not_written main_arg5 (by decide))
theorem V_main_arg6 (c : Dev nD) : V m c main_arg6 = m ((c : Thread nD τ).loc main_arg6) :=
  StableHlo.after_of_forall_not_mem (b := Proc.devRef .tc main_arg6) _ (fun b => m (c, b)) (not_written main_arg6 (by decide))

/-! ## The three tables at an entry -/

/-- Three arrays of 4096, 4096 and 2048 entries joined along their one axis, read at entry \`n\`: the piece whose span
    holds \`n\`, at \`n\` less the extents before it. -/
theorem concat3_apply {α : Type} (a b : S4096.Idx → α) (d : S2048.Idx → α)
    (h : Shape.Concatenates ([(⟨S4096, a⟩ : (s : Shape) × (s.Idx → α)), ⟨S4096, b⟩, ⟨S2048, d⟩].map (·.1)) S10240 0)
    (n : Fin 10240) :
    concatenate S10240 0 [⟨S4096, a⟩, ⟨S4096, b⟩, ⟨S2048, d⟩] h (ix1 n) = join3 a b d n := by
  have hone : ∀ (s : Shape) (hr : s.rank = S10240.rank) (q : Fin s.rank), q.cast hr = (0 : Fin S10240.rank) := fun s hr q =>
    Fin.ext (by have h1 : (q.cast hr).val < 1 := (q.cast hr).isLt; have h2 : ((0 : Fin S10240.rank) : ℕ) = 0 := rfl; omega)
  unfold join3
  by_cases h1 : n.val < 4096
  · rw [dif_pos h1]
    refine concatenate_apply_piece (0 : Fin S10240.rank) _ h (ix1 n) 0 (by simp) S4096 a rfl rfl 0 rfl (ix1 ⟨n.val, h1⟩)
      (fun q hq => absurd (hone _ _ q) hq) ?_
    show 0 + n.val = n.val
    omega
  · rw [dif_neg h1]
    by_cases h2 : n.val < 8192
    · rw [dif_pos h2]
      refine concatenate_apply_piece (0 : Fin S10240.rank) _ h (ix1 n) 1 (by simp) S4096 b rfl rfl 4096 rfl (ix1 ⟨n.val - 4096, by omega⟩)
        (fun q hq => absurd (hone _ _ q) hq) ?_
      show 4096 + (n.val - 4096) = n.val
      omega
    · rw [dif_neg h2]
      refine concatenate_apply_piece (0 : Fin S10240.rank) _ h (ix1 n) 2 (by simp) S2048 d rfl rfl 8192 rfl (ix1 ⟨n.val - 8192, by omega⟩)
        (fun q hq => absurd (hone _ _ q) hq) ?_
      show 8192 + (n.val - 8192) = n.val
      have := n.isLt
      omega

/-- Three constant arrays joined: the entry is the constant of the piece that holds it. -/
theorem join3_const {α : Type} (a b : S4096.Idx → α) (d : S2048.Idx → α) (x y z : α)
    (ha : ∀ i, a i = x) (hb : ∀ i, b i = y) (hd : ∀ i, d i = z) (n : Fin 10240) :
    join3 a b d n = if n.val < 4096 then x else if n.val < 8192 then y else z := by
  unfold join3
  by_cases h1 : n.val < 4096
  · rw [dif_pos h1, if_pos h1]; exact ha _
  · rw [dif_neg h1, if_neg h1]
    by_cases h2 : n.val < 8192
    · rw [dif_pos h2, if_pos h2]; exact hb _
    · rw [dif_neg h2, if_neg h2]; exact hd _

/-- Rewrites the contents a literal line of host operations leaves at a reference: each operation's result at its own
    buffer is its function's value, at any other reference what was there. -/
local macro "tables_results" : tactic =>
  `(tactic| (simp only [StableHlo.after_cons, StableHlo.after_nil]
             repeat (first
               | rw [Cert.LibNary3.nary3_result] | rw [StableHlo.nullary_result] | rw [StableHlo.unary_result]
               | (rw [StableHlo.nullary_result_ne]; rotate_left; decide)
               | (rw [StableHlo.unary_result_ne]; rotate_left; decide)
               | (rw [StableHlo.nary_result_ne]; rotate_left; decide))))

/-- The row-id table at constraint `n`. -/
theorem tbl0_apply (n : Fin 10240) :
    (tbl m 0 : S10240.Idx → BitVec 32) (ix1 n)
      = join3 (m (((0 : Dev nD) : Thread nD τ).loc main_arg1)) (m (((0 : Dev nD) : Thread nD τ).loc main_arg3)) (m (((0 : Dev nD) : Thread nD τ).loc main_arg5)) n := by
  show StableHlo.after (List.flatten [hostOps0]) (fun b => m ((0 : Dev nD), b)) (Proc.devRef .tc main_v0) (ix1 n) = _
  simp only [hostOps0, List.flatten_cons, List.flatten_nil, List.append_nil]
  tables_results
  exact concat3_apply _ _ _ _ n

/-- The column-id table at constraint `n`. -/
theorem tbl1_apply (n : Fin 10240) :
    (tbl m 1 : S10240.Idx → BitVec 32) (ix1 n)
      = join3 (m (((0 : Dev nD) : Thread nD τ).loc main_arg2)) (m (((0 : Dev nD) : Thread nD τ).loc main_arg4)) (m (((0 : Dev nD) : Thread nD τ).loc main_arg6)) n := by
  show StableHlo.after (List.flatten [hostOps0]) (fun b => m ((0 : Dev nD), b)) (Proc.devRef .tc main_v1) (ix1 n) = _
  simp only [hostOps0, List.flatten_cons, List.flatten_nil, List.append_nil]
  tables_results
  exact concat3_apply _ _ _ _ n

/-- The class-tag table at constraint `n`: 0 for a positive constraint, 1 for a negative one, 2 for a neutral one. -/
theorem tbl2_apply (n : Fin 10240) :
    (tbl m 2 : S10240.Idx → BitVec 32) (ix1 n)
      = if n.val < 4096 then 0#32 else if n.val < 8192 then 1#32 else 2#32 := by
  show StableHlo.after (List.flatten [hostOps0]) (fun b => m ((0 : Dev nD), b)) (Proc.devRef .tc main_v5) (ix1 n) = _
  simp only [hostOps0, List.flatten_cons, List.flatten_nil, List.append_nil]
  tables_results
  exact (concat3_apply _ _ _ _ n).trans (join3_const _ _ _ _ _ _ (fun _ => rfl) (fun _ => rfl) (fun _ => rfl) n)

end Cert.Kernel.Hand

end
-- ==== Proof.KbFrame.lean ====
/-
  The kernel region's frame: what the output block holds after each grid point, the proof data of the pipeline, the body
  obligation at every point, and the run of the whole program — under the one side condition the body assumes at every
  point (the row id it reads names a row of the table array).
-/
import proofs.«401648_j22247930593476_2_alg».proof.Proof.KbRunB
import proofs.«401648_j22247930593476_2_alg».proof.Proof.KbSched
import proofs.«401648_j22247930593476_2_alg».proof.Proof.KbTables
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The side condition the body assumes, at every grid point: the row-id word the point reads off the first table
    names a row of the table array. -/
def Hyps : Prop := ∀ i : grid0.Coords,
  k0_chk1 (tbM0_0.view.readAt (Elt F) (Rect.unit (s := S10240) (k0_off1 i) S1.size (k0_off1_inb i)).toLoadRect (tbl m 0) (Shape.Idx.first (numel1_S1.symm ▸ Nat.one_pos)))

variable (hH : Hyps m)

/-! ## What the output block holds, case by case -/

/-- One staging buffer of the output window, through which the reset case's contents are stated (the choice does not
    matter: its stores cover the block). -/
abbrev VO0_0 : View sig .tc .vmem S8x128 .f32 := (Memref.whole cc0_stg0_0 : Memref sig .tc .vmem S8x128 .f32).view

/-- The reset case's stores cover the block: the zero fill is of the whole block. -/
theorem cover0_A (c : Dev nD) (i : grid0.Coords) (arg6 : Memref sig .tc .vmem S8x128 .f32) (harg6 : arg6.IsWhole) (hc0 : cond0 i)
    (xt0 : TbBuf0 (F := F) c tbM0_0) (xt1 : TbBuf0 (F := F) c tbM0_1) (xt2 : TbBuf0 (F := F) c tbM0_2) (fh0 : HbBuf0 (F := F) c hbM0_0)
    (hw : k0_chk1 (tbM0_0.view.readAt (Elt F) (Rect.unit (s := S10240) (k0_off1 i) S1.size (k0_off1_inb i)).toLoadRect xt0 (Shape.Idx.first (numel1_S1.symm ▸ Nat.one_pos))))
    (y : S8x128.Idx) :
    ∃ pc ∈ (kernelRun0_A c i arg6 harg6 hc0 xt0 xt1 xt2 fh0 hw).1, y ∈ pc.1.set :=
  View.cover_of_tiledL (kernelRun0_A c i arg6 harg6 hc0 xt0 xt1 xt2 fh0 hw).1 S8x128.size (by sl_kernel_rfl) y

/-- What the reset case leaves in the block: its stores read back over anything. -/
def out0_A (c : Dev nD) (i : grid0.Coords) (arg6 : Memref sig .tc .vmem S8x128 .f32) (harg6 : arg6.IsWhole) (hc0 : cond0 i)
    (xt0 : TbBuf0 (F := F) c tbM0_0) (xt1 : TbBuf0 (F := F) c tbM0_1) (xt2 : TbBuf0 (F := F) c tbM0_2) (fh0 : HbBuf0 (F := F) c hbM0_0)
    (hw : k0_chk1 (tbM0_0.view.readAt (Elt F) (Rect.unit (s := S10240) (k0_off1 i) S1.size (k0_off1_inb i)).toLoadRect xt0 (Shape.Idx.first (numel1_S1.symm ▸ Nat.one_pos)))) :
    Vec F S8x128 .f32 :=
  VO0_0.read (Elt F) (VO0_0.writes (Elt F) VO0_0.junk (kernelRun0_A c i arg6 harg6 hc0 xt0 xt1 xt2 fh0 hw).1)

/-- What the keeping case leaves in the block: the contents `y0` it found with its one store written. -/
def out0_B (c : Dev nD) (i : grid0.Coords) (arg6 : Memref sig .tc .vmem S8x128 .f32) (harg6 : arg6.IsWhole) (hc0 : ¬cond0 i)
    (xt0 : TbBuf0 (F := F) c tbM0_0) (xt1 : TbBuf0 (F := F) c tbM0_1) (xt2 : TbBuf0 (F := F) c tbM0_2) (fh0 : HbBuf0 (F := F) c hbM0_0)
    (y0 : Vec F S8x128 .f32)
    (hw : k0_chk1 (tbM0_0.view.readAt (Elt F) (Rect.unit (s := S10240) (k0_off1 i) S1.size (k0_off1_inb i)).toLoadRect xt0 (Shape.Idx.first (numel1_S1.symm ▸ Nat.one_pos)))) :
    Vec F S8x128 .f32 :=
  arg6.view.read (Elt F) (arg6.view.writes (Elt F) (harg6.unread y0) (kernelRun0_B c i arg6 harg6 hc0 xt0 xt1 xt2 fh0 y0 hw).1)

/-! ## What the output block holds after each point -/

/-- THE ACCUMULATION. After point `n`: at the first point of a half the reset case's contents; at any other point the
    keeping case's, over what the point before left (the block is not written back in between). -/
def outsAt0 (c : Dev nD) : (n : ℕ) → n < (cfgM m).N → Vec F S8x128 .f32
  | 0, hn => out0_A c (grid0.coords ⟨0, hn⟩) (ms0_0 m ⟨0, hn⟩) (hs0_0 m ⟨0, hn⟩) ((hcond0 ⟨0, hn⟩).mpr (Nat.zero_mod _)) (tbl m 0) (tbl m 1) (tbl m 2) (V m c main_arg0) (hH _)
  | n + 1, hn =>
    if h0 : (n + 1) % 5120 = 0 then
      out0_A c (grid0.coords ⟨n + 1, hn⟩) (ms0_0 m ⟨n + 1, hn⟩) (hs0_0 m ⟨n + 1, hn⟩) ((hcond0 ⟨n + 1, hn⟩).mpr h0) (tbl m 0) (tbl m 1) (tbl m 2) (V m c main_arg0) (hH _)
    else
      out0_B c (grid0.coords ⟨n + 1, hn⟩) (ms0_0 m ⟨n + 1, hn⟩) (hs0_0 m ⟨n + 1, hn⟩) (fun h => h0 ((hcond0 ⟨n + 1, hn⟩).mp h)) (tbl m 0) (tbl m 1) (tbl m 2) (V m c main_arg0) (outsAt0 c n (Nat.lt_of_succ_lt hn)) (hH _)

theorem outsAt0_A (c : Dev nD) (t : Fin (cfgM m).N) (h0 : t.val % 5120 = 0) :
    outsAt0 m hH c t.val t.isLt = out0_A c (grid0.coords t) (ms0_0 m t) (hs0_0 m t) ((hcond0 t).mpr h0) (tbl m 0) (tbl m 1) (tbl m 2) (V m c main_arg0) (hH _) := by
  obtain ⟨n, hn⟩ := t
  cases n with
  | zero => exact rfl
  | succ n => exact (dif_pos h0).trans rfl

theorem outsAt0_B (c : Dev nD) (t : Fin (cfgM m).N) (h0 : ¬t.val % 5120 = 0) :
    outsAt0 m hH c t.val t.isLt = out0_B c (grid0.coords t) (ms0_0 m t) (hs0_0 m t) (fun h => h0 ((hcond0 t).mp h)) (tbl m 0) (tbl m 1) (tbl m 2) (V m c main_arg0)
      (outsAt0 m hH c (t.val - 1) (Nat.lt_of_le_of_lt (Nat.sub_le _ _) t.isLt)) (hH _) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the array as the region finds it; after the body at point `t` the output block at
    `outsAt0`; the invariant (the row scratch, the generator register, the transfer semaphore at zero, the table array at
    its entry contents, and the three tables' halves); nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => outsAt0 m hH c t.val t.isLt
  Φ _ := iprop(Pipeline.ΦD osem0 spec0 H0 (V m) c ∗ Pipeline.ΦT pre0 (tbl m) c)
  q _ := fullShare
  owed _ := 0

theorem A_eq (c : Dev nD) (w : Fin (cfgM m).W) : (dats m hH 0 c).A w = V m c (Pipeline.arrRef spec0 w) := by
  dsimp only [dats]

theorem after0_0 (c : Dev nD) (t : Fin (cfgM m).N) : (dats m hH 0 c).after 0 t = outsAt0 m hH c t.val t.isLt := by dsimp only [dats]; try rfl

/-- The output block is not written back after point `t` unless the next point starts the other half, whatever the
    tables hold (its index map reads none). -/
theorem flush0_0 (a : (pcfg0 (F := F)).Adm) (t : Fin (cfg0 a).N) (h : (t.val + 1) % 5120 ≠ 0) : ((cfg0 a).win 0).flush t = false :=
  flushOf_false t h

/-- At a point that is not the first of a half the block holds what the body left at the point before. -/
theorem before0_0_B (c : Dev nD) (t : Fin (cfgM m).N) (h0 : ¬t.val % 5120 = 0) (d) :
    (dats m hH 0 c).before 0 t d = outsAt0 m hH c (t.val - 1) (Nat.lt_of_le_of_lt (Nat.sub_le _ _) t.isLt) := by
  have ht : t.val ≠ 0 := fun h => h0 (by rw [h])
  rw [Dat.before_out_kept _ 0 rfl t ht (flush0_0 (adm m) _ (by show (t.val - 1 + 1) % 5120 ≠ 0; rw [Nat.sub_add_cancel (Nat.pos_of_ne_zero ht)]; exact h0))
    (fun _ => rfl) (fun _ _ => rfl)]
  exact after0_0 m hH c _

/-! ## The body obligation, at a generic point -/

def bodyPre (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d)))

def bodyPost (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t))

set_option maxHeartbeats 1000000 in
/-- The body at any point: the closed form says which case the point is in; in the keeping case the block holds what the
    point before left; so the case's run applies. The invariant hands the body its scratch, its semaphore at zero, the
    table array and the tables, and takes them back as they were. -/
theorem sound_body (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  rw [show (dats m hH 0 c).Φ t.succ = (dats m hH 0 c).Φ t.castSucc from rfl, after0_0]
  rw [show (dats m hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hH 0 c).owed t.castSucc = 0 from rfl, show (dats m hH 0 c).owed t.succ = 0 from rfl]
  by_cases h0 : t.val % 5120 = 0
  · rw [outsAt0_A m hH c t h0]
    unfold out0_A
    iintro ⟨⟨⟨HS0, Hg, Hq0, Hh0⟩, HT0, HT1, HT2⟩, ⟨%W, -, HW⟩, ⟨%d0, H0⟩⟩
    iapply ((kernelRun0_A c (grid0.coords t) _ _ ((hcond0 t).mpr h0) (tbl m 0) (tbl m 1) (tbl m 2) (V m c main_arg0) (hH _)).2 W _)
    isplitl [H0]; · iexists _; iexact H0
    isplitl [HS0]; · iexact HS0
    isplitl [Hq0]; · iexact Hq0
    isplitl [Hh0]; · iexact Hh0
    isplitl [HT0]; · iexact HT0
    isplitl [HT1]; · iexact HT1
    isplitl [HT2]; · iexact HT2
    isplitl [HW]; · iexact HW
    iintro ⟨⟨%e0, H0⟩, HS0, Hq0, Hh0, HT0, HT1, HT2, ⟨%W', HW'⟩⟩
    isplitl [HS0 Hg Hq0 Hh0 HT0 HT1 HT2]
    · isplitl [HS0 Hg Hq0 Hh0]
      · isplitl [HS0]; · iexact HS0
        isplitl [Hg]; · iexact Hg
        isplitl [Hq0]; · iexact Hq0
        iexact Hh0
      isplitl [HT0]; · iexact HT0
      isplitl [HT1]; · iexact HT1
      iexact HT2
    isplitl [HW']
    · iexists W'; isplitr; · ipureintro; exact fun _ _ => Or.inl trivial
      iexact HW'
    unfold owns; iexists _; isplitr
    swap; · iexact H0
    ipureintro; exact View.read_writes_of_cover _ _ _ _ _ (cover0_A c _ _ _ _ _ _ _ _ _)
  · rw [outsAt0_B m hH c t h0]
    simp only [before0_0_B m hH c t h0]
    unfold out0_B
    iintro ⟨⟨⟨HS0, Hg, Hq0, Hh0⟩, HT0, HT1, HT2⟩, ⟨%W, -, HW⟩, ⟨%d0, H0⟩⟩
    iapply ((kernelRun0_B c (grid0.coords t) _ _ (fun h => h0 ((hcond0 t).mp h)) (tbl m 0) (tbl m 1) (tbl m 2) (V m c main_arg0) _ (hH _)).2 W _)
    isplitl [H0]; · iexact H0
    isplitl [HS0]; · iexact HS0
    isplitl [Hq0]; · iexact Hq0
    isplitl [Hh0]; · iexact Hh0
    isplitl [HT0]; · iexact HT0
    isplitl [HT1]; · iexact HT1
    isplitl [HT2]; · iexact HT2
    isplitl [HW]; · iexact HW
    iintro ⟨H0, HS0, Hq0, Hh0, HT0, HT1, HT2, ⟨%W', HW'⟩⟩
    isplitl [HS0 Hg Hq0 Hh0 HT0 HT1 HT2]
    · isplitl [HS0 Hg Hq0 Hh0]
      · isplitl [HS0]; · iexact HS0
        isplitl [Hg]; · iexact Hg
        isplitl [Hq0]; · iexact Hq0
        iexact Hh0
      isplitl [HT0]; · iexact HT0
      isplitl [HT1]; · iexact HT1
      iexact HT2
    isplitl [HW']
    · iexists W'; isplitr; · ipureintro; exact fun _ _ => Or.inl trivial
      iexact HW'
    unfold owns; iexists _; isplitr
    swap; · iexact H0
    ipureintro; rfl

theorem body_obligation (c : Dev nD) : BodyObligation (dats (F := F) m hH 0 c) (defs₀ (F := F)) Variants.none () Set.univ := fun t => by
  rw [bigSep_W0, bigSep_W0]
  exact sound_body m hH c t

/-! ## The host lines after the region -/

/-- They touch only the output array and buffers that bypass the region other than the table array. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl <;>
    simp only [StableHlo.unary_bufs, StableHlo.binary_bufs, StableHlo.nullary_bufs, StableHlo.reshape_bufs] <;> decide

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The run -/

set_option backward.isDefEq.respectTransparency.types false in
/-- At the compiled mesh, for any values, from any memory with zero counters, under the body's side condition: every
    weakly fair execution of @main terminates, the output array ends at what the library computes from the proof data,
    and every other unscoped buffer at what the host lines after the region leave. -/
theorem run_main : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V_pre m)
    (hin := fun _ => .rfl) (hout := fun c => by
      rw [show (dats m hH 0 c).Φ (Fin.last _) = iprop(Pipeline.ΦD osem0 spec0 H0 (V m) c ∗ Pipeline.ΦT pre0 (tbl m) c) from rfl]
      iintro ⟨H, -⟩; iexact H)

end Cert.Kernel.Hand

end
-- ==== Proof.KbPost.lean ====
/-
  What the run leaves: no host line after the region writes an argument, so every argument ends as launched (the table
  array is handed back by the kernel's invariant unchanged; the index arrays bypass the region); and the result buffer
  ends at what the host lines after the region compute from the output array the region leaves.
-/
import proofs.«401648_j22247930593476_2_alg».proof.Proof.KbFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hH : Hyps m)

/-- Every host line after the region writes the one value it defines. -/
theorem not_written1 (b : Ref sig .tc)
    (hb : b ≠ main_v7 ∧ b ≠ main_v8 ∧ b ≠ main_v9 ∧ b ≠ main_v10 ∧ b ≠ main_v11 ∧ b ≠ main_cst ∧ b ≠ main_v12 ∧ b ≠ main_cst_2 ∧ b ≠ main_v13) :
    ∀ op ∈ List.flatten [(hostOps1 : List (HloOp τ sig (Elt F)))], Proc.devRef .tc b ∉ op.writes := by
  obtain ⟨h0, h1, h2, h3, h4, h5, h6, h7, h8⟩ := hb
  intro op hop
  simp only [hostOps1, List.flatten_cons, List.flatten_nil, List.append_nil, List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer the later lines do not write, and that is not the output array, ends at its region-entry contents. -/
theorem afterTail_arg (c : Dev nD) (b : Ref sig .tc)
    (hb : b ≠ main_v7 ∧ b ≠ main_v8 ∧ b ≠ main_v9 ∧ b ≠ main_v10 ∧ b ≠ main_v11 ∧ b ≠ main_cst ∧ b ≠ main_v12 ∧ b ≠ main_cst_2 ∧ b ≠ main_v13)
    (harr : ∀ w, Pipeline.arrRef spec0 w ≠ b) :
    Pipeline.afterTail pcfgs (fun _ => adm m) (dats m hH) 0 (V0 m) [hostOps1] c b = V m c b := by
  unfold Pipeline.afterTail
  rw [StableHlo.after_of_forall_not_mem _ _ (not_written1 b hb)]
  exact Pipeline.withArrays_of_ne _ c (V0 m c) _ b harr

/-- The run's post read at the result and at the arguments. -/
theorem run_post : θ_run defs (onTc (τ := τ) (main (F := F))) ⟨m, fun _ => 0, ρ⟩ (fun r => ∀ c : Dev nD,
      r.2.mem ((c.tc : Thread nD τ).loc main_v13) = Pipeline.afterTail pcfgs (fun _ => adm m) (dats m hH) 0 (V0 m) [hostOps1] c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v13 (Pipeline.mem_restRefs_of main_v13 (by decide) (show ∀ w, (spec0 w).arr.view.ref ≠ main_v13 from by decide)),
    ((h c).2 main_arg0 (Pipeline.mem_restRefs_of main_arg0 (by decide) (show ∀ w, (spec0 w).arr.view.ref ≠ main_arg0 from by decide))).trans ((afterTail_arg m hH c main_arg0 (by decide) (by decide)).trans (V_main_arg0 m c)),
    ((h c).2 main_arg1 (Pipeline.mem_restRefs_of main_arg1 (by decide) (show ∀ w, (spec0 w).arr.view.ref ≠ main_arg1 from by decide))).trans ((afterTail_arg m hH c main_arg1 (by decide) (by decide)).trans (V_main_arg1 m c)),
    ((h c).2 main_arg2 (Pipeline.mem_restRefs_of main_arg2 (by decide) (show ∀ w, (spec0 w).arr.view.ref ≠ main_arg2 from by decide))).trans ((afterTail_arg m hH c main_arg2 (by decide) (by decide)).trans (V_main_arg2 m c)),
    ((h c).2 main_arg3 (Pipeline.mem_restRefs_of main_arg3 (by decide) (show ∀ w, (spec0 w).arr.view.ref ≠ main_arg3 from by decide))).trans ((afterTail_arg m hH c main_arg3 (by decide) (by decide)).trans (V_main_arg3 m c)),
    ((h c).2 main_arg4 (Pipeline.mem_restRefs_of main_arg4 (by decide) (show ∀ w, (spec0 w).arr.view.ref ≠ main_arg4 from by decide))).trans ((afterTail_arg m hH c main_arg4 (by decide) (by decide)).trans (V_main_arg4 m c)),
    ((h c).2 main_arg5 (Pipeline.mem_restRefs_of main_arg5 (by decide) (show ∀ w, (spec0 w).arr.view.ref ≠ main_arg5 from by decide))).trans ((afterTail_arg m hH c main_arg5 (by decide) (by decide)).trans (V_main_arg5 m c)),
    ((h c).2 main_arg6 (Pipeline.mem_restRefs_of main_arg6 (by decide) (show ∀ w, (spec0 w).arr.view.ref ≠ main_arg6 from by decide))).trans ((afterTail_arg m hH c main_arg6 (by decide) (by decide)).trans (V_main_arg6 m c))⟩) (run_main m ρ hH)

include hH in
/-- THE FRAME: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_post m ρ hH)

end Cert.Kernel.Hand

end
-- ==== Proof.KbHyps.lean ====
/-
  The side condition the kernel body assumes holds at every grid point once every row id is in range: the word the
  body reads at its flat constraint index off the row-id table is one of the row-id arguments' entries, hence below
  100000, so the row it copies lies inside the table array.
-/
import proofs.«401648_j22247930593476_2_alg».proof.Proof.KbTables
import proofs.«401648_j22247930593476_2_alg».proof.Proof.KbSched

set_option maxRecDepth 16384

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The flat constraint index of a grid point: 5120 · (first coordinate) + (second coordinate). -/
def flat (i : grid0.Coords) : Fin 10240 := ⟨5120 * (i 0).val + (i 1).val, by
  have h0 : (i 0).val < 2 := (i 0).isLt
  have h1 : (i 1).val < 5120 := (i 1).isLt
  omega⟩

/-- The offset the body computes for its three table reads is the flat constraint index. -/
theorem k0_off1_eq (i : grid0.Coords) : k0_off1 i = ![(flat i).val] := by
  have h0 : (i 0).val < 2 := (i 0).isLt
  have h1 : (i 1).val < 5120 := (i 1).isLt
  -- the 32-bit product and sum do not wrap
  have e : (BitVec.ofNat 32 (i 0).val * 5120#32 + BitVec.ofNat 32 (i 1).val).toNat = 5120 * (i 0).val + (i 1).val := by
    rw [BitVec.toNat_add, BitVec.toNat_mul, BitVec.toNat_ofNat, BitVec.toNat_ofNat, BitVec.toNat_ofNat]
    omega
  funext a
  fin_cases a
  exact e

/-- The one index of the unit shape has coordinate zero. -/
theorem first_S1_val (h : 0 < S1.numel) (a : Fin S1.rank) : (Shape.Idx.first h a).val = 0 := by
  have h1 := (Shape.Idx.first h a).isLt
  have e : S1.size a = 1 := by fin_cases a; rfl
  omega

/-- A word read off a whole SMEM table through the body's unit rectangle at the point's offset is the table's entry
    at the flat constraint index. -/
theorem readAt_tbl (c : Dev nD) (i : grid0.Coords) (M : Memref sig .tc .smem S10240 .i32) (hM : M.IsWhole) (T : TbBuf0 (F := F) c M) :
    M.view.readAt (Elt F) (Rect.unit (s := S10240) (k0_off1 i) S1.size (k0_off1_inb i)).toLoadRect T (Shape.Idx.first (numel1_S1.symm ▸ Nat.one_pos))
      = M.view.read (Elt F) T (ix1 (flat i)) := by
  rw [View.readAt_apply]
  congr 1
  funext a
  apply Fin.ext
  fin_cases a
  show k0_off1 i 0 + 1 * (Shape.Idx.first (s := S1) _ (0 : Fin 1)).val = (flat i).val
  rw [first_S1_val, k0_off1_eq]
  show (flat i).val + 1 * 0 = (flat i).val
  omega

/-- An entry of three joined arrays is bounded as every entry of the three is. -/
theorem join3_toNat_lt (a b : S4096.Idx → BitVec 32) (d : S2048.Idx → BitVec 32) (N : ℕ)
    (ha : ∀ j, (a j).toNat < N) (hb : ∀ j, (b j).toNat < N) (hd : ∀ j, (d j).toNat < N) (n : Fin 10240) :
    (join3 a b d n).toNat < N := by
  unfold join3
  split
  · exact ha _
  · split
    · exact hb _
    · exact hd _

/-- A row id below 100000 names a row of the table array: the one-row block at it lies inside. -/
theorem chk_of_lt (w : BitVec 32) (hw : w.toNat < 100000) : k0_chk1 w := by
  intro a
  fin_cases a
  · show w.toNat + 1 ≤ 100000
    omega
  · show 0 + 512 ≤ 512
    omega

/-- With every row id in range, the body's assumed side condition holds at every grid point. -/
theorem chk_of_range
    (h1 : ∀ j, (m (((0 : Dev nD) : Thread nD τ).loc main_arg1) j).toNat < 100000)
    (h3 : ∀ j, (m (((0 : Dev nD) : Thread nD τ).loc main_arg3) j).toNat < 100000)
    (h5 : ∀ j, (m (((0 : Dev nD) : Thread nD τ).loc main_arg5) j).toNat < 100000)
    (i : grid0.Coords) :
    k0_chk1 (tbM0_0.view.readAt (Elt F) (Rect.unit (s := S10240) (k0_off1 i) S1.size (k0_off1_inb i)).toLoadRect (tbl m 0) (Shape.Idx.first (numel1_S1.symm ▸ Nat.one_pos))) := by
  rw [readAt_tbl (0 : Dev nD) i tbM0_0 htbM0_0 (tbl m 0)]
  show k0_chk1 ((tbl m 0 : S10240.Idx → BitVec 32) (ix1 (flat i)))
  rw [tbl0_apply]
  exact chk_of_lt _ (join3_toNat_lt _ _ _ 100000 h1 h3 h5 (flat i))

end Cert.Kernel.Hand

end
-- ==== Proof.KiBase.lean ====
/-
  The program around its one kernel region: the host lines before it build the three index tables the kernel
  prefetches (row ids, column ids, class tags, each the three classes' arrays joined), the region runs the kernel over
  the grid, and the host lines after it combine two entries of the kernel's result. Here: the buffers' contents when
  the region is entered, the tables as the region reads them, and what the kernel's invariant holds between points
  (its row scratch, its one transfer semaphore at zero, the table array it copies rows from, and the three tables).
-/
import proofs.«401648_j22247930593476_2_alg».proof.Proof.Gen.KernelIdeal.Skeleton
import proofs.«401648_j22247930593476_2_alg».proof.Proof.Gen.KernelIdeal.Launch
import Idealize.ShloMosaic.Lib.Tactic
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffers when the region is entered: the host lines before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, the host lines: it reduces to the region continued by the later lines, entered
    at the contents the earlier lines leave. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) (fun c => (main_chain c).trans rfl)

/-! ## The prefetched tables -/

/-- The tables' contents when the region is entered (one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- They are admissible whatever they hold: no window's index map reads a table. -/
abbrev adm : (pcfg0 (F := F)).Adm := ⟨tbl m, trivial⟩
abbrev cfgM : Pipeline.Cfg sig Λ₀ := cfg0 (adm m)

/-- Each table as the body is handed it. -/
abbrev tbM0_0 : Memref sig .tc .smem S10240 .i32 := Memref.whole main_v0
abbrev htbM0_0 : tbM0_0.IsWhole := Memref.isWhole_whole _
abbrev tbM0_1 : Memref sig .tc .smem S10240 .i32 := Memref.whole main_v1
abbrev htbM0_1 : tbM0_1.IsWhole := Memref.isWhole_whole _
abbrev tbM0_2 : Memref sig .tc .smem S10240 .i32 := Memref.whole main_v5
abbrev htbM0_2 : tbM0_2.IsWhole := Memref.isWhole_whole _

abbrev TbBuf0 (c : Dev nD) {S : Shape} {e : EltTy} (M : Memref sig .tc .smem S e) : Type := Buf (Elt F) (M.view.loc (c : Thread nD τ))
/-- A table held read-only: the pipeline keeps the other half. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄)
    = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The kernel's own operands -/

/-- The output window's current staging memref at point `t`, as the pipeline passes it. -/
abbrev ms0_0 (t : Fin (cfgM m).N) : Memref sig .tc .vmem S8x128 .f32 := spec0_0.stage ((cfgM m).slots t 0)
abbrev hs0_0 (t : Fin (cfgM m).N) : (ms0_0 m t).IsWhole := hstage0_0 (((cfgM m).slots t 0).cast nbuf0_0)
/-- The row scratch. -/
abbrev scM0_0 : Memref sig .tc .vmem S1x512 .f32 := Memref.whole cc0_scratch0
/-- The table array, left in HBM: the body copies one row of it per point. -/
abbrev hbM0_0 : Memref sig .tc .hbm S100000x512 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's one transfer semaphore. -/
abbrev osem0 : Fin 1 → SemLoc sig := fun _ => SemLoc.dma 2
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl
/-- The array the body moves itself. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant between points, conjunct by conjunct. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 2) 0) ∗ iprop(hbPt0 c hbM0_0 (V m c main_arg0))) := by
  rw [Pipeline.ΦD_eq, scopedRest0_eq, ownSems00_eq, hbmPts0_eq]; simp only [scM0_0, owns_whole]; try rfl

/-- The kernel body at point `t`, on what the pipeline calls it with. -/
abbrev bodyAt0 (t : Fin (cfgM m).N) : Prog (TpuEff nD τ sig (Elt F) Λ₀ .tc) PUnit :=
  cc0__gather_loss_kernel (grid0.coords t) tbM0_0 htbM0_0 tbM0_1 htbM0_1 tbM0_2 htbM0_2 hbM0_0 (Memref.isWhole_whole _) (ms0_0 m t) (hs0_0 m t) scM0_0 (Memref.isWhole_whole _) cc0_scratch1

/-- The reset condition of the body, as it spells it: the second grid coordinate is zero. -/
abbrev cond0 (i : grid0.Coords) : Prop :=
  Scalar.cmpi .ne (Scalar.extui (Scalar.cmpi .eq (BitVec.ofNat 32 (i 1).val) 0#32)) 0#32 = 1#1

end Cert.KernelIdeal.Hand

end
-- ==== Proof.KiRunA.lean ====
/-
  The kernel body at a point where the accumulator is reset (the second grid coordinate is zero): the output block is
  overwritten with zeros, the constraint's row is copied from the table array into the row scratch and waited for, and
  the constraint's contribution is added into entry (0, 0) of the block. What the block ends with is the list of the
  two stores, the later first.
-/
import proofs.«401648_j22247930593476_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_A (c : Dev nD) (i : grid0.Coords) (arg6 : Memref sig .tc .vmem S8x128 .f32) (harg6 : arg6.IsWhole)
    (hc0 : cond0 i)
    (xt0 : TbBuf0 (F := F) c tbM0_0) (xt1 : TbBuf0 (F := F) c tbM0_1) (xt2 : TbBuf0 (F := F) c tbM0_2)
    (fh0 : HbBuf0 (F := F) c hbM0_0)
    (k0_hw1 : k0_chk1 (tbM0_0.view.readAt (Elt F) (Rect.unit (s := S10240) (k0_off1 i) S1.size (k0_off1_inb i)).toLoadRect xt0 (Shape.Idx.first (numel1_S1.symm ▸ Nat.one_pos)))) :
    { L0 : List (View.Piece (Elt F) S8x128 .f32) //
      ∀ (W : Waits sig Unit) (K : PUnit → sProp 𝕄),
        iprop((∃ d, owns (c : Thread nD τ) arg6 fullShare d) ∗ (∃ d, owns (c : Thread nD τ) scM0_0 fullShare d)
            ∗ semVal ((c : Thread nD τ), SemLoc.dma 2) 0 ∗ hbPt0 c hbM0_0 fh0
            ∗ tbPt0 c tbM0_0 xt0 ∗ tbPt0 c tbM0_1 xt1 ∗ tbPt0 c tbM0_2 xt2 ∗ owes (c : Thread nD τ) 0 W
            ∗ (iprop((∃ f, arg6.view.loc (c : Thread nD τ) ↦[arg6.view.set]{fullShare} arg6.view.writes (Elt F) f L0)
                ∗ (∃ d, owns (c : Thread nD τ) scM0_0 fullShare d) ∗ semVal ((c : Thread nD τ), SemLoc.dma 2) 0 ∗ hbPt0 c hbM0_0 fh0
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ
              (cc0__gather_loss_kernel i tbM0_0 htbM0_0 tbM0_1 htbM0_1 tbM0_2 htbM0_2 hbM0_0 (Memref.isWhole_whole _) arg6 harg6 scM0_0 (Memref.isWhole_whole _) cc0_scratch1) K } := by
  refine ⟨?_, fun W K => ?run⟩
  case run =>
    simp only [cc0__gather_loss_kernel_eq_skeleton]; unfold cc0__gather_loss_kernel_skel
    simp only [k0_part1_eq_skeleton]
    unfold owns
    iintro ⟨⟨%d0, %f0, -, H0⟩, ⟨%ds0, %fs0, -, HS0⟩, Hq0, Hh0, HT0, HT1, HT2, HW, Hk⟩
    sl_exec (disch := first | sl_exact hc0 | sl_exact k0_hw1)
    sl_step
    iapply Hk
    isplitl [H0]; · iexists _; iexact H0
    isplitl [HS0]
    · iexists _, _; isplitr; swap; · iexact HS0
      ipureintro; rfl
    isplitl [Hq0]; · iexact Hq0
    isplitl [Hh0]; · iexact Hh0
    isplitl [HT0]; · iexact HT0
    isplitl [HT1]; · iexact HT1
    isplitl [HT2]; · iexact HT2
    iexists _; iexact HW

end Cert.KernelIdeal.Hand

end
-- ==== Proof.KiRunB.lean ====
/-
  The kernel body at a point where the accumulator is kept (the second grid coordinate is not zero): the output block
  holds what the point before left; the constraint's row is copied into the row scratch and waited for, and the
  constraint's contribution is added into entry (0, 0) of the block. What the block ends with is its contents before
  with that one store written.
-/
import proofs.«401648_j22247930593476_2_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_B (c : Dev nD) (i : grid0.Coords) (arg6 : Memref sig .tc .vmem S8x128 .f32) (harg6 : arg6.IsWhole)
    (hc0 : ¬cond0 i)
    (xt0 : TbBuf0 (F := F) c tbM0_0) (xt1 : TbBuf0 (F := F) c tbM0_1) (xt2 : TbBuf0 (F := F) c tbM0_2)
    (fh0 : HbBuf0 (F := F) c hbM0_0)
    (y0 : Vec F S8x128 .f32)
    (k0_hw1 : k0_chk1 (tbM0_0.view.readAt (Elt F) (Rect.unit (s := S10240) (k0_off1 i) S1.size (k0_off1_inb i)).toLoadRect xt0 (Shape.Idx.first (numel1_S1.symm ▸ Nat.one_pos)))) :
    { L0 : List (View.Piece (Elt F) S8x128 .f32) //
      ∀ (W : Waits sig Unit) (K : PUnit → sProp 𝕄),
        iprop(owns (c : Thread nD τ) arg6 fullShare y0 ∗ (∃ d, owns (c : Thread nD τ) scM0_0 fullShare d)
            ∗ semVal ((c : Thread nD τ), SemLoc.dma 2) 0 ∗ hbPt0 c hbM0_0 fh0
            ∗ tbPt0 c tbM0_0 xt0 ∗ tbPt0 c tbM0_1 xt1 ∗ tbPt0 c tbM0_2 xt2 ∗ owes (c : Thread nD τ) 0 W
            ∗ (iprop((arg6.view.loc (c : Thread nD τ) ↦[arg6.view.set]{fullShare} arg6.view.writes (Elt F) (harg6.unread y0) L0)
                ∗ (∃ d, owns (c : Thread nD τ) scM0_0 fullShare d) ∗ semVal ((c : Thread nD τ), SemLoc.dma 2) 0 ∗ hbPt0 c hbM0_0 fh0
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ
              (cc0__gather_loss_kernel i tbM0_0 htbM0_0 tbM0_1 htbM0_1 tbM0_2 htbM0_2 hbM0_0 (Memref.isWhole_whole _) arg6 harg6 scM0_0 (Memref.isWhole_whole _) cc0_scratch1) K } := by
  refine ⟨?_, fun W K => ?run⟩
  case run =>
    simp only [cc0__gather_loss_kernel_eq_skeleton]; unfold cc0__gather_loss_kernel_skel
    simp only [k0_part1_eq_skeleton]
    unfold owns
    iintro ⟨⟨%f0, %hf0, H0⟩, ⟨%ds0, %fs0, -, HS0⟩, Hq0, Hh0, HT0, HT1, HT2, HW, Hk⟩
    obtain rfl := harg6.eq_unread hf0
    sl_exec (disch := first | sl_exact hc0 | sl_exact k0_hw1)
    sl_step
    iapply Hk
    isplitl [H0]; · iexact H0
    isplitl [HS0]
    · iexists _, _; isplitr; swap; · iexact HS0
      ipureintro; rfl
    isplitl [Hq0]; · iexact Hq0
    isplitl [Hh0]; · iexact Hh0
    isplitl [HT0]; · iexact HT0
    isplitl [HT1]; · iexact HT1
    isplitl [HT2]; · iexact HT2
    iexists _; iexact HW

end Cert.KernelIdeal.Hand

end
-- ==== Proof.KiSched.lean ====
/-
  The grid is 2 × 5120 points run row-major: point `t` has first coordinate `t / 5120` (which of the two halves of the
  constraints) and second coordinate `t % 5120`. The output block's index is (first coordinate, 0): it moves only
  between point 5119 and point 5120, so the block is written back after points 5119 and 10239 only; and the body's
  reset condition holds exactly where the second coordinate is zero.
-/
import proofs.«401648_j22247930593476_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem stride0 : grid0.stride 0 = 5120 := by decide
theorem stride1 : grid0.stride 1 = 1 := by decide

theorem coords0_val (t : Fin grid0.N) : ((grid0.coords t) 0).val = t.val / 5120 % 2 := by
  show t.val / grid0.stride 0 % grid0.bound 0 = _
  rw [stride0]; rfl

theorem coords1_val (t : Fin grid0.N) : ((grid0.coords t) 1).val = t.val % 5120 := by
  show t.val / grid0.stride 1 % grid0.bound 1 = _
  rw [stride1, Nat.div_one]; rfl

/-- The reset condition, as the body spells it on a word below 5120, says the word is zero. -/
theorem cond0_fin : ∀ n : Fin 5120,
    (Scalar.cmpi .ne (Scalar.extui (Scalar.cmpi .eq (BitVec.ofNat 32 n.val) 0#32)) 0#32 = 1#1) ↔ n.val = 0 := by
  decide +kernel

theorem cond0_iff (i : grid0.Coords) : cond0 i ↔ (i 1).val = 0 := cond0_fin (i 1)

/-- The reset condition holds at the first point of each half. -/
theorem hcond0 (t : Fin grid0.N) : cond0 (grid0.coords t) ↔ t.val % 5120 = 0 := by
  rw [cond0_iff, coords1_val]

/-- The output block is not written back after point `t` unless the next point starts the other half (or `t` is the last). -/
theorem flushOf_false (t : Fin grid0.N) (h : (t.val + 1) % 5120 ≠ 0) :
    Pipeline.Window.flushOf grid0 true cc0_transform_1 t = false := by
  have hN : grid0.N = 10240 := N_0
  have ht := t.isLt
  unfold Pipeline.Window.flushOf
  rw [Bool.true_and, Bool.or_eq_false_iff]
  refine ⟨decide_eq_false (by omega), decide_eq_false ?_⟩
  rintro ⟨h1, hne⟩
  apply hne
  have e : grid0.coords ⟨t.val + 1, h1⟩ 0 = grid0.coords t 0 :=
    Fin.ext (by rw [coords0_val, coords0_val]; show (t.val + 1) / 5120 % 2 = t.val / 5120 % 2; omega)
  unfold cc0_transform_1
  dsimp only
  rw [e]

end Cert.KernelIdeal.Hand

end
-- ==== Proof.KiTables.lean ====
/-
  The three prefetched tables read at a flat constraint index: each is three arrays joined — the 4096 positive
  constraints, then the 4096 negative ones, then the 2048 neutral ones — so entry `n` is an entry of one of the
  arguments (row ids, column ids) or the class tag 0, 1, 2. And the host lines before the region write none of the
  seven arguments.
-/
import proofs.«401648_j22247930593476_2_alg».proof.Proof.KiBase
import proofs.«401648_j22247930593476_2_alg».proof.Proof.LibNary3
import Idealize.ShloMosaic.Lib.ValueIdx
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Entry `n` of three arrays joined end to end (4096, 4096, 2048 entries). -/
def join3 {α : Type} (a b : S4096.Idx → α) (d : S2048.Idx → α) (n : Fin 10240) : α :=
  if h : n.val < 4096 then a (ix1 ⟨n.val, h⟩)
  else if h2 : n.val < 8192 then b (ix1 ⟨n.val - 4096, by omega⟩)
  else d (ix1 ⟨n.val - 8192, by omega⟩)

/-! ## The host lines write none of the arguments -/

/-- Every host line before the region writes the one value it defines: a reference that is none of the nine is not
    written. -/
theorem not_written (b : Ref sig .tc)
    (hb : b ≠ main_v0 ∧ b ≠ main_v1 ∧ b ≠ main_c ∧ b ≠ main_v2 ∧ b ≠ main_c_0 ∧ b ≠ main_v3 ∧ b ≠ main_c_1 ∧ b ≠ main_v4 ∧ b ≠ main_v5) :
    ∀ op ∈ List.flatten [(hostOps0 : List (HloOp τ sig (Elt F)))], Proc.devRef .tc b ∉ op.writes := by
  obtain ⟨h0, h1, h2, h3, h4, h5, h6, h7, h8⟩ := hb
  intro op hop
  simp only [hostOps0, List.flatten_cons, List.flatten_nil, List.append_nil, List.mem_cons, List.mem_nil_iff, or_false] at hop
  rcases hop with rfl | rfl | rfl | rfl | rfl | rfl | rfl | rfl | rfl <;>
    simp only [StableHlo.unary_writes, StableHlo.nary_writes, StableHlo.nullary_writes, Finset.mem_singleton] <;>
    exact StableHlo.devRef_ne_of_ne ‹_›

/-- The host lines before the region leave every argument as launched. -/
theorem V_main_arg0 (c : Dev nD) : V m c main_arg0 = m ((c : Thread nD τ).loc main_arg0) :=
  StableHlo.after_of_forall_not_mem (b := Proc.devRef .tc main_arg0) _ (fun b => m (c, b)) (not_written main_arg0 (by decide))
theorem V_main_arg1 (c : Dev nD) : V m c main_arg1 = m ((c : Thread nD τ).loc main_arg1) :=
  StableHlo.after_of_forall_not_mem (b := Proc.devRef .tc main_arg1) _ (fun b => m (c, b)) (not_written main_arg1 (by decide))
theorem V_main_arg2 (c : Dev nD) : V m c main_arg2 = m ((c : Thread nD τ).loc main_arg2) :=
  StableHlo.after_of_forall_not_mem (b := Proc.devRef .tc main_arg2) _ (fun b => m (c, b)) (not_written main_arg2 (by decide))
theorem V_main_arg3 (c : Dev nD) : V m c main_arg3 = m ((c : Thread nD τ).loc main_arg3) :=
  StableHlo.after_of_forall_not_mem (b := Proc.devRef .tc main_arg3) _ (fun b => m (c, b)) (not_written main_arg3 (by decide))
theorem V_main_arg4 (c : Dev nD) : V m c main_arg4 = m ((c : Thread nD τ).loc main_arg4) :=
  StableHlo.after_of_forall_not_mem (b := Proc.devRef .tc main_arg4) _ (fun b => m (c, b)) (not_written main_arg4 (by decide))
theorem V_main_arg5 (c : Dev nD) : V m c main_arg5 = m ((c : Thread nD τ).loc main_arg5) :=
  StableHlo.after_of_forall_not_mem (b := Proc.devRef .tc main_arg5) _ (fun b => m (c, b)) (not_written main_arg5 (by decide))
theorem V_main_arg6 (c : Dev nD) : V m c main_arg6 = m ((c : Thread nD τ).loc main_arg6) :=
  StableHlo.after_of_forall_not_mem (b := Proc.devRef .tc main_arg6) _ (fun b => m (c, b)) (not_written main_arg6 (by decide))

/-! ## The three tables at an entry -/

/-- Three arrays of 4096, 4096 and 2048 entries joined along their one axis, read at entry \`n\`: the piece whose span
    holds \`n\`, at \`n\` less the extents before it. -/
theorem concat3_apply {α : Type} (a b : S4096.Idx → α) (d : S2048.Idx → α)
    (h : Shape.Concatenates ([(⟨S4096, a⟩ : (s : Shape) × (s.Idx → α)), ⟨S4096, b⟩, ⟨S2048, d⟩].map (·.1)) S10240 0)
    (n : Fin 10240) :
    concatenate S10240 0 [⟨S4096, a⟩, ⟨S4096, b⟩, ⟨S2048, d⟩] h (ix1 n) = join3 a b d n := by
  have hone : ∀ (s : Shape) (hr : s.rank = S10240.rank) (q : Fin s.rank), q.cast hr = (0 : Fin S10240.rank) := fun s hr q =>
    Fin.ext (by have h1 : (q.cast hr).val < 1 := (q.cast hr).isLt; have h2 : ((0 : Fin S10240.rank) : ℕ) = 0 := rfl; omega)
  unfold join3
  by_cases h1 : n.val < 4096
  · rw [dif_pos h1]
    refine concatenate_apply_piece (0 : Fin S10240.rank) _ h (ix1 n) 0 (by simp) S4096 a rfl rfl 0 rfl (ix1 ⟨n.val, h1⟩)
      (fun q hq => absurd (hone _ _ q) hq) ?_
    show 0 + n.val = n.val
    omega
  · rw [dif_neg h1]
    by_cases h2 : n.val < 8192
    · rw [dif_pos h2]
      refine concatenate_apply_piece (0 : Fin S10240.rank) _ h (ix1 n) 1 (by simp) S4096 b rfl rfl 4096 rfl (ix1 ⟨n.val - 4096, by omega⟩)
        (fun q hq => absurd (hone _ _ q) hq) ?_
      show 4096 + (n.val - 4096) = n.val
      omega
    · rw [dif_neg h2]
      refine concatenate_apply_piece (0 : Fin S10240.rank) _ h (ix1 n) 2 (by simp) S2048 d rfl rfl 8192 rfl (ix1 ⟨n.val - 8192, by omega⟩)
        (fun q hq => absurd (hone _ _ q) hq) ?_
      show 8192 + (n.val - 8192) = n.val
      have := n.isLt
      omega

/-- Three constant arrays joined: the entry is the constant of the piece that holds it. -/
theorem join3_const {α : Type} (a b : S4096.Idx → α) (d : S2048.Idx → α) (x y z : α)
    (ha : ∀ i, a i = x) (hb : ∀ i, b i = y) (hd : ∀ i, d i = z) (n : Fin 10240) :
    join3 a b d n = if n.val < 4096 then x else if n.val < 8192 then y else z := by
  unfold join3
  by_cases h1 : n.val < 4096
  · rw [dif_pos h1, if_pos h1]; exact ha _
  · rw [dif_neg h1, if_neg h1]
    by_cases h2 : n.val < 8192
    · rw [dif_pos h2, if_pos h2]; exact hb _
    · rw [dif_neg h2, if_neg h2]; exact hd _

/-- Rewrites the contents a literal line of host operations leaves at a reference: each operation's result at its own
    buffer is its function's value, at any other reference what was there. -/
local macro "tables_results" : tactic =>
  `(tactic| (simp only [StableHlo.after_cons, StableHlo.after_nil]
             repeat (first
               | rw [Cert.LibNary3.nary3_result] | rw [StableHlo.nullary_result] | rw [StableHlo.unary_result]
               | (rw [StableHlo.nullary_result_ne]; rotate_left; decide)
               | (rw [StableHlo.unary_result_ne]; rotate_left; decide)
               | (rw [StableHlo.nary_result_ne]; rotate_left; decide))))

/-- The row-id table at constraint `n`. -/
theorem tbl0_apply (n : Fin 10240) :
    (tbl m 0 : S10240.Idx → BitVec 32) (ix1 n)
      = join3 (m (((0 : Dev nD) : Thread nD τ).loc main_arg1)) (m (((0 : Dev nD) : Thread nD τ).loc main_arg3)) (m (((0 : Dev nD) : Thread nD τ).loc main_arg5)) n := by
  show StableHlo.after (List.flatten [hostOps0]) (fun b => m ((0 : Dev nD), b)) (Proc.devRef .tc main_v0) (ix1 n) = _
  simp only [hostOps0, List.flatten_cons, List.flatten_nil, List.append_nil]
  tables_results
  exact concat3_apply _ _ _ _ n

/-- The column-id table at constraint `n`. -/
theorem tbl1_apply (n : Fin 10240) :
    (tbl m 1 : S10240.Idx → BitVec 32) (ix1 n)
      = join3 (m (((0 : Dev nD) : Thread nD τ).loc main_arg2)) (m (((0 : Dev nD) : Thread nD τ).loc main_arg4)) (m (((0 : Dev nD) : Thread nD τ).loc main_arg6)) n := by
  show StableHlo.after (List.flatten [hostOps0]) (fun b => m ((0 : Dev nD), b)) (Proc.devRef .tc main_v1) (ix1 n) = _
  simp only [hostOps0, List.flatten_cons, List.flatten_nil, List.append_nil]
  tables_results
  exact concat3_apply _ _ _ _ n

/-- The class-tag table at constraint `n`: 0 for a positive constraint, 1 for a negative one, 2 for a neutral one. -/
theorem tbl2_apply (n : Fin 10240) :
    (tbl m 2 : S10240.Idx → BitVec 32) (ix1 n)
      = if n.val < 4096 then 0#32 else if n.val < 8192 then 1#32 else 2#32 := by
  show StableHlo.after (List.flatten [hostOps0]) (fun b => m ((0 : Dev nD), b)) (Proc.devRef .tc main_v5) (ix1 n) = _
  simp only [hostOps0, List.flatten_cons, List.flatten_nil, List.append_nil]
  tables_results
  exact (concat3_apply _ _ _ _ n).trans (join3_const _ _ _ _ _ _ (fun _ => rfl) (fun _ => rfl) (fun _ => rfl) n)

end Cert.KernelIdeal.Hand

end
-- ==== Proof.KiFrame.lean ====
/-
  The kernel region's frame: what the output block holds after each grid point, the proof data of the pipeline, the body
  obligation at every point, and the run of the whole program — under the one side condition the body assumes at every
  point (the row id it reads names a row of the table array).
-/
import proofs.«401648_j22247930593476_2_alg».proof.Proof.KiRunB
import proofs.«401648_j22247930593476_2_alg».proof.Proof.KiSched
import proofs.«401648_j22247930593476_2_alg».proof.Proof.KiTables
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The side condition the body assumes, at every grid point: the row-id word the point reads off the first table
    names a row of the table array. -/
def Hyps : Prop := ∀ i : grid0.Coords,
  k0_chk1 (tbM0_0.view.readAt (Elt F) (Rect.unit (s := S10240) (k0_off1 i) S1.size (k0_off1_inb i)).toLoadRect (tbl m 0) (Shape.Idx.first (numel1_S1.symm ▸ Nat.one_pos)))

variable (hH : Hyps m)

/-! ## What the output block holds, case by case -/

/-- One staging buffer of the output window, through which the reset case's contents are stated (the choice does not
    matter: its stores cover the block). -/
abbrev VO0_0 : View sig .tc .vmem S8x128 .f32 := (Memref.whole cc0_stg0_0 : Memref sig .tc .vmem S8x128 .f32).view

/-- The reset case's stores cover the block: the zero fill is of the whole block. -/
theorem cover0_A (c : Dev nD) (i : grid0.Coords) (arg6 : Memref sig .tc .vmem S8x128 .f32) (harg6 : arg6.IsWhole) (hc0 : cond0 i)
    (xt0 : TbBuf0 (F := F) c tbM0_0) (xt1 : TbBuf0 (F := F) c tbM0_1) (xt2 : TbBuf0 (F := F) c tbM0_2) (fh0 : HbBuf0 (F := F) c hbM0_0)
    (hw : k0_chk1 (tbM0_0.view.readAt (Elt F) (Rect.unit (s := S10240) (k0_off1 i) S1.size (k0_off1_inb i)).toLoadRect xt0 (Shape.Idx.first (numel1_S1.symm ▸ Nat.one_pos))))
    (y : S8x128.Idx) :
    ∃ pc ∈ (kernelRun0_A c i arg6 harg6 hc0 xt0 xt1 xt2 fh0 hw).1, y ∈ pc.1.set :=
  View.cover_of_tiledL (kernelRun0_A c i arg6 harg6 hc0 xt0 xt1 xt2 fh0 hw).1 S8x128.size (by sl_kernel_rfl) y

/-- What the reset case leaves in the block: its stores read back over anything. -/
def out0_A (c : Dev nD) (i : grid0.Coords) (arg6 : Memref sig .tc .vmem S8x128 .f32) (harg6 : arg6.IsWhole) (hc0 : cond0 i)
    (xt0 : TbBuf0 (F := F) c tbM0_0) (xt1 : TbBuf0 (F := F) c tbM0_1) (xt2 : TbBuf0 (F := F) c tbM0_2) (fh0 : HbBuf0 (F := F) c hbM0_0)
    (hw : k0_chk1 (tbM0_0.view.readAt (Elt F) (Rect.unit (s := S10240) (k0_off1 i) S1.size (k0_off1_inb i)).toLoadRect xt0 (Shape.Idx.first (numel1_S1.symm ▸ Nat.one_pos)))) :
    Vec F S8x128 .f32 :=
  VO0_0.read (Elt F) (VO0_0.writes (Elt F) VO0_0.junk (kernelRun0_A c i arg6 harg6 hc0 xt0 xt1 xt2 fh0 hw).1)

/-- What the keeping case leaves in the block: the contents `y0` it found with its one store written. -/
def out0_B (c : Dev nD) (i : grid0.Coords) (arg6 : Memref sig .tc .vmem S8x128 .f32) (harg6 : arg6.IsWhole) (hc0 : ¬cond0 i)
    (xt0 : TbBuf0 (F := F) c tbM0_0) (xt1 : TbBuf0 (F := F) c tbM0_1) (xt2 : TbBuf0 (F := F) c tbM0_2) (fh0 : HbBuf0 (F := F) c hbM0_0)
    (y0 : Vec F S8x128 .f32)
    (hw : k0_chk1 (tbM0_0.view.readAt (Elt F) (Rect.unit (s := S10240) (k0_off1 i) S1.size (k0_off1_inb i)).toLoadRect xt0 (Shape.Idx.first (numel1_S1.symm ▸ Nat.one_pos)))) :
    Vec F S8x128 .f32 :=
  arg6.view.read (Elt F) (arg6.view.writes (Elt F) (harg6.unread y0) (kernelRun0_B c i arg6 harg6 hc0 xt0 xt1 xt2 fh0 y0 hw).1)

/-! ## What the output block holds after each point -/

/-- THE ACCUMULATION. After point `n`: at the first point of a half the reset case's contents; at any other point the
    keeping case's, over what the point before left (the block is not written back in between). -/
def outsAt0 (c : Dev nD) : (n : ℕ) → n < (cfgM m).N → Vec F S8x128 .f32
  | 0, hn => out0_A c (grid0.coords ⟨0, hn⟩) (ms0_0 m ⟨0, hn⟩) (hs0_0 m ⟨0, hn⟩) ((hcond0 ⟨0, hn⟩).mpr (Nat.zero_mod _)) (tbl m 0) (tbl m 1) (tbl m 2) (V m c main_arg0) (hH _)
  | n + 1, hn =>
    if h0 : (n + 1) % 5120 = 0 then
      out0_A c (grid0.coords ⟨n + 1, hn⟩) (ms0_0 m ⟨n + 1, hn⟩) (hs0_0 m ⟨n + 1, hn⟩) ((hcond0 ⟨n + 1, hn⟩).mpr h0) (tbl m 0) (tbl m 1) (tbl m 2) (V m c main_arg0) (hH _)
    else
      out0_B c (grid0.coords ⟨n + 1, hn⟩) (ms0_0 m ⟨n + 1, hn⟩) (hs0_0 m ⟨n + 1, hn⟩) (fun h => h0 ((hcond0 ⟨n + 1, hn⟩).mp h)) (tbl m 0) (tbl m 1) (tbl m 2) (V m c main_arg0) (outsAt0 c n (Nat.lt_of_succ_lt hn)) (hH _)

theorem outsAt0_A (c : Dev nD) (t : Fin (cfgM m).N) (h0 : t.val % 5120 = 0) :
    outsAt0 m hH c t.val t.isLt = out0_A c (grid0.coords t) (ms0_0 m t) (hs0_0 m t) ((hcond0 t).mpr h0) (tbl m 0) (tbl m 1) (tbl m 2) (V m c main_arg0) (hH _) := by
  obtain ⟨n, hn⟩ := t
  cases n with
  | zero => exact rfl
  | succ n => exact (dif_pos h0).trans rfl

theorem outsAt0_B (c : Dev nD) (t : Fin (cfgM m).N) (h0 : ¬t.val % 5120 = 0) :
    outsAt0 m hH c t.val t.isLt = out0_B c (grid0.coords t) (ms0_0 m t) (hs0_0 m t) (fun h => h0 ((hcond0 t).mp h)) (tbl m 0) (tbl m 1) (tbl m 2) (V m c main_arg0)
      (outsAt0 m hH c (t.val - 1) (Nat.lt_of_le_of_lt (Nat.sub_le _ _) t.isLt)) (hH _) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the array as the region finds it; after the body at point `t` the output block at
    `outsAt0`; the invariant (the row scratch, the generator register, the transfer semaphore at zero, the table array at
    its entry contents, and the three tables' halves); nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => outsAt0 m hH c t.val t.isLt
  Φ _ := iprop(Pipeline.ΦD osem0 spec0 H0 (V m) c ∗ Pipeline.ΦT pre0 (tbl m) c)
  q _ := fullShare
  owed _ := 0

theorem A_eq (c : Dev nD) (w : Fin (cfgM m).W) : (dats m hH 0 c).A w = V m c (Pipeline.arrRef spec0 w) := by
  dsimp only [dats]

theorem after0_0 (c : Dev nD) (t : Fin (cfgM m).N) : (dats m hH 0 c).after 0 t = outsAt0 m hH c t.val t.isLt := by dsimp only [dats]; try rfl

/-- The output block is not written back after point `t` unless the next point starts the other half, whatever the
    tables hold (its index map reads none). -/
theorem flush0_0 (a : (pcfg0 (F := F)).Adm) (t : Fin (cfg0 a).N) (h : (t.val + 1) % 5120 ≠ 0) : ((cfg0 a).win 0).flush t = false :=
  flushOf_false t h

/-- At a point that is not the first of a half the block holds what the body left at the point before. -/
theorem before0_0_B (c : Dev nD) (t : Fin (cfgM m).N) (h0 : ¬t.val % 5120 = 0) (d) :
    (dats m hH 0 c).before 0 t d = outsAt0 m hH c (t.val - 1) (Nat.lt_of_le_of_lt (Nat.sub_le _ _) t.isLt) := by
  have ht : t.val ≠ 0 := fun h => h0 (by rw [h])
  rw [Dat.before_out_kept _ 0 rfl t ht (flush0_0 (adm m) _ (by show (t.val - 1 + 1) % 5120 ≠ 0; rw [Nat.sub_add_cancel (Nat.pos_of_ne_zero ht)]; exact h0))
    (fun _ => rfl) (fun _ _ => rfl)]
  exact after0_0 m hH c _

/-! ## The body obligation, at a generic point -/

def bodyPre (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d)))

def bodyPost (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t))

set_option maxHeartbeats 1000000 in
/-- The body at any point: the closed form says which case the point is in; in the keeping case the block holds what the
    point before left; so the case's run applies. The invariant hands the body its scratch, its semaphore at zero, the
    table array and the tables, and takes them back as they were. -/
theorem sound_body (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  rw [show (dats m hH 0 c).Φ t.succ = (dats m hH 0 c).Φ t.castSucc from rfl, after0_0]
  rw [show (dats m hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hH 0 c).owed t.castSucc = 0 from rfl, show (dats m hH 0 c).owed t.succ = 0 from rfl]
  by_cases h0 : t.val % 5120 = 0
  · rw [outsAt0_A m hH c t h0]
    unfold out0_A
    iintro ⟨⟨⟨HS0, Hg, Hq0, Hh0⟩, HT0, HT1, HT2⟩, ⟨%W, -, HW⟩, ⟨%d0, H0⟩⟩
    iapply ((kernelRun0_A c (grid0.coords t) _ _ ((hcond0 t).mpr h0) (tbl m 0) (tbl m 1) (tbl m 2) (V m c main_arg0) (hH _)).2 W _)
    isplitl [H0]; · iexists _; iexact H0
    isplitl [HS0]; · iexact HS0
    isplitl [Hq0]; · iexact Hq0
    isplitl [Hh0]; · iexact Hh0
    isplitl [HT0]; · iexact HT0
    isplitl [HT1]; · iexact HT1
    isplitl [HT2]; · iexact HT2
    isplitl [HW]; · iexact HW
    iintro ⟨⟨%e0, H0⟩, HS0, Hq0, Hh0, HT0, HT1, HT2, ⟨%W', HW'⟩⟩
    isplitl [HS0 Hg Hq0 Hh0 HT0 HT1 HT2]
    · isplitl [HS0 Hg Hq0 Hh0]
      · isplitl [HS0]; · iexact HS0
        isplitl [Hg]; · iexact Hg
        isplitl [Hq0]; · iexact Hq0
        iexact Hh0
      isplitl [HT0]; · iexact HT0
      isplitl [HT1]; · iexact HT1
      iexact HT2
    isplitl [HW']
    · iexists W'; isplitr; · ipureintro; exact fun _ _ => Or.inl trivial
      iexact HW'
    unfold owns; iexists _; isplitr
    swap; · iexact H0
    ipureintro; exact View.read_writes_of_cover _ _ _ _ _ (cover0_A c _ _ _ _ _ _ _ _ _)
  · rw [outsAt0_B m hH c t h0]
    simp only [before0_0_B m hH c t h0]
    unfold out0_B
    iintro ⟨⟨⟨HS0, Hg, Hq0, Hh0⟩, HT0, HT1, HT2⟩, ⟨%W, -, HW⟩, ⟨%d0, H0⟩⟩
    iapply ((kernelRun0_B c (grid0.coords t) _ _ (fun h => h0 ((hcond0 t).mp h)) (tbl m 0) (tbl m 1) (tbl m 2) (V m c main_arg0) _ (hH _)).2 W _)
    isplitl [H0]; · iexact H0
    isplitl [HS0]; · iexact HS0
    isplitl [Hq0]; · iexact Hq0
    isplitl [Hh0]; · iexact Hh0
    isplitl [HT0]; · iexact HT0
    isplitl [HT1]; · iexact HT1
    isplitl [HT2]; · iexact HT2
    isplitl [HW]; · iexact HW
    iintro ⟨H0, HS0, Hq0, Hh0, HT0, HT1, HT2, ⟨%W', HW'⟩⟩
    isplitl [HS0 Hg Hq0 Hh0 HT0 HT1 HT2]
    · isplitl [HS0 Hg Hq0 Hh0]
      · isplitl [HS0]; · iexact HS0
        isplitl [Hg]; · iexact Hg
        isplitl [Hq0]; · iexact Hq0
        iexact Hh0
      isplitl [HT0]; · iexact HT0
      isplitl [HT1]; · iexact HT1
      iexact HT2
    isplitl [HW']
    · iexists W'; isplitr; · ipureintro; exact fun _ _ => Or.inl trivial
      iexact HW'
    unfold owns; iexists _; isplitr
    swap; · iexact H0
    ipureintro; rfl

theorem body_obligation (c : Dev nD) : BodyObligation (dats (F := F) m hH 0 c) (defs₀ (F := F)) Variants.none () Set.univ := fun t => by
  rw [bigSep_W0, bigSep_W0]
  exact sound_body m hH c t

/-! ## The host lines after the region -/

/-- They touch only the output array and buffers that bypass the region other than the table array. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl <;>
    simp only [StableHlo.unary_bufs, StableHlo.binary_bufs, StableHlo.nullary_bufs, StableHlo.reshape_bufs] <;> decide

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The run -/

set_option backward.isDefEq.respectTransparency.types false in
/-- At the compiled mesh, for any values, from any memory with zero counters, under the body's side condition: every
    weakly fair execution of @main terminates, the output array ends at what the library computes from the proof data,
    and every other unscoped buffer at what the host lines after the region leave. -/
theorem run_main : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V_pre m)
    (hin := fun _ => .rfl) (hout := fun c => by
      rw [show (dats m hH 0 c).Φ (Fin.last _) = iprop(Pipeline.ΦD osem0 spec0 H0 (V m) c ∗ Pipeline.ΦT pre0 (tbl m) c) from rfl]
      iintro ⟨H, -⟩; iexact H)

end Cert.KernelIdeal.Hand

end
-- ==== Proof.KiPost.lean ====
/-
  What the run leaves: no host line after the region writes an argument, so every argument ends as launched (the table
  array is handed back by the kernel's invariant unchanged; the index arrays bypass the region); and the result buffer
  ends at what the host lines after the region compute from the output array the region leaves.
-/
import proofs.«401648_j22247930593476_2_alg».proof.Proof.KiFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hH : Hyps m)

/-- Every host line after the region writes the one value it defines. -/
theorem not_written1 (b : Ref sig .tc)
    (hb : b ≠ main_v7 ∧ b ≠ main_v8 ∧ b ≠ main_v9 ∧ b ≠ main_v10 ∧ b ≠ main_v11 ∧ b ≠ main_cst ∧ b ≠ main_v12 ∧ b ≠ main_cst_2 ∧ b ≠ main_v13) :
    ∀ op ∈ List.flatten [(hostOps1 : List (HloOp τ sig (Elt F)))], Proc.devRef .tc b ∉ op.writes := by
  obtain ⟨h0, h1, h2, h3, h4, h5, h6, h7, h8⟩ := hb
  intro op hop
  simp only [hostOps1, List.flatten_cons, List.flatten_nil, List.append_nil, List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer the later lines do not write, and that is not the output array, ends at its region-entry contents. -/
theorem afterTail_arg (c : Dev nD) (b : Ref sig .tc)
    (hb : b ≠ main_v7 ∧ b ≠ main_v8 ∧ b ≠ main_v9 ∧ b ≠ main_v10 ∧ b ≠ main_v11 ∧ b ≠ main_cst ∧ b ≠ main_v12 ∧ b ≠ main_cst_2 ∧ b ≠ main_v13)
    (harr : ∀ w, Pipeline.arrRef spec0 w ≠ b) :
    Pipeline.afterTail pcfgs (fun _ => adm m) (dats m hH) 0 (V0 m) [hostOps1] c b = V m c b := by
  unfold Pipeline.afterTail
  rw [StableHlo.after_of_forall_not_mem _ _ (not_written1 b hb)]
  exact Pipeline.withArrays_of_ne _ c (V0 m c) _ b harr

/-- The run's post read at the result and at the arguments. -/
theorem run_post : θ_run defs (onTc (τ := τ) (main (F := F))) ⟨m, fun _ => 0, ρ⟩ (fun r => ∀ c : Dev nD,
      r.2.mem ((c.tc : Thread nD τ).loc main_v13) = Pipeline.afterTail pcfgs (fun _ => adm m) (dats m hH) 0 (V0 m) [hostOps1] c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v13 (Pipeline.mem_restRefs_of main_v13 (by decide) (show ∀ w, (spec0 w).arr.view.ref ≠ main_v13 from by decide)),
    ((h c).2 main_arg0 (Pipeline.mem_restRefs_of main_arg0 (by decide) (show ∀ w, (spec0 w).arr.view.ref ≠ main_arg0 from by decide))).trans ((afterTail_arg m hH c main_arg0 (by decide) (by decide)).trans (V_main_arg0 m c)),
    ((h c).2 main_arg1 (Pipeline.mem_restRefs_of main_arg1 (by decide) (show ∀ w, (spec0 w).arr.view.ref ≠ main_arg1 from by decide))).trans ((afterTail_arg m hH c main_arg1 (by decide) (by decide)).trans (V_main_arg1 m c)),
    ((h c).2 main_arg2 (Pipeline.mem_restRefs_of main_arg2 (by decide) (show ∀ w, (spec0 w).arr.view.ref ≠ main_arg2 from by decide))).trans ((afterTail_arg m hH c main_arg2 (by decide) (by decide)).trans (V_main_arg2 m c)),
    ((h c).2 main_arg3 (Pipeline.mem_restRefs_of main_arg3 (by decide) (show ∀ w, (spec0 w).arr.view.ref ≠ main_arg3 from by decide))).trans ((afterTail_arg m hH c main_arg3 (by decide) (by decide)).trans (V_main_arg3 m c)),
    ((h c).2 main_arg4 (Pipeline.mem_restRefs_of main_arg4 (by decide) (show ∀ w, (spec0 w).arr.view.ref ≠ main_arg4 from by decide))).trans ((afterTail_arg m hH c main_arg4 (by decide) (by decide)).trans (V_main_arg4 m c)),
    ((h c).2 main_arg5 (Pipeline.mem_restRefs_of main_arg5 (by decide) (show ∀ w, (spec0 w).arr.view.ref ≠ main_arg5 from by decide))).trans ((afterTail_arg m hH c main_arg5 (by decide) (by decide)).trans (V_main_arg5 m c)),
    ((h c).2 main_arg6 (Pipeline.mem_restRefs_of main_arg6 (by decide) (show ∀ w, (spec0 w).arr.view.ref ≠ main_arg6 from by decide))).trans ((afterTail_arg m hH c main_arg6 (by decide) (by decide)).trans (V_main_arg6 m c))⟩) (run_main m ρ hH)

include hH in
/-- THE FRAME: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_post m ρ hH)

end Cert.KernelIdeal.Hand

end
-- ==== Proof.KiHyps.lean ====
/-
  The side condition the kernel body assumes holds at every grid point once every row id is in range: the word the
  body reads at its flat constraint index off the row-id table is one of the row-id arguments' entries, hence below
  100000, so the row it copies lies inside the table array.
-/
import proofs.«401648_j22247930593476_2_alg».proof.Proof.KiTables
import proofs.«401648_j22247930593476_2_alg».proof.Proof.KiSched

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The flat constraint index of a grid point: 5120 · (first coordinate) + (second coordinate). -/
def flat (i : grid0.Coords) : Fin 10240 := ⟨5120 * (i 0).val + (i 1).val, by
  have h0 : (i 0).val < 2 := (i 0).isLt
  have h1 : (i 1).val < 5120 := (i 1).isLt
  omega⟩

/-- The offset the body computes for its three table reads is the flat constraint index. -/
theorem k0_off1_eq (i : grid0.Coords) : k0_off1 i = ![(flat i).val] := by
  have h0 : (i 0).val < 2 := (i 0).isLt
  have h1 : (i 1).val < 5120 := (i 1).isLt
  -- the 32-bit product and sum do not wrap
  have e : (BitVec.ofNat 32 (i 0).val * 5120#32 + BitVec.ofNat 32 (i 1).val).toNat = 5120 * (i 0).val + (i 1).val := by
    rw [BitVec.toNat_add, BitVec.toNat_mul, BitVec.toNat_ofNat, BitVec.toNat_ofNat, BitVec.toNat_ofNat]
    omega
  funext a
  fin_cases a
  exact e

/-- The one index of the unit shape has coordinate zero. -/
theorem first_S1_val (h : 0 < S1.numel) (a : Fin S1.rank) : (Shape.Idx.first h a).val = 0 := by
  have h1 := (Shape.Idx.first h a).isLt
  have e : S1.size a = 1 := by fin_cases a; rfl
  omega

/-- A word read off a whole SMEM table through the body's unit rectangle at the point's offset is the table's entry
    at the flat constraint index. -/
theorem readAt_tbl (c : Dev nD) (i : grid0.Coords) (M : Memref sig .tc .smem S10240 .i32) (hM : M.IsWhole) (T : TbBuf0 (F := F) c M) :
    M.view.readAt (Elt F) (Rect.unit (s := S10240) (k0_off1 i) S1.size (k0_off1_inb i)).toLoadRect T (Shape.Idx.first (numel1_S1.symm ▸ Nat.one_pos))
      = M.view.read (Elt F) T (ix1 (flat i)) := by
  rw [View.readAt_apply]
  congr 1
  funext a
  apply Fin.ext
  fin_cases a
  show k0_off1 i 0 + 1 * (Shape.Idx.first (s := S1) _ (0 : Fin 1)).val = (flat i).val
  rw [first_S1_val, k0_off1_eq]
  show (flat i).val + 1 * 0 = (flat i).val
  omega

/-- An entry of three joined arrays is bounded as every entry of the three is. -/
theorem join3_toNat_lt (a b : S4096.Idx → BitVec 32) (d : S2048.Idx → BitVec 32) (N : ℕ)
    (ha : ∀ j, (a j).toNat < N) (hb : ∀ j, (b j).toNat < N) (hd : ∀ j, (d j).toNat < N) (n : Fin 10240) :
    (join3 a b d n).toNat < N := by
  unfold join3
  split
  · exact ha _
  · split
    · exact hb _
    · exact hd _

/-- A row id below 100000 names a row of the table array: the one-row block at it lies inside. -/
theorem chk_of_lt (w : BitVec 32) (hw : w.toNat < 100000) : k0_chk1 w := by
  intro a
  fin_cases a
  · show w.toNat + 1 ≤ 100000
    omega
  · show 0 + 512 ≤ 512
    omega

/-- With every row id in range, the body's assumed side condition holds at every grid point. -/
theorem chk_of_range
    (h1 : ∀ j, (m (((0 : Dev nD) : Thread nD τ).loc main_arg1) j).toNat < 100000)
    (h3 : ∀ j, (m (((0 : Dev nD) : Thread nD τ).loc main_arg3) j).toNat < 100000)
    (h5 : ∀ j, (m (((0 : Dev nD) : Thread nD τ).loc main_arg5) j).toNat < 100000)
    (i : grid0.Coords) :
    k0_chk1 (tbM0_0.view.readAt (Elt F) (Rect.unit (s := S10240) (k0_off1 i) S1.size (k0_off1_inb i)).toLoadRect (tbl m 0) (Shape.Idx.first (numel1_S1.symm ▸ Nat.one_pos))) := by
  rw [readAt_tbl (0 : Dev nD) i tbM0_0 htbM0_0 (tbl m 0)]
  show k0_chk1 ((tbl m 0 : S10240.Idx → BitVec 32) (ix1 (flat i)))
  rw [tbl0_apply]
  exact chk_of_lt _ (join3_toNat_lt _ _ _ 100000 h1 h3 h5 (flat i))

end Cert.KernelIdeal.Hand

end
-- ==== Proof.KiOut.lean ====
/-
  What the two cases of the kernel body leave at entry (0, 0) of the output block, in terms of the body's arithmetic:
  the constraint's words are the three tables' entries at the point's flat index, the row is the table array's row the
  row-id word names, and the stored value is the body's payload of those over the value found at (0, 0) — zero after
  the reset, the previous contents otherwise.
-/
import proofs.«401648_j22247930593476_2_alg».proof.Proof.KiFrame
import proofs.«401648_j22247930593476_2_alg».proof.Proof.KiHyps
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The table array's row the word `v10` names, as the 1 × 512 vector the body loads (the word reduced into range, so
    that the reading is total; a word in range is read as it is). -/
def rowAt (fh : S100000x512.Idx → Elt F .f32) (v10 : BitVec 32) : Vec F S1x512 .f32 :=
  fun y => fh (ix2 (⟨v10.toNat % 100000, Nat.mod_lt _ (by norm_num)⟩ : Fin 100000) (⟨(y 1).val, (y 1).isLt⟩ : Fin 512))

/-- The value the body stores at (0, 0): its payload of the column word `v6`, the class word `v8`, the row `v13`, over
    the value `a` found at (0, 0). -/
def contrib (v6 v8 : BitVec 32) (v13 : Vec F S1x512 .f32) (a : Elt F .f32) : Elt F .f32 :=
  k0_pay1 (F := F) v8 (k0_pay3 v6 v13) (k0_pay4 v6 v13) (k0_pay5 v6 v13) (k0_pay6 v6 v13) (k0_pay7 v6 v13) (k0_pay8 v6 v13) (fun _ => a) (ix2 0 0)

/-- The row the body loads from the row scratch after the transfer: the scratch holds the transfer's payload, the one-row
    block of the table array at the row the word names (which the side condition places inside the array), so the load
    reads that row. -/
theorem row_read (c : Dev nD) (fh0 : HbBuf0 (F := F) c hbM0_0) (w : BitVec 32) (hw : k0_chk1 w) :
    (scM0_0.view.readCov [⟨Rect.whole S1x512, ReadAs.same.apply (View.read (Elt F) (hbM0_0.slice (Rect.unit (s := S100000x512) (k0_off2 w) S1x512.size (k0_off2_inb w hw)) (fun _ => rfl)).view fh0)⟩]
      (Rect.unit (s := S1x512) ![0, 0] S1x512.size inb_S1x512_S1x512_0_0).toLoadRect : Vec F S1x512 .f32)
    = rowAt (fh0 : S100000x512.Idx → Elt F .f32) w := by
  rw [View.readCov_eq_canon']
  funext y
  have hy : (Rect.unit (s := S1x512) ![0, 0] S1x512.size inb_S1x512_S1x512_0_0).toLoadRect.idx y = (Rect.whole S1x512).emb y := by
    rw [Rect.emb_whole_apply]
    funext a; apply Fin.ext
    fin_cases a
    · show 0 + 1 * (y 0).val = (y 0).val; omega
    · show 0 + 1 * (y 1).val = (y 1).val; omega
  show View.canon _ _ = _
  rw [hy, View.canon_cons_emb]
  have hlt : w.toNat + 1 ≤ 100000 := hw 0
  have h0 : (y 0).val < 1 := (y 0).isLt
  show (fh0 : S100000x512.Idx → Elt F .f32) _ = (fh0 : S100000x512.Idx → Elt F .f32) _
  congr 1
  funext a; apply Fin.ext
  fin_cases a
  · show w.toNat + 1 * (y 0).val = w.toNat % 100000
    rw [Nat.mod_eq_of_lt (by omega)]; omega
  · show 0 + 1 * (y 1).val = (y 1).val
    omega

/-- The reset case at (0, 0): the payload over zero. -/
theorem out0_A_00 (c : Dev nD) (i : grid0.Coords) (arg6 : Memref sig .tc .vmem S8x128 .f32) (harg6 : arg6.IsWhole) (hc0 : cond0 i)
    (xt0 : TbBuf0 (F := F) c tbM0_0) (xt1 : TbBuf0 (F := F) c tbM0_1) (xt2 : TbBuf0 (F := F) c tbM0_2) (fh0 : HbBuf0 (F := F) c hbM0_0)
    (hw : k0_chk1 (tbM0_0.view.readAt (Elt F) (Rect.unit (s := S10240) (k0_off1 i) S1.size (k0_off1_inb i)).toLoadRect xt0 (Shape.Idx.first (numel1_S1.symm ▸ Nat.one_pos)))) :
    out0_A c i arg6 harg6 hc0 xt0 xt1 xt2 fh0 hw (ix2 0 0)
      = contrib ((xt1 : S10240.Idx → BitVec 32) (ix1 (flat i))) ((xt2 : S10240.Idx → BitVec 32) (ix1 (flat i)))
          (rowAt (fh0 : S100000x512.Idx → Elt F .f32) ((xt0 : S10240.Idx → BitVec 32) (ix1 (flat i)))) (Scalar.ofBits .f32 0x00000000#32) := by
  unfold out0_A kernelRun0_A
  dsimp only
  refine (View.read_writes_cons_unit_of_mem VO0_0 _ inb_S8x128_S1x1_0_0 _ _ (ix2 0 0) (ix2 0 0) rfl ?_).trans ?_
  · intro a; fin_cases a <;> rfl
  have e8 : kernelRun0_A.sl.r_1 c i xt2 = (xt2 : S10240.Idx → BitVec 32) (ix1 (flat i)) := readAt_tbl c i tbM0_2 htbM0_2 xt2
  have e6 : kernelRun0_A.sl.r c i xt1 = (xt1 : S10240.Idx → BitVec 32) (ix1 (flat i)) := readAt_tbl c i tbM0_1 htbM0_1 xt1
  have e13 : (kernelRun0_A.sl.v13 c i xt0 fh0 hw : Vec F S1x512 .f32)
      = rowAt (fh0 : S100000x512.Idx → Elt F .f32) ((xt0 : S10240.Idx → BitVec 32) (ix1 (flat i))) :=
    (row_read c fh0 _ hw).trans (congrArg (rowAt (fh0 : S100000x512.Idx → Elt F .f32)) (readAt_tbl c i tbM0_0 htbM0_0 xt0))
  have e56 : (kernelRun0_A.sl.v56 c arg6 : Vec F S1x1 .f32) = fun _ => Scalar.ofBits .f32 0x00000000#32 := by
    unfold kernelRun0_A.sl.v56 kernelRun0_A.sl.H0_1
    rw [View.readCov_eq_canon']
    funext x
    rw [View.canon_unit_zero (by funext a; fin_cases a <;> rfl)]
    rfl
  unfold kernelRun0_A.sl.r_3 kernelRun0_A.sl.r_4 kernelRun0_A.sl.r_5 kernelRun0_A.sl.r_6 kernelRun0_A.sl.r_7 kernelRun0_A.sl.r_8
  rw [e8, e6, e13, e56]
  rfl

/-- The keeping case at (0, 0): the payload over what the block held there. -/
theorem out0_B_00 (c : Dev nD) (i : grid0.Coords) (arg6 : Memref sig .tc .vmem S8x128 .f32) (harg6 : arg6.IsWhole) (hc0 : ¬cond0 i)
    (xt0 : TbBuf0 (F := F) c tbM0_0) (xt1 : TbBuf0 (F := F) c tbM0_1) (xt2 : TbBuf0 (F := F) c tbM0_2) (fh0 : HbBuf0 (F := F) c hbM0_0)
    (y0 : Vec F S8x128 .f32)
    (hw : k0_chk1 (tbM0_0.view.readAt (Elt F) (Rect.unit (s := S10240) (k0_off1 i) S1.size (k0_off1_inb i)).toLoadRect xt0 (Shape.Idx.first (numel1_S1.symm ▸ Nat.one_pos)))) :
    out0_B c i arg6 harg6 hc0 xt0 xt1 xt2 fh0 y0 hw (ix2 0 0)
      = contrib ((xt1 : S10240.Idx → BitVec 32) (ix1 (flat i))) ((xt2 : S10240.Idx → BitVec 32) (ix1 (flat i)))
          (rowAt (fh0 : S100000x512.Idx → Elt F .f32) ((xt0 : S10240.Idx → BitVec 32) (ix1 (flat i)))) (y0 (ix2 0 0)) := by
  unfold out0_B kernelRun0_B
  dsimp only
  refine (View.read_writes_cons_unit_of_mem arg6.view _ inb_S8x128_S1x1_0_0 _ _ (ix2 0 0) (ix2 0 0) rfl ?_).trans ?_
  · intro a; fin_cases a <;> rfl
  have e8 : kernelRun0_B.sl.r_1 c i xt2 = (xt2 : S10240.Idx → BitVec 32) (ix1 (flat i)) := readAt_tbl c i tbM0_2 htbM0_2 xt2
  have e6 : kernelRun0_B.sl.r c i xt1 = (xt1 : S10240.Idx → BitVec 32) (ix1 (flat i)) := readAt_tbl c i tbM0_1 htbM0_1 xt1
  have e13 : (kernelRun0_B.sl.v13 c i xt0 fh0 hw : Vec F S1x512 .f32)
      = rowAt (fh0 : S100000x512.Idx → Elt F .f32) ((xt0 : S10240.Idx → BitVec 32) (ix1 (flat i))) :=
    (row_read c fh0 _ hw).trans (congrArg (rowAt (fh0 : S100000x512.Idx → Elt F .f32)) (readAt_tbl c i tbM0_0 htbM0_0 xt0))
  have e56 : (View.readAt (Elt F) arg6.view (Rect.unit (s := S8x128) ![0, 0] ![1, 1] inb_S8x128_S1x1_0_0).toLoadRect (harg6.unread y0) : Vec F S1x1 .f32)
      = fun _ => y0 (ix2 0 0) := by
    funext x
    rw [View.readAt_apply, harg6.read_unread]
    congr 1
    funext a; apply Fin.ext
    fin_cases a
    · have hx : (x 0).val < 1 := (x 0).isLt
      show 0 + 1 * (x 0).val = 0
      omega
    · have hx : (x 1).val < 1 := (x 1).isLt
      show 0 + 1 * (x 1).val = 0
      omega
  unfold kernelRun0_B.sl.r_3 kernelRun0_B.sl.r_4 kernelRun0_B.sl.r_5 kernelRun0_B.sl.r_6 kernelRun0_B.sl.r_7 kernelRun0_B.sl.r_8
  rw [e8, e6, e13, e56]
  rfl

end Cert.KernelIdeal.Hand

end
-- ==== Proof.KiFinal.lean ====
/-
  The output array after the run: the block is written back after the last point of each half only — after point 5119
  into rows 0–7 and after point 10239 into rows 8–15 — so entry (0, 0) of the array is entry (0, 0) of the block after
  point 5119 and entry (8, 0) is entry (0, 0) of the block after point 10239.
-/
import proofs.«401648_j22247930593476_2_alg».proof.Proof.KiPost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hH : Hyps m)

/-- The output block IS written back after the last point of a half. -/
theorem flushOf_true (t : Fin grid0.N) (h : (t.val + 1) % 5120 = 0) :
    Pipeline.Window.flushOf grid0 true cc0_transform_1 t = true := by
  have hN : grid0.N = 10240 := N_0
  have ht := t.isLt
  unfold Pipeline.Window.flushOf
  rw [Bool.true_and, Bool.or_eq_true, decide_eq_true_eq, decide_eq_true_eq]
  by_cases hl : t.val + 1 = grid0.N
  · exact Or.inl hl
  · refine Or.inr ⟨by omega, fun he => ?_⟩
    have e0 := congrFun he 0
    have c1 : (grid0.coords ⟨t.val + 1, by omega⟩ 0).val = 1 := by rw [coords0_val]; show (t.val + 1) / 5120 % 2 = 1; omega
    have c0 : (grid0.coords t 0).val = 0 := by rw [coords0_val]; omega
    unfold cc0_transform_1 at e0
    dsimp only at e0
    rw [c1, c0] at e0
    exact absurd e0 (by decide)

section Entries
variable (a : (pcfg0 (F := F)).Adm)

/-- The block index at point t: (t / 5120 % 2, 0). -/
theorem index0_val (t : Fin (cfg0 a).N) : ((cfg0 a).win 0).index t (0 : Fin 2) = t.val / 5120 % 2 := by
  show cc0_transform_1 (grid0.coords t) (0 : Fin 2) = _
  unfold cc0_transform_1
  show (BitVec.ofNat 32 (grid0.coords t 0).val).toNat = _
  rw [coords0_val, BitVec.toNat_ofNat]
  omega
theorem index1_val (t : Fin (cfg0 a).N) : ((cfg0 a).win 0).index t (1 : Fin 2) = 0 := rfl

/-- An element of the block at point t sits in the array at row 8·(t / 5120 % 2) + its row, at its own column. -/
theorem blk_emb (t : Fin (cfg0 a).N) (y : S8x128.Idx) (r : Fin 16) (q : Fin 128)
    (hr : r.val = 8 * (t.val / 5120 % 2) + (y 0).val) (hq : q.val = (y 1).val) :
    ((((cfg0 a).win 0).blk t).view.emb y : S16x128.Idx) = ix2 r q := by
  have e : ∀ x : Fin 2, ((((cfg0 (F := F) a).win 0).blk t).view.emb y x).val = ((cfg0 (F := F) a).win 0).index t x * ((cfg0 (F := F) a).win 0).size x + (y x).val := fun x =>
    Window.rect_emb_val ((cfg0 (F := F) a).win 0) t y x
  have hx : ∀ x : Fin 2, ((((cfg0 (F := F) a).win 0).blk t).view.emb y x).val = (ix2 r q x).val := by
    intro x
    rw [e x]
    fin_cases x
    · show ((cfg0 (F := F) a).win 0).index t (0 : Fin 2) * 8 + (y 0).val = r.val
      rw [index0_val]; omega
    · show ((cfg0 (F := F) a).win 0).index t (1 : Fin 2) * 128 + (y 1).val = q.val
      rw [index1_val]; omega
  exact funext fun x => Fin.ext (hx x)

/-- The only points after which the block is written back are 5119 and 10239. -/
theorem flush_cases (t : Fin (cfg0 a).N) (hf : ((cfg0 a).win 0).flush t = true) : t.val = 5119 ∨ t.val = 10239 := by
  have hN : (cfg0 a).N = 10240 := N_0
  have ht := t.isLt
  by_cases h : (t.val + 1) % 5120 = 0
  · omega
  · have := flushOf_false t h
    rw [show ((cfg0 a).win 0).flush t = Pipeline.Window.flushOf grid0 true cc0_transform_1 t from rfl, this] at hf
    exact absurd hf Bool.false_ne_true

/-- The block index whose two coordinates are zero. -/
theorem idx_eq_zero (y : S8x128.Idx) (h0 : (y 0).val = 0) (h1 : (y 1).val = 0) : y = ix2 0 0 := by
  funext x
  apply Fin.ext
  fin_cases x
  · exact h0
  · exact h1

/-- Two array indices given by coordinates are equal only if the coordinates are. -/
theorem ix2_inj (r r' : Fin 16) (q q' : Fin 128) (h : (ix2 r q : S16x128.Idx) = ix2 r' q') : r.val = r'.val ∧ q.val = q'.val :=
  ⟨congrArg (fun i : S16x128.Idx => (i 0).val) h, congrArg (fun i : S16x128.Idx => (i 1).val) h⟩

variable (c : Dev nD) (dat : Dat τ (Elt F) Unit ℕ (Pipeline.UD sig nD τ) ℕ (cfg0 a) c)

/-- What a point that writes the block back writes at the array's entries (0, 0) and (8, 0): only point 5119 reaches
    (0, 0) and only point 10239 reaches (8, 0), each with the block's entry (0, 0). -/
theorem flushed_entries (h1 : 5119 < (cfg0 a).N) (h2 : 10239 < (cfg0 a).N)
    (t : Fin (cfg0 a).N) (hf : ((cfg0 a).win 0).flush t = true) (y : S8x128.Idx) :
    (((((cfg0 a).win 0).blk t).view.emb y : S16x128.Idx) = ix2 0 0 →
        (dat.after 0 t : S8x128.Idx → Elt F .f32) y = (dat.after 0 ⟨5119, h1⟩ : S8x128.Idx → Elt F .f32) (ix2 0 0))
      ∧ (((((cfg0 a).win 0).blk t).view.emb y : S16x128.Idx) = ix2 8 0 →
        (dat.after 0 t : S8x128.Idx → Elt F .f32) y = (dat.after 0 ⟨10239, h2⟩ : S8x128.Idx → Elt F .f32) (ix2 0 0)) := by
  have hy0 : (y 0).val < 8 := (y 0).isLt
  have hy1 : (y 1).val < 128 := (y 1).isLt
  have hemb := blk_emb a t y ⟨8 * (t.val / 5120 % 2) + (y 0).val, by omega⟩ ⟨(y 1).val, hy1⟩ rfl rfl
  rw [hemb]
  rcases flush_cases a t hf with ht | ht
  · have et : t = ⟨5119, h1⟩ := Fin.ext ht
    refine ⟨fun he => ?_, fun he => ?_⟩
    · obtain ⟨e0, e1⟩ := ix2_inj _ _ _ _ he
      have e0' : 8 * (t.val / 5120 % 2) + (y 0).val = 0 := e0
      have e1' : (y 1).val = 0 := e1
      rw [idx_eq_zero y (by omega) e1', et]
    · obtain ⟨e0, e1⟩ := ix2_inj _ _ _ _ he
      have e0' : 8 * (t.val / 5120 % 2) + (y 0).val = 8 := e0
      omega
  · have et : t = ⟨10239, h2⟩ := Fin.ext ht
    refine ⟨fun he => ?_, fun he => ?_⟩
    · obtain ⟨e0, e1⟩ := ix2_inj _ _ _ _ he
      have e0' : 8 * (t.val / 5120 % 2) + (y 0).val = 0 := e0
      omega
    · obtain ⟨e0, e1⟩ := ix2_inj _ _ _ _ he
      have e0' : 8 * (t.val / 5120 % 2) + (y 0).val = 8 := e0
      have e1' : (y 1).val = 0 := e1
      rw [idx_eq_zero y (by omega) e1', et]

/-- The array after the run, at (0, 0) and (8, 0): entry (0, 0) of what the block held after points 5119 and 10239. -/
theorem arrAt_entries (h1 : 5119 < (cfg0 a).N) (h2 : 10239 < (cfg0 a).N) :
    (dat.arrAt 0 (cfg0 a).N : S16x128.Idx → Elt F .f32) (ix2 0 0) = (dat.after 0 ⟨5119, h1⟩ : S8x128.Idx → Elt F .f32) (ix2 0 0)
    ∧ (dat.arrAt 0 (cfg0 a).N : S16x128.Idx → Elt F .f32) (ix2 8 0) = (dat.after 0 ⟨10239, h2⟩ : S8x128.Idx → Elt F .f32) (ix2 0 0) := by
  have key := dat.arrAt_forall_of_flushed 0
    (fun (i : S16x128.Idx) (x : Elt F .f32) =>
      (i = ix2 0 0 → x = (dat.after 0 ⟨5119, h1⟩ : S8x128.Idx → Elt F .f32) (ix2 0 0))
        ∧ (i = ix2 8 0 → x = (dat.after 0 ⟨10239, h2⟩ : S8x128.Idx → Elt F .f32) (ix2 0 0)))
    (fun t hf y => flushed_entries a c dat h1 h2 t hf y) (cfg0 a).N
  have m1 : (ix2 0 0 : S16x128.Idx) ∈ (((cfg0 a).win 0).blk ⟨5119, h1⟩).view.set := by
    have := (((cfg0 a).win 0).blk ⟨5119, h1⟩).view.emb_mem_set (ix2 0 0 : S8x128.Idx)
    rwa [blk_emb a ⟨5119, h1⟩ (ix2 0 0) 0 0 (by show (0 : ℕ) = 8 * (5119 / 5120 % 2) + 0; omega) rfl] at this
  have m2 : (ix2 8 0 : S16x128.Idx) ∈ (((cfg0 a).win 0).blk ⟨10239, h2⟩).view.set := by
    have := (((cfg0 a).win 0).blk ⟨10239, h2⟩).view.emb_mem_set (ix2 0 0 : S8x128.Idx)
    rwa [blk_emb a ⟨10239, h2⟩ (ix2 0 0) 8 0 (by show (8 : ℕ) = 8 * (10239 / 5120 % 2) + 0; omega) rfl] at this
  exact ⟨(key ⟨5119, h1⟩ (ix2 0 0) h1 (flushOf_true ⟨5119, h1⟩ (by show (5119 + 1) % 5120 = 0; omega)) m1).1 rfl,
    (key ⟨10239, h2⟩ (ix2 8 0) h2 (flushOf_true ⟨10239, h2⟩ (by show (10239 + 1) % 5120 = 0; omega)) m2).2 rfl⟩

end Entries

/-- Entry (0, 0) of the output array after the run: the first half's block after its last point. -/
theorem finalA_00 (c : Dev nD) :
    ((dats m hH 0 c).arrAt 0 (cfgM m).N : S16x128.Idx → Elt F .f32) (ix2 0 0)
      = outsAt0 m hH c 5119 (by rw [show (cfgM m).N = 10240 from N_0]; norm_num) (ix2 0 0) := by
  have hN : (cfgM m).N = 10240 := N_0
  have h1 : 5119 < (cfgM m).N := by rw [hN]; norm_num
  have h2 : 10239 < (cfgM m).N := by rw [hN]; norm_num
  exact (arrAt_entries (adm m) c (dats m hH 0 c) h1 h2).1.trans
    (congrFun (after0_0 m hH c ⟨5119, h1⟩) (ix2 0 0 : S8x128.Idx))

/-- Entry (8, 0): the second half's block after its last point. -/
theorem finalA_80 (c : Dev nD) :
    ((dats m hH 0 c).arrAt 0 (cfgM m).N : S16x128.Idx → Elt F .f32) (ix2 8 0)
      = outsAt0 m hH c 10239 (by rw [show (cfgM m).N = 10240 from N_0]; norm_num) (ix2 0 0) := by
  have hN : (cfgM m).N = 10240 := N_0
  have h1 : 5119 < (cfgM m).N := by rw [hN]; norm_num
  have h2 : 10239 < (cfgM m).N := by rw [hN]; norm_num
  exact (arrAt_entries (adm m) c (dats m hH 0 c) h1 h2).2.trans
    (congrFun (after0_0 m hH c ⟨10239, h2⟩) (ix2 0 0 : S8x128.Idx))

end Cert.KernelIdeal.Hand

end
-- ==== Proof.KiValue.lean ====
/-
  The kernel side's value, for any float instance: entry (0, 0) of the output block after point `n` is the running
  total — the body's payload of the constraint's words and row over zero at the first point of a half, over the
  previous total otherwise; the output array ends with the first half's total at (0, 0) and the second half's at
  (8, 0); and the result is the host tail of those two: half of (their sum divided by 10240).
-/
import proofs.«401648_j22247930593476_2_alg».proof.Proof.KiPost
import proofs.«401648_j22247930593476_2_alg».proof.Proof.KiOut
import proofs.«401648_j22247930593476_2_alg».proof.Proof.KiFinal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hH : Hyps m)

theorem N_eq : (cfgM m).N = 10240 := N_0

/-- The row-id, column-id and class words of constraint `n`. -/
def w0 (n : Fin 10240) : BitVec 32 := (tbl m 0 : S10240.Idx → BitVec 32) (ix1 n)
def w1 (n : Fin 10240) : BitVec 32 := (tbl m 1 : S10240.Idx → BitVec 32) (ix1 n)
def w2 (n : Fin 10240) : BitVec 32 := (tbl m 2 : S10240.Idx → BitVec 32) (ix1 n)

/-- The running total after point `n`: entry (0, 0) of the output block. -/
def accAt (c : Dev nD) (n : ℕ) (hn : n < 10240) : Elt F .f32 :=
  outsAt0 m hH c n (by rw [N_eq]; exact hn) (ix2 0 0)

/-- A grid point's flat constraint index is the point's position in the grid's order. -/
theorem flat_coords (t : Fin grid0.N) : flat (grid0.coords t) = ⟨t.val, lt_of_lt_of_eq t.isLt N_0⟩ := by
  apply Fin.ext
  show 5120 * ((grid0.coords t) 0).val + ((grid0.coords t) 1).val = t.val
  rw [coords0_val, coords1_val]
  have := lt_of_lt_of_eq t.isLt N_0
  omega

/-- At the first point of a half the total is the constraint's payload over zero. -/
theorem accAt_reset (c : Dev nD) (n : ℕ) (hn : n < 10240) (h0 : n % 5120 = 0) :
    accAt m hH c n hn = contrib (w1 m ⟨n, hn⟩) (w2 m ⟨n, hn⟩) (rowAt (V m c main_arg0 : S100000x512.Idx → Elt F .f32) (w0 m ⟨n, hn⟩))
      (Scalar.ofBits .f32 0x00000000#32) := by
  unfold accAt
  rw [outsAt0_A m hH c ⟨n, by rw [N_eq]; exact hn⟩ h0]
  refine (out0_A_00 c _ _ _ _ (tbl m 0) (tbl m 1) (tbl m 2) (V m c main_arg0) _).trans ?_
  rw [flat_coords]
  rfl

/-- At any other point it is the constraint's payload over the total before. -/
theorem accAt_step (c : Dev nD) (n : ℕ) (hn : n < 10240) (h0 : n % 5120 ≠ 0) :
    accAt m hH c n hn = contrib (w1 m ⟨n, hn⟩) (w2 m ⟨n, hn⟩) (rowAt (V m c main_arg0 : S100000x512.Idx → Elt F .f32) (w0 m ⟨n, hn⟩))
      (accAt m hH c (n - 1) (by omega)) := by
  unfold accAt
  rw [outsAt0_B m hH c ⟨n, by rw [N_eq]; exact hn⟩ h0]
  refine (out0_B_00 c _ _ _ _ (tbl m 0) (tbl m 1) (tbl m 2) (V m c main_arg0) _ _).trans ?_
  rw [flat_coords]
  rfl

/-- The host tail's two picks: the 1 × 1 slice at (0, 0), respectively (8, 0), reshaped to a scalar, is the array's entry
    there. -/
theorem pick_00 {α : Type} (A : S16x128.Idx → α) :
    shapeCast S_ (extractStridedSlice S1x1 ![0, 0] A slices_S16x128_S1x1_0_0) shapeCasts_S1x1_S_ ValueIdx.ix0 = A (ix2 0 0) := by
  rw [shapeCast_apply _ _ ValueIdx.ix0 (ix2 0 0) rfl]
  exact extractStridedSlice_apply ![0, 0] A slices_S16x128_S1x1_0_0 (ix2 0 0) (ix2 0 0) (fun a => by fin_cases a <;> first | rfl | decide)

theorem pick_80 {α : Type} (A : S16x128.Idx → α) :
    shapeCast S_ (extractStridedSlice S1x1 ![8, 0] A slices_S16x128_S1x1_8_0) shapeCasts_S1x1_S_ ValueIdx.ix0 = A (ix2 8 0) := by
  rw [shapeCast_apply _ _ ValueIdx.ix0 (ix2 0 0) rfl]
  exact extractStridedSlice_apply ![8, 0] A slices_S16x128_S1x1_8_0 (ix2 0 0) (ix2 8 0) (fun a => by fin_cases a <;> first | rfl | decide)

/-- The result buffer after the run: half of (the two halves' totals added, divided by 10240). -/
theorem result_eq (c : Dev nD) :
    (Pipeline.afterTail pcfgs (fun _ => adm m) (dats m hH) 0 (V0 m) [hostOps1] c main_v13 : S_.Idx → Elt F .f32) ValueIdx.ix0
      = FloatOps.mulf ((constant S_ .f32 0x3F000000#32 : FVec F S_ .f32) ValueIdx.ix0)
          (FloatOps.hostDivf (FloatOps.addf (accAt m hH c 5119 (by norm_num)) (accAt m hH c 10239 (by norm_num)))
            ((constant S_ .f32 0x46200000#32 : FVec F S_ .f32) ValueIdx.ix0)) := by
  unfold Pipeline.afterTail accAt
  simp only [hostOps1, List.flatten_cons, List.flatten_nil, List.append_nil]
  after_results
  have hA : Pipeline.withArrays (Pipeline.pin pcfgs (fun _ => adm m) 0).spec c (V0 m c)
      (fun w => (dats m hH 0 c).arrAt w (Pipeline.pin pcfgs (fun _ => adm m) 0).N) (Proc.devRef .tc main_v6)
        = (dats m hH 0 c).arrAt 0 (cfgM m).N :=
    Pipeline.withArrays_arr (Pipeline.pin pcfgs (fun _ => adm m) 0).spec
      (show Function.Injective (Pipeline.arrRef (Pipeline.pin pcfgs (fun _ => adm m) 0).spec) from (launch0 (F := F)).win.arr_inj) c (V0 m c)
      (fun w => (dats m hH 0 c).arrAt w (Pipeline.pin pcfgs (fun _ => adm m) 0).N) 0
  rw [hA]
  refine congrArg₂ FloatOps.mulf rfl (congrArg₂ FloatOps.hostDivf (congrArg₂ FloatOps.addf ?_ ?_) rfl)
  · exact (pick_00 _).trans (finalA_00 m hH c)
  · exact (pick_80 _).trans (finalA_80 m hH c)

end Cert.KernelIdeal.Hand

end
-- ==== Proof.Spec.lean ====
/-
  What both programs compute, as one function on the extended reals.

  A constraint names a table row `x : Fin 512 → EReal` and a column `d`. Its target is `t = x d`; with `a = |t|` and
  `S = ∑ⱼ |x j|`, the sparsity term is `(0.1 · (S − a)) / 511`, and the constraint contributes
    positive class:  (a + 0.1 if t ≤ 0, else (−t) · 0.1) + sparsity,
    negative class:  (a + 0.1 if 0 ≤ t, else (−a) · 0.1) + sparsity,
    neutral class:   2 · a.
  The loss is `0.5 · ((Σ positive + Σ negative + Σ neutral) / 10240)`. The float constants stay the words both
  programs print: the same word on both sides is never evaluated.
-/
import Idealize.ShloMosaic.PureOps.Ideal
import Idealize.ShloMosaic.PureOps.Ideal.Laws

noncomputable section

namespace Cert.Spec

open Idealize.ShloMosaic

/-- The words the programs share: 0.1, 511, 2, 10240, 0.5 (as f32 patterns read at the ideal instance). -/
def c01 : EReal := Ideal.ofBits .f32 0x3DCCCCCD#32
def c511 : EReal := Ideal.ofBits .f32 0x43FF8000#32
def c2 : EReal := Ideal.ofBits .f32 0x40000000#32
def cN : EReal := Ideal.ofBits .f32 0x46200000#32
def chalf : EReal := Ideal.ofBits .f32 0x3F000000#32

/-- Absolute value on the extended reals, as the ideal instance reads `absf`. -/
def ab (x : EReal) : EReal := max x (-x)

/-- The sum of a row's absolute values. -/
def sumAbs (x : Fin 512 → EReal) : EReal := ∑ j : Fin 512, ab (x j)

/-- The sparsity term of a constraint on row `x` at column `d`. -/
def sparsity (x : Fin 512 → EReal) (d : Fin 512) : EReal := Ideal.div (c01 * (sumAbs x - ab (x d))) c511

/-- A positive-class constraint's contribution. -/
def posVal (x : Fin 512 → EReal) (d : Fin 512) : EReal :=
  (if x d ≤ 0 then ab (x d) + c01 else (-(x d)) * c01) + sparsity x d

/-- A negative-class constraint's contribution. -/
def negVal (x : Fin 512 → EReal) (d : Fin 512) : EReal :=
  (if 0 ≤ x d then ab (x d) + c01 else (-(ab (x d))) * c01) + sparsity x d

/-- A neutral-class constraint's contribution. -/
def neuVal (x : Fin 512 → EReal) (d : Fin 512) : EReal := c2 * ab (x d)

/-- The three classes' contributions summed. `E` is the table by (row, column); each class comes with its row and
    column selections. -/
def total (E : Fin 100000 → Fin 512 → EReal)
    (pr : Fin 4096 → Fin 100000) (pd : Fin 4096 → Fin 512)
    (nr : Fin 4096 → Fin 100000) (nd : Fin 4096 → Fin 512)
    (ur : Fin 2048 → Fin 100000) (ud : Fin 2048 → Fin 512) : EReal :=
  (∑ n : Fin 4096, posVal (E (pr n)) (pd n)) + (∑ n : Fin 4096, negVal (E (nr n)) (nd n))
    + (∑ n : Fin 2048, neuVal (E (ur n)) (ud n))

/-- The loss: half the mean contribution over the 10240 constraints. -/
def loss (E : Fin 100000 → Fin 512 → EReal)
    (pr : Fin 4096 → Fin 100000) (pd : Fin 4096 → Fin 512)
    (nr : Fin 4096 → Fin 100000) (nd : Fin 4096 → Fin 512)
    (ur : Fin 2048 → Fin 100000) (ud : Fin 2048 → Fin 512) : EReal :=
  chalf * Ideal.div (total E pr pd nr nd ur ud) cN

end Cert.Spec

end
-- ==== Proof.SpecKind.lean ====
/-
  A constraint's contribution chosen by its class tag: 0 positive, 1 negative, anything else neutral.
-/
import proofs.«401648_j22247930593476_2_alg».proof.Proof.Spec

noncomputable section

namespace Cert.Spec

/-- The contribution of a constraint of class `k` on row `x` at column `d`. -/
def kindVal (k : BitVec 32) (x : Fin 512 → EReal) (d : Fin 512) : EReal :=
  if k = 0#32 then posVal x d else if k = 1#32 then negVal x d else neuVal x d

end Cert.Spec

end
-- ==== Proof.KiPay.lean ====
/-
  The kernel body's arithmetic at the ideal instance: from the column word, the class word and the constraint's row,
  the value the body stores at entry (0, 0) of the output block is the value it loaded there plus the constraint's
  contribution. The target is the row's masked sum over the 512 lanes (one lane equals the column index, the others
  contribute zero), so it is the row's entry at that column.
-/
import proofs.«401648_j22247930593476_2_alg».proof.Proof.Gen.KernelIdeal.Skeleton
import proofs.«401648_j22247930593476_2_alg».proof.Proof.SpecKind
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Pay

open Cert.KernelIdeal Cert.KernelIdeal.Gen
open Idealize.ShloMosaic Idealize.ShloMosaic.ValueIdx

/-- The source index over result position 0 with lane k inserted is (0, k). -/
theorem lift_lane (k : Fin 512) :
    reduces_S1x512_S1.lift (ix1 (0 : Fin 1)) k = ix2 (0 : Fin 1) k := by
  funext c
  match c with
  | ⟨0, _⟩ => rfl
  | ⟨1, _⟩ => rfl

/-- A sum over the lanes of a one-row vector, read at its one position. -/
theorem lane_sum (x : FVec Ideal S1x512 .f32) :
    multiReduction (F := Ideal) .add [1] S1 x 0x00000000#32 reduces_S1x512_S1 (.inl rfl) rfl (ix1 (0 : Fin 1))
      = ∑ k : Fin 512, x (ix2 (0 : Fin 1) k) := by
  refine (Ideal.multiReduction_add_single x 0x00000000#32 reduces_S1x512_S1 (.inl rfl) rfl (ix1 (0 : Fin 1))).trans ?_
  exact Finset.sum_congr rfl fun k _ => congrArg x (lift_lane k)

/-- The lane mask at lane k: whether lane k's number, as a word, is the column word. -/
theorem mask_at (v6 : BitVec 32) (k : Fin 512) :
    cmpi .eq (iota .tc S1x512 32 [1] iota_S1x512_d1_w32) (broadcast S1x512 v6) (ix2 (0 : Fin 1) k)
      = IntOp.cmpi .eq (BitVec.ofNat 32 k.val) v6 := by
  show IntOp.cmpi .eq (iota .tc S1x512 32 [1] iota_S1x512_d1_w32 (ix2 (0 : Fin 1) k)) v6 = _
  rw [iota_single_apply]

/-- At the lane the column word names the mask is set. -/
theorem mask_hit (v6 : BitVec 32) (hd : v6.toNat < 512) :
    IntOp.cmpi .eq (BitVec.ofNat 32 (⟨v6.toNat, hd⟩ : Fin 512).val) v6 = 1#1 := by
  rw [Idealize.ShloMosaic.StableHlo.Predicate.cmpi_eq_iff]
  apply BitVec.eq_of_toNat_eq
  rw [BitVec.toNat_ofNat]
  exact Nat.mod_eq_of_lt (by omega)

/-- At every other lane the mask is clear. -/
theorem mask_miss (v6 : BitVec 32) (hd : v6.toNat < 512) (k : Fin 512) (hk : k ≠ ⟨v6.toNat, hd⟩) :
    IntOp.cmpi .eq (BitVec.ofNat 32 k.val) v6 = 0#1 := by
  apply eq_zero_of_ne_one
  intro h
  rw [Idealize.ShloMosaic.StableHlo.Predicate.cmpi_eq_iff] at h
  apply hk
  apply Fin.ext
  have h2 := congrArg BitVec.toNat h
  rw [BitVec.toNat_ofNat, Nat.mod_eq_of_lt (by have := k.isLt; omega)] at h2
  exact h2

/-- The target: the row's masked lane sum is the row's entry at the column the word names. -/
theorem t_at (v6 : BitVec 32) (v13 : Vec Ideal S1x512 .f32) (hd : v6.toNat < 512) :
    k0_pay3 (F := Ideal) v6 v13 (ix2 0 0) = v13 (ix2 0 ⟨v6.toNat, hd⟩) := by
  unfold k0_pay3
  refine (shapeCast_a_1a_apply _ shapeCasts_S1_S1x1 (0 : Fin 1) (0 : Fin 1)).trans ?_
  refine (lane_sum _).trans ?_
  rw [Finset.sum_eq_single (⟨v6.toNat, hd⟩ : Fin 512)]
  · rw [select_apply, mask_at, mask_hit v6 hd, select_one]
  · intro k _ hk
    rw [select_apply, mask_at, mask_miss v6 hd k hk, select_zero]
    exact Ideal.ofBits_zero_f32
  · intro h
    exact absurd (Finset.mem_univ _) h

/-- The target's absolute value. -/
theorem abs_at (v6 : BitVec 32) (v13 : Vec Ideal S1x512 .f32) (hd : v6.toNat < 512) :
    k0_pay4 (F := Ideal) v6 v13 (ix2 0 0) = Cert.Spec.ab (v13 (ix2 0 ⟨v6.toNat, hd⟩)) := by
  unfold k0_pay4
  show FloatOps.absf (k0_pay3 (F := Ideal) v6 v13 (ix2 0 0)) = _
  rw [t_at v6 v13 hd]
  rfl

/-- The sum of the row's absolute values, as the lane sum reads it. -/
theorem sumAbs_at (v13 : Vec Ideal S1x512 .f32) :
    shapeCast S1x1 (multiReduction (F := Ideal) .add [1] S1 (absf v13) 0x00000000#32 reduces_S1x512_S1 (.inl rfl) rfl)
        shapeCasts_S1_S1x1 (ix2 0 0)
      = Cert.Spec.sumAbs (fun j => v13 (ix2 0 j)) := by
  refine (shapeCast_a_1a_apply _ shapeCasts_S1_S1x1 (0 : Fin 1) (0 : Fin 1)).trans ?_
  exact lane_sum _

/-- The sparsity term. -/
theorem sparsity_at (v6 : BitVec 32) (v13 : Vec Ideal S1x512 .f32) (hd : v6.toNat < 512) :
    k0_pay5 (F := Ideal) v6 v13 (ix2 0 0) = Cert.Spec.sparsity (fun j => v13 (ix2 0 j)) ⟨v6.toNat, hd⟩ := by
  unfold k0_pay5
  show Ideal.div (Ideal.ofBits .f32 0x3DCCCCCD#32 *
      (shapeCast S1x1 (multiReduction (F := Ideal) .add [1] S1 (absf v13) 0x00000000#32 reduces_S1x512_S1 (.inl rfl) rfl)
          shapeCasts_S1_S1x1 (ix2 0 0) - k0_pay4 (F := Ideal) v6 v13 (ix2 0 0)))
      (Ideal.ofBits .f32 0x43FF8000#32) = _
  rw [sumAbs_at, abs_at v6 v13 hd]
  rfl

/-- The sign test of the positive class: whether the target is at most zero. -/
theorem le_at (v6 : BitVec 32) (v13 : Vec Ideal S1x512 .f32) (hd : v6.toNat < 512) :
    k0_pay6 (F := Ideal) v6 v13 (ix2 0 0) = BitVec.ofBool (decide (v13 (ix2 0 ⟨v6.toNat, hd⟩) ≤ 0)) := by
  unfold k0_pay6
  show Ideal.cmp .ole (k0_pay3 (F := Ideal) v6 v13 (ix2 0 0)) (Ideal.ofBits .f32 0x00000000#32) = _
  rw [t_at v6 v13 hd, Ideal.ofBits_zero_f32]
  rfl

/-- The positive class's value at a target at most zero. -/
theorem absPlus_at (v6 : BitVec 32) (v13 : Vec Ideal S1x512 .f32) (hd : v6.toNat < 512) :
    k0_pay7 (F := Ideal) v6 v13 (ix2 0 0) = Cert.Spec.ab (v13 (ix2 0 ⟨v6.toNat, hd⟩)) + Cert.Spec.c01 := by
  unfold k0_pay7
  show k0_pay4 (F := Ideal) v6 v13 (ix2 0 0) + Ideal.ofBits .f32 0x3DCCCCCD#32 = _
  rw [abs_at v6 v13 hd]
  rfl

/-- The positive class's value at a target above zero. -/
theorem negTimes_at (v6 : BitVec 32) (v13 : Vec Ideal S1x512 .f32) (hd : v6.toNat < 512) :
    k0_pay8 (F := Ideal) v6 v13 (ix2 0 0) = (-(v13 (ix2 0 ⟨v6.toNat, hd⟩))) * Cert.Spec.c01 := by
  unfold k0_pay8
  show (Ideal.ofBits .f32 0x00000000#32 - k0_pay3 (F := Ideal) v6 v13 (ix2 0 0)) * Ideal.ofBits .f32 0x3DCCCCCD#32 = _
  rw [t_at v6 v13 hd, Ideal.ofBits_zero_f32, zero_sub]
  rfl

/-- The class word's test against a constant, when it is that constant. -/
theorem cmpi_hit (v8 c : BitVec 32) (h : v8 = c) : Scalar.cmpi .eq v8 c = 1#1 :=
  Idealize.ShloMosaic.StableHlo.Predicate.cmpi_eq_iff.2 h

/-- The class word's test against a constant, when it is not that constant. -/
theorem cmpi_miss (v8 c : BitVec 32) (h : ¬v8 = c) : Scalar.cmpi .eq v8 c = 0#1 :=
  eq_zero_of_ne_one fun h1 => h (Idealize.ShloMosaic.StableHlo.Predicate.cmpi_eq_iff.1 h1)

/-- The stored value at an index, from the values of the earlier stages at that index: the loaded value plus the
    class's contribution, the class chosen by the class word. -/
theorem store_at (v8 : BitVec 32) (v20 v21 v29 : FVec Ideal S1x1 .f32) (v31 : IVec S1x1 1)
    (v33 v37 : FVec Ideal S1x1 .f32) (v56 : Vec Ideal S1x1 .f32) (i : S1x1.Idx) :
    k0_pay1 (F := Ideal) v8 v20 v21 v29 v31 v33 v37 v56 i
      = v56 i + (if v8 = 0#32 then Scalar.select (v31 i) (v33 i) (v37 i) + v29 i
          else if v8 = 1#32 then
            Scalar.select (BitVec.ofBool (decide (0 ≤ v20 i))) (v21 i + Cert.Spec.c01) ((-(v21 i)) * Cert.Spec.c01) + v29 i
          else Cert.Spec.c2 * v21 i) := by
  unfold k0_pay1
  rw [shapeCast_self]
  by_cases h0 : v8 = 0#32
  · rw [cmpi_hit v8 0#32 h0, select_one, if_pos h0]
    rfl
  · rw [cmpi_miss v8 0#32 h0, select_zero, if_neg h0]
    by_cases h1 : v8 = 1#32
    · rw [cmpi_hit v8 1#32 h1, select_one, if_pos h1]
      show v56 i + (Scalar.select (Ideal.cmp .oge (v20 i) (Ideal.ofBits .f32 0x00000000#32))
          (v21 i + Ideal.ofBits .f32 0x3DCCCCCD#32)
          ((Ideal.ofBits .f32 0x00000000#32 - v21 i) * Ideal.ofBits .f32 0x3DCCCCCD#32) + v29 i) = _
      rw [Ideal.ofBits_zero_f32, zero_sub]
      rfl
    · rw [cmpi_miss v8 1#32 h1, select_zero, if_neg h1]
      rfl

/-- A select on a decided comparison is the `if` on the comparison. -/
theorem select_ofBool {α : Type} (p : Prop) [Decidable p] (a b : α) :
    Scalar.select (BitVec.ofBool (decide p)) a b = if p then a else b := by
  by_cases hp : p
  · rw [if_pos hp, decide_eq_true hp]; exact select_one a b
  · rw [if_neg hp, decide_eq_false hp]; exact select_zero a b

/-- The stored value at (0, 0): the loaded value plus the contribution of a constraint of class `v8` on the row `v13`
    at the column the word `v6` names (a column of the row: `v6 < 512`). -/
theorem pay_apply (v6 v8 : BitVec 32) (v13 : Vec Ideal S1x512 .f32) (v56 : Vec Ideal S1x1 .f32) (hd : v6.toNat < 512) :
    k0_pay1 (F := Ideal) v8 (k0_pay3 v6 v13) (k0_pay4 v6 v13) (k0_pay5 v6 v13) (k0_pay6 v6 v13) (k0_pay7 v6 v13) (k0_pay8 v6 v13) v56 (ix2 0 0)
      = v56 (ix2 0 0) + Cert.Spec.kindVal v8 (fun j => v13 (ix2 0 j)) ⟨v6.toNat, hd⟩ := by
  rw [store_at, t_at v6 v13 hd, abs_at v6 v13 hd, sparsity_at v6 v13 hd, le_at v6 v13 hd, absPlus_at v6 v13 hd,
    negTimes_at v6 v13 hd, select_ofBool, select_ofBool]
  rfl

end Cert.KernelIdeal.Pay

end
-- ==== Proof.Data.lean ====
/-
  The argument arrays as the mathematics reads them: the table by (row, column), and an index word as a row or as a
  column. A word is read unsigned and reduced into range, so the reading is total; on words already in range (which
  the precondition grants) it is the word itself.
-/
import Idealize.ShloMosaic.Lib.ValueIdx
import Idealize.ShloMosaic.PureOps.Ideal

noncomputable section

namespace Cert.Data

open Idealize.ShloMosaic Idealize.ShloMosaic.ValueIdx

/-- The table entry at row `r`, column `j`. -/
def E (a0 : (⟨2, ![100000, 512]⟩ : Shape).Idx → EReal) : Fin 100000 → Fin 512 → EReal :=
  fun r j => a0 (ix2 r j)

/-- Entry `k` of an index array, as a table row. -/
def row {n : Nat} (a : (⟨1, ![n]⟩ : Shape).Idx → BitVec 32) (k : Fin n) : Fin 100000 :=
  ⟨(a (ix1 k)).toNat % 100000, Nat.mod_lt _ (by norm_num)⟩

/-- Entry `k` of an index array, as a table column. -/
def col {n : Nat} (a : (⟨1, ![n]⟩ : Shape).Idx → BitVec 32) (k : Fin n) : Fin 512 :=
  ⟨(a (ix1 k)).toNat % 512, Nat.mod_lt _ (by norm_num)⟩

theorem row_val {n : Nat} (a : (⟨1, ![n]⟩ : Shape).Idx → BitVec 32) (k : Fin n) (h : (a (ix1 k)).toNat < 100000) :
    (row a k).val = (a (ix1 k)).toNat := Nat.mod_eq_of_lt h

theorem col_val {n : Nat} (a : (⟨1, ![n]⟩ : Shape).Idx → BitVec 32) (k : Fin n) (h : (a (ix1 k)).toNat < 512) :
    (col a k).val = (a (ix1 k)).toNat := Nat.mod_eq_of_lt h

end Cert.Data

end
-- ==== Proof.LibSumSplit.lean ====
/-
  Two facts about sums in a commutative monoid, independent of any program.
-/
import Mathlib.Algebra.BigOperators.Fin
import Mathlib.Algebra.BigOperators.Intervals

namespace Cert.LibSumSplit

/-- A left-to-right accumulation from zero is the sum of the terms: `(((0 + v 0) + v 1) + …) + v (k-1) = ∑ i < k, v i`. -/
theorem fold_eq_sum {M : Type} [AddCommMonoid M] (v : ℕ → M) (k : ℕ) :
    (Nat.rec (motive := fun _ => M) 0 (fun i acc => acc + v i) k) = ∑ i ∈ Finset.range k, v i := by
  induction k with
  | zero => simp
  | succ k ih => rw [Finset.sum_range_succ, ← ih]

/-- A sequence of 10240 terms that is 4096 terms `f`, then 4096 terms `g`, then 2048 terms `h`: its first 5120 terms plus
    its last 5120 terms sum to `∑ f + ∑ g + ∑ h`. -/
theorem split_sum {M : Type} [AddCommMonoid M] (v : ℕ → M) (f g : Fin 4096 → M) (h : Fin 2048 → M)
    (hf : ∀ n : Fin 4096, v n.val = f n) (hg : ∀ n : Fin 4096, v (4096 + n.val) = g n)
    (hh : ∀ n : Fin 2048, v (8192 + n.val) = h n) :
    (∑ i ∈ Finset.range 5120, v i) + (∑ i ∈ Finset.range 5120, v (5120 + i))
      = (∑ n, f n) + (∑ n, g n) + (∑ n, h n) := by
  -- the three blocks as range sums of `v`
  have e1 : (∑ n, f n) = ∑ i ∈ Finset.range 4096, v i := by
    rw [Finset.sum_range]; exact Finset.sum_congr rfl (fun n _ => (hf n).symm)
  have e2 : (∑ n, g n) = ∑ i ∈ Finset.range 4096, v (4096 + i) := by
    rw [Finset.sum_range]; exact Finset.sum_congr rfl (fun n _ => (hg n).symm)
  have e3 : (∑ n, h n) = ∑ i ∈ Finset.range 2048, v (8192 + i) := by
    rw [Finset.sum_range]; exact Finset.sum_congr rfl (fun n _ => (hh n).symm)
  -- cut the ranges at 4096, 5120 and 8192
  have s1 : (∑ i ∈ Finset.range 5120, v i)
      = (∑ i ∈ Finset.range 4096, v i) + ∑ i ∈ Finset.range 1024, v (4096 + i) :=
    Finset.sum_range_add v 4096 1024
  have s2 : (∑ i ∈ Finset.range 5120, v (5120 + i))
      = (∑ i ∈ Finset.range 3072, v (5120 + i)) + ∑ i ∈ Finset.range 2048, v (5120 + (3072 + i)) :=
    Finset.sum_range_add (fun i => v (5120 + i)) 3072 2048
  have s3 : (∑ i ∈ Finset.range 4096, v (4096 + i))
      = (∑ i ∈ Finset.range 1024, v (4096 + i)) + ∑ i ∈ Finset.range 3072, v (4096 + (1024 + i)) :=
    Finset.sum_range_add (fun i => v (4096 + i)) 1024 3072
  have a1 : ∀ i : ℕ, 4096 + (1024 + i) = 5120 + i := fun i => by omega
  have a2 : ∀ i : ℕ, 5120 + (3072 + i) = 8192 + i := fun i => by omega
  rw [e1, e2, e3, s1, s2, s3]
  simp only [a1, a2, add_assoc]

end Cert.LibSumSplit
-- ==== Proof.KiSum.lean ====
/-
  From the accumulator's recursion to the loss. The kernel keeps one running total per half of the 10240 constraints:
  reset to zero at the first constraint of a half, otherwise the previous total plus the constraint's contribution.
  The two halves' final totals added, divided by 10240 and halved, are the loss of the specification, because the
  10240 contributions are the 4096 positive, the 4096 negative and the 2048 neutral ones in that order and a sum does
  not depend on how it is grouped.
-/
import proofs.«401648_j22247930593476_2_alg».proof.Proof.Spec
import proofs.«401648_j22247930593476_2_alg».proof.Proof.Data
import proofs.«401648_j22247930593476_2_alg».proof.Proof.LibSumSplit

noncomputable section

namespace Cert.KiSum

open Idealize.ShloMosaic Cert.Spec Cert.Data

/-- Within a half that starts at `b`, the running total after `k + 1` constraints is the sum of their contributions. -/
theorem run_sum (acc v : ℕ → EReal)
    (h0 : ∀ n, n < 10240 → n % 5120 = 0 → acc n = 0 + v n)
    (hs : ∀ n, n < 10240 → n % 5120 ≠ 0 → acc n = acc (n - 1) + v n)
    (b : ℕ) (hb : b % 5120 = 0) (hb2 : b + 5120 ≤ 10240) (k : ℕ) (hk : k < 5120) :
    acc (b + k) = ∑ i ∈ Finset.range (k + 1), v (b + i) := by
  induction k with
  | zero => rw [Finset.sum_range_one, Nat.add_zero, h0 b (by omega) hb, zero_add]
  | succ k ih =>
    have e : b + (k + 1) - 1 = b + k := by omega
    rw [Finset.sum_range_succ, ← ih (by omega), hs (b + (k + 1)) (by omega) (by omega), e]

/-- A running total reset at the start of each half: after the last constraint of each half it is that half's sum. -/
theorem halves_sum (acc v : ℕ → EReal)
    (h0 : ∀ n, n < 10240 → n % 5120 = 0 → acc n = 0 + v n)
    (hs : ∀ n, n < 10240 → n % 5120 ≠ 0 → acc n = acc (n - 1) + v n) :
    acc 5119 + acc 10239 = (∑ i ∈ Finset.range 5120, v i) + (∑ i ∈ Finset.range 5120, v (5120 + i)) := by
  have e0 : acc 5119 = ∑ i ∈ Finset.range 5120, v i := by
    have h := run_sum acc v h0 hs 0 (by norm_num) (by norm_num) 5119 (by norm_num)
    simp only [Nat.zero_add] at h
    exact h
  have e1 : acc 10239 = ∑ i ∈ Finset.range 5120, v (5120 + i) :=
    run_sum acc v h0 hs 5120 (by norm_num) (by norm_num) 5119 (by norm_num)
  rw [e0, e1]

/-- The loss from the two halves' totals, when the contributions are the three classes' in order. -/
theorem loss_of_acc (a0 : (⟨2, ![100000, 512]⟩ : Shape).Idx → EReal)
    (a1 a2 a3 a4 : (⟨1, ![4096]⟩ : Shape).Idx → BitVec 32) (a5 a6 : (⟨1, ![2048]⟩ : Shape).Idx → BitVec 32)
    (acc v : ℕ → EReal)
    (h0 : ∀ n, n < 10240 → n % 5120 = 0 → acc n = 0 + v n)
    (hs : ∀ n, n < 10240 → n % 5120 ≠ 0 → acc n = acc (n - 1) + v n)
    (hf : ∀ n : Fin 4096, v n.val = posVal (E a0 (row a1 n)) (col a2 n))
    (hg : ∀ n : Fin 4096, v (4096 + n.val) = negVal (E a0 (row a3 n)) (col a4 n))
    (hh : ∀ n : Fin 2048, v (8192 + n.val) = neuVal (E a0 (row a5 n)) (col a6 n)) :
    chalf * Ideal.div (acc 5119 + acc 10239) cN
      = loss (E a0) (row a1) (col a2) (row a3) (col a4) (row a5) (col a6) := by
  rw [halves_sum acc v h0 hs, Cert.LibSumSplit.split_sum v _ _ _ hf hg hh]
  rfl

end Cert.KiSum

end
-- ==== Proof.KiLoss.lean ====
/-
  The idealized kernel's result is the loss of the specification. The result buffer is half of (the two halves'
  running totals added, divided by 10240); each running total steps by the constraint's contribution, which at the
  ideal instance is the class value of the table row the constraint names at the column it names; the 10240
  constraints are the positive, the negative and the neutral ones in order (the tables are those arrays joined); so
  the totals' sum is the three class sums.
-/
import proofs.«401648_j22247930593476_2_alg».proof.Proof.KiValue
import proofs.«401648_j22247930593476_2_alg».proof.Proof.KiPay
import proofs.«401648_j22247930593476_2_alg».proof.Proof.KiSum

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- The payload over a found value, at the ideal instance: the found value plus the contribution of the constraint's
    class on the row at the column the column word names. -/
theorem contrib_eq (v6 v8 : BitVec 32) (v13 : Vec Ideal S1x512 .f32) (a : EReal) (hd : v6.toNat < 512) :
    contrib (F := Ideal) v6 v8 v13 a = a + Cert.Spec.kindVal v8 (fun j => v13 (ix2 0 j)) ⟨v6.toNat, hd⟩ := by
  unfold contrib
  exact Cert.KernelIdeal.Pay.pay_apply v6 v8 v13 (fun _ => a) hd

section
variable (m : (ℓ : Loc nD τ sig) → Buf (Elt Ideal) ℓ)

/-- With every column id in range, the column word of every constraint names a column. -/
theorem w1_lt
    (h2 : ∀ j, (m (((0 : Dev nD) : Thread nD τ).loc main_arg2) j).toNat < 512)
    (h4 : ∀ j, (m (((0 : Dev nD) : Thread nD τ).loc main_arg4) j).toNat < 512)
    (h6 : ∀ j, (m (((0 : Dev nD) : Thread nD τ).loc main_arg6) j).toNat < 512) (n : Fin 10240) :
    (w1 m n).toNat < 512 := by
  unfold w1
  rw [tbl1_apply]
  exact join3_toNat_lt _ _ _ 512 h2 h4 h6 n

/-- The contribution of constraint `n`: its class's value on the table row its row word names, at the column its
    column word names. -/
def vAt (hc : ∀ n : Fin 10240, (w1 m n).toNat < 512) (n : Fin 10240) : EReal :=
  Cert.Spec.kindVal (w2 m n) (fun j => rowAt (V m (0 : Dev nD) main_arg0 : S100000x512.Idx → EReal) (w0 m n) (ix2 0 j))
    ⟨(w1 m n).toNat, hc n⟩

/-- The contribution from the three words' values. -/
theorem vAt_of (hc : ∀ n : Fin 10240, (w1 m n).toNat < 512) (n : Fin 10240) (rw cw kw : BitVec 32)
    (e0 : w0 m n = rw) (e1 : w1 m n = cw) (e2 : w2 m n = kw) (hcw : cw.toNat < 512) :
    vAt m hc n = Cert.Spec.kindVal kw
      (fun j => rowAt (m (((0 : Dev nD) : Thread nD τ).loc main_arg0) : S100000x512.Idx → EReal) rw (ix2 0 j)) ⟨cw.toNat, hcw⟩ := by
  subst e0 e1 e2
  unfold vAt
  rw [V_main_arg0]

end

/-! ## The three joined arrays at an entry of each span -/

theorem join3_fst {α : Type} (a b : S4096.Idx → α) (d : S2048.Idx → α) (n : Fin 4096) (hn : n.val < 10240) :
    join3 a b d ⟨n.val, hn⟩ = a (ix1 n) := by
  have h1 : (⟨n.val, hn⟩ : Fin 10240).val < 4096 := n.isLt
  unfold join3
  rw [dif_pos h1]

theorem join3_snd {α : Type} (a b : S4096.Idx → α) (d : S2048.Idx → α) (n : Fin 4096) (hn : 4096 + n.val < 10240) :
    join3 a b d ⟨4096 + n.val, hn⟩ = b (ix1 n) := by
  have h1 : ¬ (⟨4096 + n.val, hn⟩ : Fin 10240).val < 4096 := by
    show ¬ 4096 + n.val < 4096
    omega
  have h2 : (⟨4096 + n.val, hn⟩ : Fin 10240).val < 8192 := by
    show 4096 + n.val < 8192
    have := n.isLt
    omega
  unfold join3
  rw [dif_neg h1, dif_pos h2]
  exact congrArg (fun x => b (ix1 x)) (Fin.ext (by show 4096 + n.val - 4096 = n.val; omega))

theorem join3_thd {α : Type} (a b : S4096.Idx → α) (d : S2048.Idx → α) (n : Fin 2048) (hn : 8192 + n.val < 10240) :
    join3 a b d ⟨8192 + n.val, hn⟩ = d (ix1 n) := by
  have h1 : ¬ (⟨8192 + n.val, hn⟩ : Fin 10240).val < 4096 := by
    show ¬ 8192 + n.val < 4096
    omega
  have h2 : ¬ (⟨8192 + n.val, hn⟩ : Fin 10240).val < 8192 := by
    show ¬ 8192 + n.val < 8192
    omega
  unfold join3
  rw [dif_neg h1, dif_neg h2]
  exact congrArg (fun x => d (ix1 x)) (Fin.ext (by show 8192 + n.val - 8192 = n.val; omega))

/-! ## A class's value on a loaded row is the specification's on the table -/

/-- A table row read as the body loads it is the table by (row, column) at the row the word names. -/
theorem rowAt_eq {k : ℕ} (a0 : S100000x512.Idx → EReal) (ar : (⟨1, ![k]⟩ : Shape).Idx → BitVec 32) (n : Fin k) :
    (fun j : Fin 512 => rowAt (F := Ideal) a0 (ar (ix1 n)) (ix2 0 j)) = Cert.Data.E a0 (Cert.Data.row ar n) := by
  funext j
  rfl

/-- A column word in range is the column it names. -/
theorem col_eq {k : ℕ} (ac : (⟨1, ![k]⟩ : Shape).Idx → BitVec 32) (n : Fin k) (h : (ac (ix1 n)).toNat < 512) :
    (⟨(ac (ix1 n)).toNat, h⟩ : Fin 512) = Cert.Data.col ac n :=
  Fin.ext (Nat.mod_eq_of_lt h).symm

theorem kind_pos {k : ℕ} (a0 : S100000x512.Idx → EReal) (ar ac : (⟨1, ![k]⟩ : Shape).Idx → BitVec 32) (n : Fin k)
    (h : (ac (ix1 n)).toNat < 512) :
    Cert.Spec.kindVal 0#32 (fun j : Fin 512 => rowAt (F := Ideal) a0 (ar (ix1 n)) (ix2 0 j)) ⟨(ac (ix1 n)).toNat, h⟩
      = Cert.Spec.posVal (Cert.Data.E a0 (Cert.Data.row ar n)) (Cert.Data.col ac n) := by
  unfold Cert.Spec.kindVal
  rw [if_pos rfl, rowAt_eq a0 ar n, col_eq ac n h]

theorem kind_neg {k : ℕ} (a0 : S100000x512.Idx → EReal) (ar ac : (⟨1, ![k]⟩ : Shape).Idx → BitVec 32) (n : Fin k)
    (h : (ac (ix1 n)).toNat < 512) :
    Cert.Spec.kindVal 1#32 (fun j : Fin 512 => rowAt (F := Ideal) a0 (ar (ix1 n)) (ix2 0 j)) ⟨(ac (ix1 n)).toNat, h⟩
      = Cert.Spec.negVal (Cert.Data.E a0 (Cert.Data.row ar n)) (Cert.Data.col ac n) := by
  unfold Cert.Spec.kindVal
  rw [if_neg (by decide), if_pos rfl, rowAt_eq a0 ar n, col_eq ac n h]

theorem kind_neu {k : ℕ} (a0 : S100000x512.Idx → EReal) (ar ac : (⟨1, ![k]⟩ : Shape).Idx → BitVec 32) (n : Fin k)
    (h : (ac (ix1 n)).toNat < 512) :
    Cert.Spec.kindVal 2#32 (fun j : Fin 512 => rowAt (F := Ideal) a0 (ar (ix1 n)) (ix2 0 j)) ⟨(ac (ix1 n)).toNat, h⟩
      = Cert.Spec.neuVal (Cert.Data.E a0 (Cert.Data.row ar n)) (Cert.Data.col ac n) := by
  unfold Cert.Spec.kindVal
  rw [if_neg (by decide), if_neg (by decide), rowAt_eq a0 ar n, col_eq ac n h]

/-! ## The totals and the contributions as sequences -/

section
variable (m : (ℓ : Loc nD τ sig) → Buf (Elt Ideal) ℓ) (hH : Hyps m)

/-- The running totals as a sequence over the naturals (zero past the last constraint). -/
def accN (n : ℕ) : EReal := if hn : n < 10240 then accAt m hH (0 : Dev nD) n hn else 0

/-- The contributions as a sequence over the naturals (zero past the last constraint). -/
def vN (hc : ∀ n : Fin 10240, (w1 m n).toNat < 512) (n : ℕ) : EReal := if hn : n < 10240 then vAt m hc ⟨n, hn⟩ else 0

/-- At the first constraint of a half the total is the constraint's contribution over zero. -/
theorem accN_reset (hc : ∀ n : Fin 10240, (w1 m n).toNat < 512) (n : ℕ) (hn : n < 10240) (h : n % 5120 = 0) :
    accN m hH n = 0 + vN m hc n := by
  unfold accN vN
  rw [dif_pos hn, dif_pos hn, accAt_reset m hH 0 n hn h, contrib_eq _ _ _ _ (hc ⟨n, hn⟩)]
  show Ideal.ofBits .f32 0x00000000#32 + _ = _
  rw [Ideal.ofBits_zero_f32]
  rfl

/-- At any other constraint it is the total before plus the constraint's contribution. -/
theorem accN_step (hc : ∀ n : Fin 10240, (w1 m n).toNat < 512) (n : ℕ) (hn : n < 10240) (h : n % 5120 ≠ 0) :
    accN m hH n = accN m hH (n - 1) + vN m hc n := by
  have hn' : n - 1 < 10240 := by omega
  unfold accN vN
  rw [dif_pos hn, dif_pos hn', dif_pos hn, accAt_step m hH 0 n hn h, contrib_eq _ _ _ _ (hc ⟨n, hn⟩)]
  rfl

/-- The first 4096 contributions are the positive class's. -/
theorem vN_pos (hc : ∀ n : Fin 10240, (w1 m n).toNat < 512)
    (h2 : ∀ j, (m (((0 : Dev nD) : Thread nD τ).loc main_arg2) j).toNat < 512) (n : Fin 4096) :
    vN m hc n.val = Cert.Spec.posVal
      (Cert.Data.E (m (((0 : Dev nD) : Thread nD τ).loc main_arg0)) (Cert.Data.row (m (((0 : Dev nD) : Thread nD τ).loc main_arg1)) n))
      (Cert.Data.col (m (((0 : Dev nD) : Thread nD τ).loc main_arg2)) n) := by
  have hn : n.val < 10240 := by have := n.isLt; omega
  have e0 : w0 m ⟨n.val, hn⟩ = m (((0 : Dev nD) : Thread nD τ).loc main_arg1) (ix1 n) := by
    unfold w0; rw [tbl0_apply]; exact join3_fst _ _ _ n hn
  have e1 : w1 m ⟨n.val, hn⟩ = m (((0 : Dev nD) : Thread nD τ).loc main_arg2) (ix1 n) := by
    unfold w1; rw [tbl1_apply]; exact join3_fst _ _ _ n hn
  have e2 : w2 m ⟨n.val, hn⟩ = 0#32 := by
    unfold w2; rw [tbl2_apply]; exact if_pos n.isLt
  unfold vN
  rw [dif_pos hn, vAt_of m hc ⟨n.val, hn⟩ _ _ _ e0 e1 e2 (h2 _)]
  exact kind_pos _ _ _ n (h2 _)

/-- The next 4096 are the negative class's. -/
theorem vN_neg (hc : ∀ n : Fin 10240, (w1 m n).toNat < 512)
    (h4 : ∀ j, (m (((0 : Dev nD) : Thread nD τ).loc main_arg4) j).toNat < 512) (n : Fin 4096) :
    vN m hc (4096 + n.val) = Cert.Spec.negVal
      (Cert.Data.E (m (((0 : Dev nD) : Thread nD τ).loc main_arg0)) (Cert.Data.row (m (((0 : Dev nD) : Thread nD τ).loc main_arg3)) n))
      (Cert.Data.col (m (((0 : Dev nD) : Thread nD τ).loc main_arg4)) n) := by
  have hn : 4096 + n.val < 10240 := by have := n.isLt; omega
  have c1 : ¬ (⟨4096 + n.val, hn⟩ : Fin 10240).val < 4096 := by
    show ¬ 4096 + n.val < 4096
    omega
  have c2 : (⟨4096 + n.val, hn⟩ : Fin 10240).val < 8192 := by
    show 4096 + n.val < 8192
    have := n.isLt
    omega
  have e0 : w0 m ⟨4096 + n.val, hn⟩ = m (((0 : Dev nD) : Thread nD τ).loc main_arg3) (ix1 n) := by
    unfold w0; rw [tbl0_apply]; exact join3_snd _ _ _ n hn
  have e1 : w1 m ⟨4096 + n.val, hn⟩ = m (((0 : Dev nD) : Thread nD τ).loc main_arg4) (ix1 n) := by
    unfold w1; rw [tbl1_apply]; exact join3_snd _ _ _ n hn
  have e2 : w2 m ⟨4096 + n.val, hn⟩ = 1#32 := by
    unfold w2; rw [tbl2_apply, if_neg c1, if_pos c2]
  unfold vN
  rw [dif_pos hn, vAt_of m hc ⟨4096 + n.val, hn⟩ _ _ _ e0 e1 e2 (h4 _)]
  exact kind_neg _ _ _ n (h4 _)

/-- The last 2048 are the neutral class's. -/
theorem vN_neu (hc : ∀ n : Fin 10240, (w1 m n).toNat < 512)
    (h6 : ∀ j, (m (((0 : Dev nD) : Thread nD τ).loc main_arg6) j).toNat < 512) (n : Fin 2048) :
    vN m hc (8192 + n.val) = Cert.Spec.neuVal
      (Cert.Data.E (m (((0 : Dev nD) : Thread nD τ).loc main_arg0)) (Cert.Data.row (m (((0 : Dev nD) : Thread nD τ).loc main_arg5)) n))
      (Cert.Data.col (m (((0 : Dev nD) : Thread nD τ).loc main_arg6)) n) := by
  have hn : 8192 + n.val < 10240 := by have := n.isLt; omega
  have c1 : ¬ (⟨8192 + n.val, hn⟩ : Fin 10240).val < 4096 := by
    show ¬ 8192 + n.val < 4096
    omega
  have c2 : ¬ (⟨8192 + n.val, hn⟩ : Fin 10240).val < 8192 := by
    show ¬ 8192 + n.val < 8192
    omega
  have e0 : w0 m ⟨8192 + n.val, hn⟩ = m (((0 : Dev nD) : Thread nD τ).loc main_arg5) (ix1 n) := by
    unfold w0; rw [tbl0_apply]; exact join3_thd _ _ _ n hn
  have e1 : w1 m ⟨8192 + n.val, hn⟩ = m (((0 : Dev nD) : Thread nD τ).loc main_arg6) (ix1 n) := by
    unfold w1; rw [tbl1_apply]; exact join3_thd _ _ _ n hn
  have e2 : w2 m ⟨8192 + n.val, hn⟩ = 2#32 := by
    unfold w2; rw [tbl2_apply, if_neg c1, if_neg c2]
  unfold vN
  rw [dif_pos hn, vAt_of m hc ⟨8192 + n.val, hn⟩ _ _ _ e0 e1 e2 (h6 _)]
  exact kind_neu _ _ _ n (h6 _)

end

/-- With every index in range, the result buffer the run leaves holds the specification's loss of the arguments. -/
theorem kernel_loss (m : (ℓ : Loc nD τ sig) → Buf (Elt Ideal) ℓ) (hH : Hyps m) (c : Dev nD)
    (h1 : ∀ j, (m ((c : Thread nD τ).loc main_arg1) j).toNat < 100000) (h2 : ∀ j, (m ((c : Thread nD τ).loc main_arg2) j).toNat < 512)
    (h3 : ∀ j, (m ((c : Thread nD τ).loc main_arg3) j).toNat < 100000) (h4 : ∀ j, (m ((c : Thread nD τ).loc main_arg4) j).toNat < 512)
    (h5 : ∀ j, (m ((c : Thread nD τ).loc main_arg5) j).toNat < 100000) (h6 : ∀ j, (m ((c : Thread nD τ).loc main_arg6) j).toNat < 512) :
    (Pipeline.afterTail pcfgs (fun _ => adm m) (dats m hH) 0 (V0 m) [hostOps1] c main_v13 : S_.Idx → EReal) ValueIdx.ix0
      = Cert.Spec.loss (Cert.Data.E (m ((c : Thread nD τ).loc main_arg0)))
          (Cert.Data.row (m ((c : Thread nD τ).loc main_arg1))) (Cert.Data.col (m ((c : Thread nD τ).loc main_arg2)))
          (Cert.Data.row (m ((c : Thread nD τ).loc main_arg3))) (Cert.Data.col (m ((c : Thread nD τ).loc main_arg4)))
          (Cert.Data.row (m ((c : Thread nD τ).loc main_arg5))) (Cert.Data.col (m ((c : Thread nD τ).loc main_arg6))) := by
  obtain rfl : c = 0 := Subsingleton.elim _ _
  have hc := w1_lt m h2 h4 h6
  have key := Cert.KiSum.loss_of_acc (m (((0 : Dev nD) : Thread nD τ).loc main_arg0))
    (m (((0 : Dev nD) : Thread nD τ).loc main_arg1)) (m (((0 : Dev nD) : Thread nD τ).loc main_arg2))
    (m (((0 : Dev nD) : Thread nD τ).loc main_arg3)) (m (((0 : Dev nD) : Thread nD τ).loc main_arg4))
    (m (((0 : Dev nD) : Thread nD τ).loc main_arg5)) (m (((0 : Dev nD) : Thread nD τ).loc main_arg6))
    (accN m hH) (vN m hc) (accN_reset m hH hc) (accN_step m hH hc) (vN_pos m hc h2) (vN_neg m hc h4) (vN_neu m hc h6)
  have e1 : accN m hH 5119 = accAt m hH (0 : Dev nD) 5119 (by norm_num) := dif_pos (by norm_num)
  have e2 : accN m hH 10239 = accAt m hH (0 : Dev nD) 10239 (by norm_num) := dif_pos (by norm_num)
  rw [e1, e2] at key
  rw [result_eq m hH 0]
  exact key

end Cert.KernelIdeal.Hand

end
-- ==== Proof.RefImports.lean ====
/- The reference program's run and its stage-by-stage reading, brought into scope for the modules that state
   what the reference computes. -/
import proofs.«401648_j22247930593476_2_alg».proof.Proof.Gen.ReferenceIdeal.Run
import proofs.«401648_j22247930593476_2_alg».proof.Proof.Gen.ReferenceIdeal.Read
-- ==== Proof.RefPosLib.lean ====
/-
  The reference's two gathers and its bounds test read at one element, with the word facts they rest on. A gather of
  whole table rows reads, at (n, j), the table at the row its start index names (read signed, clamped into the table)
  and column j. A gather along the column axis, one column per row, reads row n at the column its start index names
  (read signed, clamped into the row). A conjunction over an array of ones, started at one, is one. A word below 2³¹
  is not negative, so the wrap of negative indices leaves it alone; a word already in range is its own clamp; a word
  in [0, 511] passes the bounds test. A select on a comparison of extended reals is the `if` on the order.
-/
import proofs.«401648_j22247930593476_2_alg».proof.Proof.RefImports
import Idealize.ShloMosaic.Lib.ValueIdx
import Idealize.ShloMosaic.Lib.ValueIdxRank1
import Idealize.ShloMosaic.Lib.StableHlo.Predicate
import Idealize.ShloMosaic.Lib.ReduceAll
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

variable {α : Type}

/-! ## The two gathers at an element -/

/-- The dimension numbers of the gather of whole rows: operand axis 0 collapsed and start-indexed, axis 1 an offset axis. -/
abbrev gR := gather_S100000x512_S4096x1_S4096x512_1_0_n_n_0_1_1512

/-- The gather of whole rows at (n, j): the table at row `r` and column `j`, where `r` is the start index of
    position `n` read signed and clamped into [0, 99999]. -/
theorem gather_rows (x : S100000x512.Idx → α) (idx : IVec S4096x1 32) (n : Fin 4096) (j : Fin 512) (r : Fin 100000)
    (hr : r.val = min (idx (ix2 n 0)).toInt.toNat (100000 - 1)) :
    Host.gather gather_S100000x512_S4096x1_S4096x512_1_0_n_n_0_1_1512 x idx (ix2 n j) = x (ix2 r j) := by
  unfold Host.gather
  congr 1
  funext a
  refine Fin.ext ?_
  match a with
  | ⟨0, _⟩ =>
    show gR.start (ix2 n j) idx 0 + gR.batchCoord (ix2 n j) 0 + gR.offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gR.startIndexMap from List.mem_singleton.mpr rfl)]
    have hsi : gR.siIdx (ix2 n j) ⟨List.idxOf (0 : Fin 2) gR.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    exact hr.symm
  | ⟨1, _⟩ =>
    show gR.start (ix2 n j) idx 1 + gR.batchCoord (ix2 n j) 1 + gR.offCoord (ix2 n j) 1 = _
    rw [GatherDims.batchCoord_eq_zero _ _ _ List.not_mem_nil]
    unfold GatherDims.start
    rw [dif_neg (show (1 : Fin 2) ∉ gR.startIndexMap by decide)]
    unfold GatherDims.offCoord
    rw [dif_pos (show (1 : Fin 2) ∈ gR.sKept by decide)]
    simp only [Nat.add_zero, Nat.zero_add]
    rfl

/-- The dimension numbers of the gather along the column axis: operand axis 0 a batching axis, axis 1 collapsed and
    start-indexed, no offset axes. -/
abbrev gC := gather_S4096x512_S4096x1x1_S4096x1_n_1_0_0_1_2_11

/-- The gather along the column axis at (n, 0): row `n` at column `c`, where `c` is the start index of position `n`
    read signed and clamped into [0, 511]. -/
theorem gather_cols (y : S4096x512.Idx → α) (idx : IVec S4096x1x1 32) (n : Fin 4096) (c : Fin 512)
    (hc : c.val = min (idx (ix3 n 0 0)).toInt.toNat (512 - 1)) :
    Host.gather gather_S4096x512_S4096x1x1_S4096x1_n_1_0_0_1_2_11 y idx (ix2 n 0) = y (ix2 n c) := by
  unfold Host.gather
  congr 1
  funext a
  refine Fin.ext ?_
  match a with
  | ⟨0, _⟩ =>
    show gC.start (ix2 n 0) idx 0 + gC.batchCoord (ix2 n 0) 0 + gC.offCoord (ix2 n 0) 0 = _
    rw [GatherDims.start_batching _ _ _ _ (show (0 : Fin 2) ∈ gC.operandBatchingDims from List.mem_singleton.mpr rfl),
      GatherDims.offCoord_eq_zero _ _ _ (show (0 : Fin 2) ∉ gC.sKept by decide)]
    unfold GatherDims.batchCoord
    rw [dif_pos (show (0 : Fin 2) ∈ gC.operandBatchingDims from List.mem_singleton.mpr rfl)]
    simp only [Nat.add_zero, Nat.zero_add]
    rfl
  | ⟨1, _⟩ =>
    show gC.start (ix2 n 0) idx 1 + gC.batchCoord (ix2 n 0) 1 + gC.offCoord (ix2 n 0) 1 = _
    rw [GatherDims.batchCoord_eq_zero _ _ _ (show (1 : Fin 2) ∉ gC.operandBatchingDims by decide),
      GatherDims.offCoord_eq_zero _ _ _ (show (1 : Fin 2) ∉ gC.sKept by decide)]
    simp only [Nat.add_zero]
    unfold GatherDims.start
    rw [dif_pos (show (1 : Fin 2) ∈ gC.startIndexMap from List.mem_singleton.mpr rfl)]
    have hsi : gC.siIdx (ix2 n 0) ⟨List.idxOf (1 : Fin 2) gC.startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi]
    exact hc.symm

/-! ## A conjunction of ones -/

/-- A left fold by `and` from one over words that are all one is one. -/
theorem foldl_andi_one {ι : Type} (f : ι → BitVec 1) (hf : ∀ i, f i = 1#1) :
    ∀ (l : List ι), l.foldl (fun r i => IntOp.andi r (f i)) 1#1 = 1#1
  | [] => rfl
  | a :: l => by
    rw [List.foldl_cons, hf a]
    exact foldl_andi_one f hf l

/-- A reduction by `and`, started at one, of an array whose every element is one, is one at every result index. -/
theorem reduce_andi_one {s t u : Shape} {axes : List (Fin s.rank)} (p : s.Idx → BitVec 1) (init : u.Idx → BitVec 1)
    (h : s.ReducesTo axes t) (hu : 0 < u.numel) (hi : init (Shape.Idx.first hu) = 1#1) (hp : ∀ i, p i = 1#1) (j : t.Idx) :
    Host.reduce IntOp.andi p init h hu j = 1#1 := by
  rw [Host.reduce_eq_foldl, hi]
  exact foldl_andi_one p hp _

/-! ## Words -/

open Idealize.ShloMosaic.StableHlo.Predicate in
/-- The negative-index wrap leaves a word below 2³¹ alone. -/
theorem wrap_id (w c : BitVec 32) (hw : w.toNat < 2 ^ 31) :
    Scalar.select (IntOp.cmpi .slt w 0#32) (IntOp.addi w c) w = w := by
  unfold Scalar.select
  rw [if_neg]
  intro h
  have := (slt_iff_toNat hw (by decide)).1 h
  simp at this

open Idealize.ShloMosaic.StableHlo.Predicate in
/-- A start index already in range is not moved by the clamp. -/
theorem clamp_id (w : BitVec 32) (N : Nat) (hN : N < 2 ^ 31) (hw : w.toNat < N) :
    min w.toInt.toNat (N - 1) = w.toNat := by
  rw [toInt_eq_toNat_of_lt (by omega), Int.toNat_natCast]
  omega

open Idealize.ShloMosaic.StableHlo.Predicate in
/-- A word in [0, 511] passes the bounds test. -/
theorem inrange_one (w : BitVec 32) (hw : w.toNat < 512) :
    IntOp.andi (IntOp.cmpi .sge w 0#32) (IntOp.cmpi .sle w 511#32) = 1#1 := by
  rw [IntOp.andi_eq_one]
  refine ⟨(sge_iff_toNat (by omega) (by decide)).2 (by simp), (sle_iff_toNat (by omega) (by decide)).2 ?_⟩
  show w.toNat ≤ 511
  omega

/-- A select on an ideal comparison is the `if` on the order. -/
theorem select_ole (x y : EReal) (a b : EReal) :
    Scalar.select (Ideal.cmp .ole x y) a b = if x ≤ y then a else b := by
  unfold Scalar.select Ideal.cmp
  by_cases h : x ≤ y <;> simp [h]

/-- The same for the reversed comparison. -/
theorem select_oge (x y : EReal) (a b : EReal) :
    Scalar.select (Ideal.cmp .oge x y) a b = if y ≤ x then a else b := by
  unfold Scalar.select Ideal.cmp
  by_cases h : y ≤ x <;> simp [h]

end Cert.RefValue

end
-- ==== Proof.RefPos.lean ====
/-
  The reference's positive-class sum: over the 4096 positive constraints, the sign term plus the sparsity term of the
  gathered row at the selected column, summed from zero.
-/
import proofs.«401648_j22247930593476_2_alg».proof.Proof.RefImports
import proofs.«401648_j22247930593476_2_alg».proof.Proof.Spec
import proofs.«401648_j22247930593476_2_alg».proof.Proof.Data
import proofs.«401648_j22247930593476_2_alg».proof.Proof.RefPosLib
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

section Chain
variable (x0 : FVec Ideal S100000x512 .f32) (x1 x2 : IVec S4096 32)

/-- The row start indices, wrapped: the index word itself. -/
theorem pos_rowIdx (h1 : ∀ i, (x1 i).toNat < 100000) (i : S4096x1.Idx) :
    val_main_v5 (F := Ideal) x1 i = x1 (ix1 (i 0)) := by
  rw [val_main_v5_apply, val_main_v4_apply, val_main_v1_apply, val_main_v0_apply, val_main_c_apply]
  have e : idx_main_v5 i = ix1 (i 0) := by funext a; match a with | ⟨0, _⟩ => rfl
  rw [e]
  exact wrap_id _ _ (lt_trans (h1 _) (by norm_num))

/-- The gathered row at (n, j): the table at the row the n-th index word names, column j. -/
theorem pos_row (h1 : ∀ i, (x1 i).toNat < 100000) (n : Fin 4096) (j : Fin 512) :
    val_main_v6 (F := Ideal) x0 x1 (ix2 n j) = Cert.Data.E x0 (Cert.Data.row x1 n) j := by
  unfold val_main_v6
  refine gather_rows _ _ n j (Cert.Data.row x1 n) ?_
  rw [pos_rowIdx x1 h1]
  show (x1 (ix1 n)).toNat % 100000 = min (x1 (ix1 n)).toInt.toNat (100000 - 1)
  rw [clamp_id _ 100000 (by norm_num) (h1 _), Nat.mod_eq_of_lt (h1 _)]

/-- The column start indices, wrapped and reshaped: the index word itself. -/
theorem pos_colIdx (h2 : ∀ i, (x2 i).toNat < 512) (i : S4096x1x1.Idx) :
    val_main_call0_v5 (F := Ideal) x2 i = x2 (ix1 (i 0)) := by
  rw [val_main_call0_v5_apply, val_main_call0_v4_apply, val_main_call0_v1_apply, val_main_call0_v3_apply,
    val_main_v7_apply, val_main_call0_v0_apply, val_main_call0_c_apply]
  have e : idx_main_v7 (idx_main_call0_v5 i) = ix1 (i 0) := by
    funext a
    match a with
    | ⟨0, _⟩ =>
      refine Fin.ext ?_
      have k1 : (i 1).val < 1 := (i 1).isLt
      have k2 : (i 2).val < 1 := (i 2).isLt
      show (((i 0).val * 1 + (i 1).val) * 1 + (i 2).val) / 1 = (i 0).val
      omega
  rw [e]
  exact wrap_id _ _ (lt_trans (h2 _) (by norm_num))

/-- Every column start index passes the bounds test. -/
theorem pos_inRange (h2 : ∀ i, (x2 i).toNat < 512) (i : S4096x1x1.Idx) :
    val_main_call0_v11 (F := Ideal) x2 i = 1#1 := by
  rw [val_main_call0_v11_apply, val_main_call0_v7_apply, val_main_call0_v10_apply, pos_colIdx x2 h2,
    val_main_call0_v6_apply, val_main_call0_c_2_apply, val_main_call0_v9_apply, val_main_call0_v8_apply,
    val_main_call0_c_1_apply]
  exact inrange_one _ (h2 _)

/-- So the conjunction over the size-one axis is one everywhere. -/
theorem pos_allInRange (h2 : ∀ i, (x2 i).toNat < 512) (j : S4096x1.Idx) :
    val_main_call0_v12 (F := Ideal) x2 j = 1#1 := by
  unfold val_main_call0_v12
  exact reduce_andi_one _ _ _ _ rfl (pos_inRange x2 h2) j

/-- The gather along the column axis at (n, 0): the table at the named row and the named column. -/
theorem pos_take (h1 : ∀ i, (x1 i).toNat < 100000) (h2 : ∀ i, (x2 i).toNat < 512) (n : Fin 4096) :
    val_main_call0_v13 (F := Ideal) x0 x1 x2 (ix2 n 0)
      = Cert.Data.E x0 (Cert.Data.row x1 n) (Cert.Data.col x2 n) := by
  unfold val_main_call0_v13
  rw [gather_cols _ _ n (Cert.Data.col x2 n), pos_row x0 x1 h1]
  rw [pos_colIdx x2 h2]
  show (x2 (ix1 n)).toNat % 512 = min (x2 (ix1 n)).toInt.toNat (512 - 1)
  rw [clamp_id _ 512 (by norm_num) (h2 _), Nat.mod_eq_of_lt (h2 _)]

/-- The target value of constraint n: the fill is never selected, and the reshape reads position (n, 0). -/
theorem pos_target (h1 : ∀ i, (x1 i).toNat < 100000) (h2 : ∀ i, (x2 i).toNat < 512) (n : Fin 4096) :
    val_main_v9 (F := Ideal) x0 x1 x2 (ix1 n)
      = Cert.Data.E x0 (Cert.Data.row x1 n) (Cert.Data.col x2 n) := by
  rw [val_main_v9_apply]
  have e : idx_main_v9 (ix1 n) = ix2 n 0 := by
    funext a
    match a with
    | ⟨0, _⟩ => exact Fin.ext (Nat.div_one _)
    | ⟨1, _⟩ => rfl
  rw [e, val_main_v8_apply, pos_allInRange x2 h2, pos_take x0 x1 x2 h1 h2]
  exact select_one _ _

/-- Constraint n's contribution: the sign term plus the sparsity term, as the positive class states them. -/
theorem pos_term (h1 : ∀ i, (x1 i).toNat < 100000) (h2 : ∀ i, (x2 i).toNat < 512) (n : Fin 4096) :
    val_main_v26 (F := Ideal) x0 x1 x2 (ix1 n)
      = Cert.Spec.posVal (Cert.Data.E x0 (Cert.Data.row x1 n)) (Cert.Data.col x2 n) := by
  have hrow : ∀ k : Fin 512, val_main_v19 (F := Ideal) x0 x1 (idx_main_v20 (ix1 n) k)
      = Cert.Spec.ab (Cert.Data.E x0 (Cert.Data.row x1 n) k) := by
    intro k
    have e : idx_main_v20 (ix1 n) k = ix2 n k := by
      funext a
      match a with
      | ⟨0, _⟩ => rfl
      | ⟨1, _⟩ => rfl
    rw [val_main_v19_apply, e]
    exact congrArg (fun t : EReal => max t (-t)) (pos_row x0 x1 h1 n k)
  simp only [val_main_v26_apply, val_main_v18_apply, val_main_v12_apply, val_main_v14_apply, val_main_v17_apply,
    val_main_v15_apply, val_main_v10_apply, val_main_v25_apply, val_main_v23_apply, val_main_v21_apply,
    val_main_v20_apply, val_main_v11_apply, val_main_v13_apply, val_main_v16_apply, val_main_v22_apply,
    val_main_v24_apply, val_main_cst_apply, val_main_cst_1_apply, val_main_cst_2_apply, val_main_cst_3_apply,
    val_main_cst_4_apply, val_main_cst_5_apply, pos_target x0 x1 x2 h1 h2, hrow]
  simp only [Ideal.hostAbsf_def, Ideal.hostNegf_def, Ideal.absf_def, Ideal.negf_def, Ideal.addf_def, Ideal.mulf_def,
    Ideal.subf_def, Ideal.hostDivf_def, Ideal.ofBits_def, Ideal.cmpf_def, select_ole, Ideal.ofBits_zero_f32, zero_add]
  rfl

end Chain

/-- With every row index below 100000 and every column index below 512, the reference's positive-class stage is
    the sum of the positive contributions. -/
theorem ref_pos (x0 : FVec Ideal S100000x512 .f32) (x1 x2 : IVec S4096 32)
    (h1 : ∀ i, (x1 i).toNat < 100000) (h2 : ∀ i, (x2 i).toNat < 512) :
    val_main_v27 (F := Ideal) x0 x1 x2 ix0
      = ∑ n : Fin 4096, Cert.Spec.posVal (Cert.Data.E x0 (Cert.Data.row x1 n)) (Cert.Data.col x2 n) := by
  rw [val_main_v27_apply, val_main_cst_6_apply, Ideal.ofBits_def, Ideal.ofBits_zero_f32, zero_add]
  refine ((Equiv.sum_comp (idxEquiv1 (n := 4096)).symm _).symm.trans ?_)
  exact Finset.sum_congr rfl fun n _ => pos_term x0 x1 x2 h1 h2 n

end Cert.RefValue

end
-- ==== Proof.RefNeg.lean ====
/-
  The reference's negative-class sum: over the 4096 negative constraints, the sign term plus the sparsity term of the
  gathered row at the selected column, summed from zero.
-/
import proofs.«401648_j22247930593476_2_alg».proof.Proof.RefImports
import proofs.«401648_j22247930593476_2_alg».proof.Proof.Spec
import proofs.«401648_j22247930593476_2_alg».proof.Proof.Data
import proofs.«401648_j22247930593476_2_alg».proof.Proof.RefPosLib
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

section Chain
variable (x0 : FVec Ideal S100000x512 .f32) (x3 x4 : IVec S4096 32)

/-- The row start indices, wrapped: the index word itself. -/
theorem neg_rowIdx (h3 : ∀ i, (x3 i).toNat < 100000) (i : S4096x1.Idx) :
    val_main_v33 (F := Ideal) x3 i = x3 (ix1 (i 0)) := by
  rw [val_main_v33_apply, val_main_v32_apply, val_main_v29_apply, val_main_v28_apply, val_main_c_7_apply]
  have e : idx_main_v33 i = ix1 (i 0) := by funext a; match a with | ⟨0, _⟩ => rfl
  rw [e]
  exact wrap_id _ _ (lt_trans (h3 _) (by norm_num))

/-- The gathered row at (n, j): the table at the row the n-th index word names, column j. -/
theorem neg_row (h3 : ∀ i, (x3 i).toNat < 100000) (n : Fin 4096) (j : Fin 512) :
    val_main_v34 (F := Ideal) x0 x3 (ix2 n j) = Cert.Data.E x0 (Cert.Data.row x3 n) j := by
  unfold val_main_v34
  refine gather_rows _ _ n j (Cert.Data.row x3 n) ?_
  rw [neg_rowIdx x3 h3]
  show (x3 (ix1 n)).toNat % 100000 = min (x3 (ix1 n)).toInt.toNat (100000 - 1)
  rw [clamp_id _ 100000 (by norm_num) (h3 _), Nat.mod_eq_of_lt (h3 _)]

/-- The column start indices, wrapped and reshaped: the index word itself. -/
theorem neg_colIdx (h4 : ∀ i, (x4 i).toNat < 512) (i : S4096x1x1.Idx) :
    val_main_call2_v5 (F := Ideal) x4 i = x4 (ix1 (i 0)) := by
  rw [val_main_call2_v5_apply, val_main_call2_v4_apply, val_main_call2_v1_apply, val_main_call2_v3_apply,
    val_main_v35_apply, val_main_call2_v0_apply, val_main_call2_c_apply]
  have e : idx_main_v35 (idx_main_call2_v5 i) = ix1 (i 0) := by
    funext a
    match a with
    | ⟨0, _⟩ =>
      refine Fin.ext ?_
      have k1 : (i 1).val < 1 := (i 1).isLt
      have k2 : (i 2).val < 1 := (i 2).isLt
      show (((i 0).val * 1 + (i 1).val) * 1 + (i 2).val) / 1 = (i 0).val
      omega
  rw [e]
  exact wrap_id _ _ (lt_trans (h4 _) (by norm_num))

/-- Every column start index passes the bounds test. -/
theorem neg_inRange (h4 : ∀ i, (x4 i).toNat < 512) (i : S4096x1x1.Idx) :
    val_main_call2_v11 (F := Ideal) x4 i = 1#1 := by
  rw [val_main_call2_v11_apply, val_main_call2_v7_apply, val_main_call2_v10_apply, neg_colIdx x4 h4,
    val_main_call2_v6_apply, val_main_call2_c_2_apply, val_main_call2_v9_apply, val_main_call2_v8_apply,
    val_main_call2_c_1_apply]
  exact inrange_one _ (h4 _)

/-- So the conjunction over the size-one axis is one everywhere. -/
theorem neg_allInRange (h4 : ∀ i, (x4 i).toNat < 512) (j : S4096x1.Idx) :
    val_main_call2_v12 (F := Ideal) x4 j = 1#1 := by
  unfold val_main_call2_v12
  exact reduce_andi_one _ _ _ _ rfl (neg_inRange x4 h4) j

/-- The gather along the column axis at (n, 0): the table at the named row and the named column. -/
theorem neg_take (h3 : ∀ i, (x3 i).toNat < 100000) (h4 : ∀ i, (x4 i).toNat < 512) (n : Fin 4096) :
    val_main_call2_v13 (F := Ideal) x0 x3 x4 (ix2 n 0)
      = Cert.Data.E x0 (Cert.Data.row x3 n) (Cert.Data.col x4 n) := by
  unfold val_main_call2_v13
  rw [gather_cols _ _ n (Cert.Data.col x4 n), neg_row x0 x3 h3]
  rw [neg_colIdx x4 h4]
  show (x4 (ix1 n)).toNat % 512 = min (x4 (ix1 n)).toInt.toNat (512 - 1)
  rw [clamp_id _ 512 (by norm_num) (h4 _), Nat.mod_eq_of_lt (h4 _)]

/-- The target value of constraint n: the fill is never selected, and the reshape reads position (n, 0). -/
theorem neg_target (h3 : ∀ i, (x3 i).toNat < 100000) (h4 : ∀ i, (x4 i).toNat < 512) (n : Fin 4096) :
    val_main_v37 (F := Ideal) x0 x3 x4 (ix1 n)
      = Cert.Data.E x0 (Cert.Data.row x3 n) (Cert.Data.col x4 n) := by
  rw [val_main_v37_apply]
  have e : idx_main_v37 (ix1 n) = ix2 n 0 := by
    funext a
    match a with
    | ⟨0, _⟩ => exact Fin.ext (Nat.div_one _)
    | ⟨1, _⟩ => rfl
  rw [e, val_main_v36_apply, neg_allInRange x4 h4, neg_take x0 x3 x4 h3 h4]
  exact select_one _ _

/-- Constraint n's contribution: the sign term plus the sparsity term, as the negative class states them. -/
theorem neg_term (h3 : ∀ i, (x3 i).toNat < 100000) (h4 : ∀ i, (x4 i).toNat < 512) (n : Fin 4096) :
    val_main_v54 (F := Ideal) x0 x3 x4 (ix1 n)
      = Cert.Spec.negVal (Cert.Data.E x0 (Cert.Data.row x3 n)) (Cert.Data.col x4 n) := by
  have hrow : ∀ k : Fin 512, val_main_v47 (F := Ideal) x0 x3 (idx_main_v48 (ix1 n) k)
      = Cert.Spec.ab (Cert.Data.E x0 (Cert.Data.row x3 n) k) := by
    intro k
    have e : idx_main_v48 (ix1 n) k = ix2 n k := by
      funext a
      match a with
      | ⟨0, _⟩ => rfl
      | ⟨1, _⟩ => rfl
    rw [val_main_v47_apply, e]
    exact congrArg (fun t : EReal => max t (-t)) (neg_row x0 x3 h3 n k)
  simp only [val_main_v54_apply, val_main_v46_apply, val_main_v40_apply, val_main_v42_apply, val_main_v45_apply,
    val_main_v43_apply, val_main_v38_apply, val_main_v53_apply, val_main_v51_apply, val_main_v49_apply,
    val_main_v48_apply, val_main_v39_apply, val_main_v41_apply, val_main_v44_apply, val_main_v50_apply,
    val_main_v52_apply, val_main_cst_9_apply, val_main_cst_10_apply, val_main_cst_11_apply, val_main_cst_12_apply,
    val_main_cst_13_apply, val_main_cst_14_apply, neg_target x0 x3 x4 h3 h4, hrow]
  simp only [Ideal.hostAbsf_def, Ideal.hostNegf_def, Ideal.absf_def, Ideal.negf_def, Ideal.addf_def, Ideal.mulf_def,
    Ideal.subf_def, Ideal.hostDivf_def, Ideal.ofBits_def, Ideal.cmpf_def, select_oge, Ideal.ofBits_zero_f32, zero_add]
  rfl

end Chain

/-- With every row index below 100000 and every column index below 512, the reference's negative-class stage is
    the sum of the negative contributions. -/
theorem ref_neg (x0 : FVec Ideal S100000x512 .f32) (x3 x4 : IVec S4096 32)
    (h3 : ∀ i, (x3 i).toNat < 100000) (h4 : ∀ i, (x4 i).toNat < 512) :
    val_main_v55 (F := Ideal) x0 x3 x4 ix0
      = ∑ n : Fin 4096, Cert.Spec.negVal (Cert.Data.E x0 (Cert.Data.row x3 n)) (Cert.Data.col x4 n) := by
  rw [val_main_v55_apply, val_main_cst_15_apply, Ideal.ofBits_def, Ideal.ofBits_zero_f32, zero_add]
  refine ((Equiv.sum_comp (idxEquiv1 (n := 4096)).symm _).symm.trans ?_)
  exact Finset.sum_congr rfl fun n _ => neg_term x0 x3 x4 h3 h4 n

end Cert.RefValue

end
-- ==== Proof.RefNeu.lean ====
/-
  The reference's neutral-class sum: over the 2048 neutral constraints, twice the absolute value of the one table
  entry the (row, column) pair selects, summed from zero.
-/
import proofs.«401648_j22247930593476_2_alg».proof.Proof.RefImports
import proofs.«401648_j22247930593476_2_alg».proof.Proof.Spec
import proofs.«401648_j22247930593476_2_alg».proof.Proof.Data
import Idealize.ShloMosaic.Lib.ValueIdx
import Idealize.ShloMosaic.Lib.ValueIdxRank1
import Idealize.ShloMosaic.Lib.StableHlo.Predicate
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

/-- A word below 2³¹ is not negative read signed. -/
theorem slt_zero_of_small (w : BitVec 32) (hw : w.toNat < 2 ^ 31) : IntOp.cmpi .slt w 0#32 = 0#1 := by
  apply eq_zero_of_ne_one
  intro h
  have := (Idealize.ShloMosaic.StableHlo.Predicate.slt_iff_toNat (a := w) (b := 0#32) hw (by decide)).1 h
  simp at this

/-- A row index below 100000 is not negative, so its wrap leaves it as it is. -/
theorem v60_at (x5 : IVec S2048 32) (h5 : ∀ i, (x5 i).toNat < 100000) (i : S2048.Idx) :
    val_main_v60 (F := Ideal) x5 i = x5 i := by
  rw [val_main_v60_apply, val_main_v57_apply, val_main_v56_apply, val_main_c_16_apply,
    slt_zero_of_small _ (lt_trans (h5 i) (by norm_num)), select_zero]

/-- A column index below 512 is not negative, so its wrap leaves it as it is. -/
theorem v65_at (x6 : IVec S2048 32) (h6 : ∀ i, (x6 i).toNat < 512) (i : S2048.Idx) :
    val_main_v65 (F := Ideal) x6 i = x6 i := by
  rw [val_main_v65_apply, val_main_v62_apply, val_main_v61_apply, val_main_c_18_apply,
    slt_zero_of_small _ (lt_trans (h6 i) (by norm_num)), select_zero]

/-- The start-index table at (n, 0) is the wrapped row index at n. -/
theorem v68_at0 (x5 x6 : IVec S2048 32) (n : Fin 2048) :
    val_main_v68 (F := Ideal) x5 x6 (ix2 n (0 : Fin 2)) = val_main_v60 (F := Ideal) x5 (ix1 n) := by
  unfold val_main_v68
  rw [concatenate_pair_apply_left (s₁ := S2048x1) (s₂ := S2048x1) (1 : Fin S2048x2.rank) _ _ _ (ix2 n (0 : Fin 2)) rfl
    ((ix2 n (0 : Fin 1)) : S2048x1.Idx) (fun b => match b with | ⟨0, _⟩ => rfl | ⟨1, _⟩ => rfl)]
  rw [val_main_v66_apply]
  congr 1
  funext a
  match a with
  | ⟨0, _⟩ => rfl

/-- The start-index table at (n, 1) is the wrapped column index at n. -/
theorem v68_at1 (x5 x6 : IVec S2048 32) (n : Fin 2048) :
    val_main_v68 (F := Ideal) x5 x6 (ix2 n (1 : Fin 2)) = val_main_v65 (F := Ideal) x6 (ix1 n) := by
  unfold val_main_v68
  rw [concatenate_pair_apply_right (s₁ := S2048x1) (s₂ := S2048x1) (1 : Fin S2048x2.rank) _ _ _ (ix2 n (1 : Fin 2)) rfl rfl
    ((ix2 n (0 : Fin 1)) : S2048x1.Idx)
    (fun b => match b with | ⟨0, _⟩ => fun _ => rfl | ⟨1, _⟩ => fun h => absurd rfl h) rfl]
  rw [val_main_v67_apply]
  congr 1
  funext a
  match a with
  | ⟨0, _⟩ => rfl

local notation "gd" => gather_S100000x512_S2048x2_S2048_n_01_n_n_01_1_11

/-- The gather at position n reads the table at position n's start index (row, column), each component read signed and
    clamped into the table. -/
theorem gather_pair_apply {α : Type} (x : S100000x512.Idx → α) (idx : IVec S2048x2 32) (n : Fin 2048) :
    Host.gather gd x idx (ix1 n)
      = x (ix2 (⟨min (idx (ix2 n (0 : Fin 2))).toInt.toNat 99999, by omega⟩ : Fin 100000)
               (⟨min (idx (ix2 n (1 : Fin 2))).toInt.toNat 511, by omega⟩ : Fin 512)) := by
  unfold Host.gather
  congr 1
  funext a
  match a with
  | ⟨0, _⟩ =>
    refine Fin.ext ?_
    show GatherDims.start gd (ix1 n) idx 0 + GatherDims.batchCoord gd (ix1 n) 0 + GatherDims.offCoord gd (ix1 n) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ (GatherDims.startIndexMap gd) from by decide)]
    have hsi : GatherDims.siIdx gd (ix1 n) ⟨List.idxOf (0 : Fin 2) (GatherDims.startIndexMap gd),
        List.idxOf_lt_length_iff.2 (by decide)⟩ = ix2 n (0 : Fin 2) := by
      funext b; refine Fin.ext ?_
      match b with
      | ⟨0, _⟩ => rfl
      | ⟨1, _⟩ => rfl
    rw [hsi]
    rfl
  | ⟨1, _⟩ =>
    refine Fin.ext ?_
    show GatherDims.start gd (ix1 n) idx 1 + GatherDims.batchCoord gd (ix1 n) 1 + GatherDims.offCoord gd (ix1 n) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ (GatherDims.startIndexMap gd) from by decide)]
    have hsi : GatherDims.siIdx gd (ix1 n) ⟨List.idxOf (1 : Fin 2) (GatherDims.startIndexMap gd),
        List.idxOf_lt_length_iff.2 (by decide)⟩ = ix2 n (1 : Fin 2) := by
      funext b; refine Fin.ext ?_
      match b with
      | ⟨0, _⟩ => rfl
      | ⟨1, _⟩ => rfl
    rw [hsi]
    rfl

/-- The gathered entry at position n is the table at (row n, column n). -/
theorem v69_at (x0 : FVec Ideal S100000x512 .f32) (x5 x6 : IVec S2048 32)
    (h5 : ∀ i, (x5 i).toNat < 100000) (h6 : ∀ i, (x6 i).toNat < 512) (n : Fin 2048) :
    val_main_v69 (F := Ideal) x0 x5 x6 (ix1 n)
      = x0 (ix2 (⟨(x5 (ix1 n)).toNat, h5 _⟩ : Fin 100000) (⟨(x6 (ix1 n)).toNat, h6 _⟩ : Fin 512)) := by
  unfold val_main_v69
  rw [gather_pair_apply]
  congr 1
  funext a
  match a with
  | ⟨0, _⟩ =>
    refine Fin.ext ?_
    show min (val_main_v68 (F := Ideal) x5 x6 (ix2 n (0 : Fin 2))).toInt.toNat 99999 = (x5 (ix1 n)).toNat
    have h := h5 (ix1 n)
    rw [v68_at0, v60_at x5 h5,
      Idealize.ShloMosaic.StableHlo.Predicate.toInt_eq_toNat_of_lt (lt_trans h (by norm_num)), Int.toNat_natCast]
    exact Nat.min_eq_left (by omega)
  | ⟨1, _⟩ =>
    refine Fin.ext ?_
    show min (val_main_v68 (F := Ideal) x5 x6 (ix2 n (1 : Fin 2))).toInt.toNat 511 = (x6 (ix1 n)).toNat
    have h := h6 (ix1 n)
    rw [v68_at1, v65_at x6 h6,
      Idealize.ShloMosaic.StableHlo.Predicate.toInt_eq_toNat_of_lt (lt_trans h (by norm_num)), Int.toNat_natCast]
    exact Nat.min_eq_left (by omega)

/-- With every row index below 100000 and every column index below 512, the reference's neutral-class stage is
    the sum of the neutral contributions. -/
theorem ref_neu (x0 : FVec Ideal S100000x512 .f32) (x5 x6 : IVec S2048 32)
    (h5 : ∀ i, (x5 i).toNat < 100000) (h6 : ∀ i, (x6 i).toNat < 512) :
    val_main_v73 (F := Ideal) x0 x5 x6 ix0
      = ∑ n : Fin 2048, Cert.Spec.neuVal (Cert.Data.E x0 (Cert.Data.row x5 n)) (Cert.Data.col x6 n) := by
  rw [val_main_v73_apply, val_main_cst_21_apply, Ideal.ofBits_def, Ideal.ofBits_zero_f32, zero_add,
    ← Equiv.sum_comp (idxEquiv1 (n := 2048)).symm]
  refine Finset.sum_congr rfl fun n _ => ?_
  show val_main_v72 (F := Ideal) x0 x5 x6 (ix1 n) = _
  rw [val_main_v72_apply, val_main_v71_apply, val_main_cst_20_apply, val_main_v70_apply, v69_at x0 x5 x6 h5 h6 n]
  have hr : (⟨(x5 (ix1 n)).toNat, h5 _⟩ : Fin 100000) = Cert.Data.row x5 n :=
    Fin.ext (Cert.Data.row_val x5 n (h5 _)).symm
  have hc : (⟨(x6 (ix1 n)).toNat, h6 _⟩ : Fin 512) = Cert.Data.col x6 n :=
    Fin.ext (Cert.Data.col_val x6 n (h6 _)).symm
  rw [hr, hc]
  rfl

end Cert.RefValue

end
-- ==== Proof.RefLoss.lean ====
/-
  The reference's result: half the mean of the three class sums.
-/
import proofs.«401648_j22247930593476_2_alg».proof.Proof.RefPos
import proofs.«401648_j22247930593476_2_alg».proof.Proof.RefNeg
import proofs.«401648_j22247930593476_2_alg».proof.Proof.RefNeu

noncomputable section

namespace Cert.RefValue

open Idealize.ShloMosaic Idealize.ShloMosaic.ValueIdx Cert.ReferenceIdeal Cert.ReferenceIdeal.Read

/-- With every index in range, the reference's result is the loss of the specification. -/
theorem ref_loss (x0 : FVec Ideal S100000x512 .f32) (x1 x2 x3 x4 : IVec S4096 32) (x5 x6 : IVec S2048 32)
    (h1 : ∀ i, (x1 i).toNat < 100000) (h2 : ∀ i, (x2 i).toNat < 512) (h3 : ∀ i, (x3 i).toNat < 100000)
    (h4 : ∀ i, (x4 i).toNat < 512) (h5 : ∀ i, (x5 i).toNat < 100000) (h6 : ∀ i, (x6 i).toNat < 512) :
    val_main_v77 (F := Ideal) x0 x1 x2 x3 x4 x5 x6 ix0
      = Cert.Spec.loss (Cert.Data.E x0) (Cert.Data.row x1) (Cert.Data.col x2) (Cert.Data.row x3) (Cert.Data.col x4)
          (Cert.Data.row x5) (Cert.Data.col x6) := by
  rw [val_main_v77_apply, val_main_v76_apply, val_main_v75_apply, val_main_v74_apply, val_main_cst_23_apply,
    val_main_cst_22_apply, ref_pos x0 x1 x2 h1 h2, ref_neg x0 x3 x4 h3 h4, ref_neu x0 x5 x6 h5 h6]
  simp only [Ideal.mulf_def, Ideal.hostDivf_def, Ideal.addf_def, Ideal.ofBits_def, Cert.Spec.loss, Cert.Spec.total,
    Cert.Spec.chalf, Cert.Spec.cN]

end Cert.RefValue

end
-- ==== Proof.PreRange.lean ====
/-
  What the precondition says of the integer inputs: every row index is below 100000 and every column index below
  512, read as unsigned words (a word that is ≥ 0 and < n as a signed integer is < n unsigned).
-/
import proofs.«401648_j22247930593476_2_alg».proof.Pre_finite_inputs
import Idealize.ShloMosaic.Lib.ReduceAll
import Idealize.ShloMosaic.Lib.StableHlo.Predicate

noncomputable section

namespace Cert.PreRange

open Idealize.ShloMosaic Cert.Pre_finite_inputs

variable {F : FTy → Type} [FloatOps F] [Cert.Pre_finite_inputs.Facts]

/-- The rank-0 shape has one index. -/
instance : Subsingleton S_.Idx := ⟨fun _ _ => funext fun d => d.elim0⟩

/-- The index of the rank-0 shape. -/
def i0 : S_.Idx := fun d => d.elim0

/-- A 32-bit word that is ≥ 0 and < n as a signed integer (n < 2³¹) is < n as an unsigned one. -/
theorem toNat_lt (w : BitVec 32) (n : ℕ) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw : 2 * w.toNat < 2 ^ 32 := BitVec.toInt_pos_iff.1 h0
  rw [StableHlo.Predicate.toInt_eq_toNat_of_lt (by omega)] at h1
  omega

/-- The elementwise `and` read at an index. -/
theorem andi_apply {s : Shape} {w : ℕ} (x y : IVec s w) (i : s.Idx) : andi x y i = IntOp.andi (x i) (y i) := rfl

/-- `jnp.all((a ≥ 0) & (a < n))` being 1 bounds every word of `a`. -/
theorem all_range {s : Shape} {axes : List (Fin s.rank)} (a : IVec s 32) (n : ℕ) (hn : n < 2 ^ 31)
    (hb : S_.BroadcastsInDim s (![] : Fin 0 → Fin s.rank)) (hr : s.ReducesTo axes S_) (h0 : 0 < S_.numel) (c : IVec S_ 1)
    (j : S_.Idx)
    (e : Host.reduce IntOp.andi
        (andi (cmpi .sge a (broadcastInDim s ![] hb (constantI S_ 32 0#32)))
          (cmpi .slt a (broadcastInDim s ![] hb (constantI S_ 32 (BitVec.ofNat 32 n))))) c hr h0 j = 1#1) :
    ∀ i, (a i).toNat < n := by
  intro i
  have hi := Host.reduce_andi_all _ _ hr h0 j e i
  simp only [andi, cmpi, broadcastInDim, constantI] at hi
  obtain ⟨p, q⟩ := IntOp.andi_eq_one.1 hi
  exact toNat_lt _ n hn p q

/-- The printed precondition, all ones, bounds every index word. -/
theorem of_pre (a0 : FVec F S100000x512 .f32) (a1 a2 a3 a4 : IVec S4096 32) (a5 a6 : IVec S2048 32)
    (h : Cert.Pre_finite_inputs.fn (F := F) a0 a1 a2 a3 a4 a5 a6 = fun _ => 1#1) :
    (∀ i, (a1 i).toNat < 100000) ∧ (∀ i, (a2 i).toNat < 512) ∧ (∀ i, (a3 i).toNat < 100000)
      ∧ (∀ i, (a4 i).toNat < 512) ∧ (∀ i, (a5 i).toNat < 100000) ∧ (∀ i, (a6 i).toNat < 512) := by
  have e := congrFun h i0
  dsimp only [Cert.Pre_finite_inputs.fn, fn_part1, fn_part2] at e
  simp only [andi_apply, IntOp.andi_eq_one] at e
  obtain ⟨⟨⟨⟨⟨⟨-, e1⟩, e2⟩, e3⟩, e4⟩, e5⟩, e6⟩ := e
  exact ⟨all_range a1 100000 (by omega) _ _ _ _ _ e1, all_range a2 512 (by omega) _ _ _ _ _ e2,
    all_range a3 100000 (by omega) _ _ _ _ _ e3, all_range a4 512 (by omega) _ _ _ _ _ e4,
    all_range a5 100000 (by omega) _ _ _ _ _ e5, all_range a6 512 (by omega) _ _ _ _ _ e6⟩

end Cert.PreRange

end
-- ==== Proof.lean ====
/-
  The dimensional-consistency loss: a gather kernel against its jnp reference, equal over the extended reals.

  Each of 10240 constraints names a row of the 100000 × 512 table (a row id) and a column (a column id); with
  `t` the row's entry at the column, `a = |t|` and `S` the sum of the row's absolute values, a positive constraint
  contributes `(a + 0.1 if t ≤ 0 else (−t)·0.1) + (0.1·(S − a))/511`, a negative one
  `(a + 0.1 if 0 ≤ t else (−a)·0.1) + (0.1·(S − a))/511`, a neutral one `2·a`; the loss is half the mean contribution.
  The reference gathers the rows class by class and sums each class. The kernel joins the three classes' index arrays
  into tables it prefetches, walks a 2 × 5120 grid with one constraint per point — copying the constraint's row from the
  table array into a scratch row, selecting the target by a lane mask, and adding the contribution into entry (0, 0) of
  an output block that is reset at the first point of each half and written back after its last — and the host adds the
  two halves' totals, divides by 10240 and halves.

  Both programs index the table with the integer inputs, so the claim is stated where every row id is in [0, 100000)
  and every column id in [0, 512): outside that range the reference itself indexes out of range (its gathers clamp or
  fill), and the kernel's row copy has no source.

  The three frames: the kernel's (at the word level and idealized, the same text) by the pipeline library's frame run
  for a kernel with prefetched tables that moves an operand itself within each point, with host lines before and after
  the region, under the one side condition the body assumes — the row it copies lies inside the table array — which the
  range of the row ids gives; the reference's from its run. The idealization rewrote nothing, so `preserves` is trivial.
  `algebraic`: the kernel's result is the host tail of the two running totals; each total steps by the constraint's
  contribution (the masked lane sum of the row is its entry at the column; the rest is the same arithmetic on the
  same float words); the constraints are the three classes in order, so the two halves' totals add up to the three
  class sums the reference computes; nothing but commutativity and associativity of the extended reals' sum is used.
-/
import proofs.«401648_j22247930593476_2_alg».proof.Defs
import proofs.«401648_j22247930593476_2_alg».proof.Proof.Gen.Kernel
import proofs.«401648_j22247930593476_2_alg».proof.Proof.Gen.KernelIdeal
import proofs.«401648_j22247930593476_2_alg».proof.Proof.Gen.ReferenceIdeal
import proofs.«401648_j22247930593476_2_alg».proof.Proof.Gen.Pre_finite_inputs
import proofs.«401648_j22247930593476_2_alg».proof.Proof.KbPost
import proofs.«401648_j22247930593476_2_alg».proof.Proof.KbHyps
import proofs.«401648_j22247930593476_2_alg».proof.Proof.KiLoss
import proofs.«401648_j22247930593476_2_alg».proof.Proof.RefLoss
import proofs.«401648_j22247930593476_2_alg».proof.Proof.PreRange

noncomputable section

namespace Cert.Proof

open Idealize.ShloMosaic Idealize.ShloMosaic.TcCoe Idealize.SL.Sem

/-- The precondition bounds the row ids, so the word-level kernel's body finds its row inside the table at every point. -/
theorem hyps_kernel (m : (ℓ : Loc Cert.Kernel.nD Cert.Kernel.τ Cert.Kernel.sig) → Buf (Elt Bits) ℓ) (h : Cert.Pre_Kernel m) :
    Cert.Kernel.Hand.Hyps m := by
  obtain ⟨h1, -, h3, -, h5, -⟩ := Cert.PreRange.of_pre (F := Bits) _ _ _ _ _ _ _ (h 0)
  exact fun i => Cert.Kernel.Hand.chk_of_range m h1 h3 h5 i

/-- The same for the idealized kernel. -/
theorem hyps_kernelIdeal (m : (ℓ : Loc Cert.KernelIdeal.nD Cert.KernelIdeal.τ Cert.KernelIdeal.sig) → Buf (Elt Ideal) ℓ) (h : Cert.Pre_KernelIdeal m) :
    Cert.KernelIdeal.Hand.Hyps m := by
  obtain ⟨h1, -, h3, -, h5, -⟩ := Cert.PreRange.of_pre (F := Ideal) _ _ _ _ _ _ _ (h 0)
  exact fun i => Cert.KernelIdeal.Hand.chk_of_range m h1 h3 h5 i

theorem frame_k : Cert.frame_Kernel := fun m g h => Cert.Kernel.Hand.frame m g (hyps_kernel m h)

theorem frame_ki : Cert.frame_KernelIdeal := fun m g h => Cert.KernelIdeal.Hand.frame m g (hyps_kernelIdeal m h)

/-- The reference's frame is its run with the result dropped. -/
theorem frame_ri : Cert.frame_ReferenceIdeal := fun m g _ =>
  (θ_run Cert.ReferenceIdeal.defs _ _).mono (fun _ h c => (h c).2) (Cert.ReferenceIdeal.Value.run (F := Ideal) m g)

/-- Both idealized programs end with the specification's loss of arguments that agree. -/
theorem algebraic : Cert.algebraic_KernelIdeal_ReferenceIdeal := by
  intro m g m' g' hpre hagree
  have hH := hyps_kernelIdeal m hpre
  refine ⟨fun c => Pipeline.afterTail Cert.KernelIdeal.pcfgs (fun _ => Cert.KernelIdeal.Hand.adm m) (Cert.KernelIdeal.Hand.dats m hH) 0 (Cert.KernelIdeal.Hand.V0 m) [Cert.KernelIdeal.Gen.hostOps1] c Cert.KernelIdeal.main_v13,
    Cert.KernelIdeal.Hand.run_post m g hH, ?_⟩
  refine (θ_run Cert.ReferenceIdeal.defs _ _).mono (fun _ h c => ⟨(h c).1.trans ?_, (h c).2⟩)
    (Cert.ReferenceIdeal.Value.run (F := Ideal) m' g')
  obtain ⟨h1, h2, h3, h4, h5, h6⟩ := Cert.PreRange.of_pre (F := Ideal) _ _ _ _ _ _ _ (hpre c)
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2]
  funext i
  obtain rfl : i = ValueIdx.ix0 := funext fun a => a.elim0
  exact (Cert.RefValue.ref_loss _ _ _ _ _ _ _ h1 h2 h3 h4 h5 h6).trans (Cert.KernelIdeal.Hand.kernel_loss m hH c h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
